-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S2x512x512 : Shape := ⟨3, ![2, 512, 512]⟩
abbrev S2x512 : Shape := ⟨2, ![2, 512]⟩
abbrev S16x1024 : Shape := ⟨2, ![16, 1024]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_

variable [Facts]

def fn_part1 {F : FTy → Type} [FloatOps F] (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  main_v18

def fn {F : FTy → Type} [FloatOps F] (main_arg0 : FVec F S16x1024x512 .f32) (main_arg1 : FVec F S16x1024x512 .f32) (main_arg2 : FVec F S2x512x512 .f32) (main_arg3 : FVec F S2x512 .f32) (main_arg4 : IVec S16x1024 32) (main_arg5 : IVec S16x1024 32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S2x512 .f32 := Host.absf main_arg3
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_v13 main_v16
-- ==== Kernel.lean ====
abbrev S16x1024x512 : Shape := ⟨3, ![16, 1024, 512]⟩
abbrev S2x512x512 : Shape := ⟨3, ![2, 512, 512]⟩
abbrev S2x512 : Shape := ⟨2, ![2, 512]⟩
abbrev S16x1024 : Shape := ⟨2, ![16, 1024]⟩
abbrev S32x1024x512 : Shape := ⟨3, ![32, 1024, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1024x512 : Shape := ⟨3, ![1, 1024, 512]⟩
abbrev S1024x512 : Shape := ⟨2, ![1024, 512]⟩
abbrev S16x1024x1 : Shape := ⟨3, ![16, 1024, 1]⟩
abbrev S16x1x1024 : Shape := ⟨3, ![16, 1, 1024]⟩
abbrev S1x1024x1 : Shape := ⟨3, ![1, 1024, 1]⟩
abbrev S1x1x1024 : Shape := ⟨3, ![1, 1, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 34
  | .vmem => 47
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S2x512x512, .f32⟩
  | .hbm, ⟨3, _⟩ => ⟨S2x512, .f32⟩
  | .hbm, ⟨4, _⟩ => ⟨S16x1024, .i32⟩
  | .hbm, ⟨5, _⟩ => ⟨S16x1024, .i32⟩
  | .hbm, ⟨6, _⟩ => ⟨S16x1024x512, .bf16⟩
  | .hbm, ⟨7, _⟩ => ⟨S16x1024x512, .bf16⟩
  | .hbm, ⟨8, _⟩ => ⟨S32x1024x512, .bf16⟩
  | .hbm, ⟨9, _⟩ => ⟨S1x512x512, .f32⟩
  | .hbm, ⟨10, _⟩ => ⟨S512x512, .f32⟩
  | .hbm, ⟨11, _⟩ => ⟨S512x512, .bf16⟩
  | .hbm, ⟨12, _⟩ => ⟨S1x512x512, .f32⟩
  | .hbm, ⟨13, _⟩ => ⟨S512x512, .f32⟩
  | .hbm, ⟨14, _⟩ => ⟨S512x512, .bf16⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S32x1024x512, .bf16⟩
  | .hbm, ⟨22, _⟩ => ⟨S32x1024x512, .bf16⟩
  | .hbm, ⟨23, _⟩ => ⟨S16x1024x512, .bf16⟩
  | .hbm, ⟨24, _⟩ => ⟨S16x1024x512, .bf16⟩
  | .hbm, ⟨25, _⟩ => ⟨S16x1024x512, .bf16⟩
  | .hbm, ⟨26, _⟩ => ⟨S16x1024x512, .bf16⟩
  | .hbm, ⟨27, _⟩ => ⟨S16x1024x1, .i32⟩
  | .hbm, ⟨28, _⟩ => ⟨S16x1x1024, .i32⟩
  | .hbm, ⟨29, _⟩ => ⟨S16x1x1024, .i32⟩
  | .hbm, ⟨30, _⟩ => ⟨S16x1024x512, .f32⟩
  | .hbm, ⟨31, _⟩ => ⟨S16x1024x512, .f32⟩
  | .hbm, ⟨32, _⟩ => ⟨S16x1024x512, .f32⟩
  | .hbm, ⟨33, _⟩ => ⟨S16x1024x512, .f32⟩
  | .local _ .vmem, ⟨0, _⟩ => ⟨S1x1024x512, .bf16⟩
  | .local _ .vmem, ⟨1, _⟩ => ⟨S1x1024x512, .bf16⟩
  | .local _ .vmem, ⟨2, _⟩ => ⟨S512x512, .bf16⟩
  | .local _ .vmem, ⟨3, _⟩ => ⟨S1x512, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S512x512, .bf16⟩
  | .local _ .vmem, ⟨9, _⟩ => ⟨S1x512, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x1, .i32⟩
  | .local _ .vmem, ⟨21, _⟩ => ⟨S1x1024x1, .i32⟩
  | .local _ .vmem, ⟨22, _⟩ => ⟨S1x1x1024, .i32⟩
  | .local _ .vmem, ⟨23, _⟩ => ⟨S1x1x1024, .i32⟩
  | .local _ .vmem, ⟨24, _⟩ => ⟨S1x1024x512, .f32⟩
  | .local _ .vmem, ⟨25, _⟩ => ⟨S1x1024x512, .f32⟩
  | .local _ .vmem, ⟨26, _⟩ => ⟨S1x1024x512, .f32⟩
  | .local _ .vmem, ⟨27, _⟩ => ⟨S1x1024x512, .f32⟩
  | .local _ .vmem, ⟨28, _⟩ => ⟨S1024x1024, .f32⟩
  | .local _ .vmem, ⟨29, _⟩ => ⟨S1x1024x512, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x1024x512, .bf16⟩
  | .local _ .vmem, ⟨33, _⟩ => ⟨S1x1x1024, .i32⟩
  | .local _ .vmem, ⟨34, _⟩ => ⟨S1x1x1024, .i32⟩
  | .local _ .vmem, ⟨35, _⟩ => ⟨S1x1024x512, .f32⟩
  | .local _ .vmem, ⟨36, _⟩ => ⟨S1x1024x512, .f32⟩
  | .local _ .vmem, ⟨37, _⟩ => ⟨S1024x1024, .f32⟩
  | .local _ .vmem, ⟨38, _⟩ => ⟨S1x1024x512, .bf16⟩
  | .local _ .vmem, ⟨39, _⟩ => ⟨S1x1024x512, .bf16⟩
  | .local _ .vmem, ⟨40, _⟩ => ⟨S1x1024x512, .bf16⟩
  | .local _ .vmem, ⟨41, _⟩ => ⟨S1x1024x512, .bf16⟩
  | .local _ .vmem, ⟨42, _⟩ => ⟨S1x1x1024, .i32⟩
  | .local _ .vmem, ⟨43, _⟩ => ⟨S1x1x1024, .i32⟩
  | .local _ .vmem, ⟨44, _⟩ => ⟨S1x1024x512, .f32⟩
  | .local _ .vmem, ⟨45, _⟩ => ⟨S1x1024x512, .f32⟩
  | .local _ .vmem, ⟨46, _⟩ => ⟨S1024x1024, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_scratch0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x1024 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1024x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x1024 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x1024 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bitsLt_bf16_f32 : FTy.bits .bf16 < FTy.bits .f32
  concatenates_S16x1024x512_S16x1024x512_S32x1024x512_d0 : Shape.Concatenates [S16x1024x512, S16x1024x512] S32x1024x512 0
  slices_S2x512x512_S1x512x512_0_0_0 : S2x512x512.Slices ![0, 0, 0] S1x512x512
  shapeCasts_S1x512x512_S512x512 : S1x512x512.ShapeCasts S512x512
  slices_S2x512x512_S1x512x512_1_0_0 : S2x512x512.Slices ![1, 0, 0] S1x512x512
  slices_S2x512_S1x512_0_0 : S2x512.Slices ![0, 0] S1x512
  shapeCasts_S1x512_S512 : S1x512.ShapeCasts S512
  shapeCasts_S512_S1x512 : S512.ShapeCasts S1x512
  slices_S2x512_S1x512_1_0 : S2x512.Slices ![1, 0] S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  slices_S32x1024x512_S16x1024x512_0_0_0 : S32x1024x512.Slices ![0, 0, 0] S16x1024x512
  slices_S32x1024x512_S16x1024x512_16_0_0 : S32x1024x512.Slices ![16, 0, 0] S16x1024x512
  shapeCasts_S16x1024_S16x1024x1 : S16x1024.ShapeCasts S16x1024x1
  shapeCasts_S16x1024_S16x1x1024 : S16x1024.ShapeCasts S16x1x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  dot_S1024x512_S512x512_S1024x512_1_0_0_1_n_n_wf : DotDims.WF S1024x512 S512x512 S1024x512 [1] [0] [0] [1] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  dot_S1024x1024_S1024x512_S1024x512_0_0_1_1_n_n_wf : DotDims.WF S1024x1024 S1024x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .bf16 = 32 ∨ (Rect.block (s := S32x1024x512) S1x1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S32x1024x512.size a
  hwx0_3 : ∀ i : grid0.Coords, EltTy.bits .bf16 = 32 ∨ (Rect.block (s := S32x1024x512) S1x1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S32x1024x512.size a
  hwx1_0 : ∀ i : grid1.Coords, EltTy.bits .bf16 = 32 ∨ (Rect.block (s := S32x1024x512) S1x1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S32x1024x512.size a
  hwx1_3 : ∀ i : grid1.Coords, EltTy.bits .bf16 = 32 ∨ (Rect.block (s := S32x1024x512) S1x1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S16x1024x512.size a
  hwx2_0 : ∀ i : grid2.Coords, EltTy.bits .bf16 = 32 ∨ (Rect.block (s := S16x1024x512) S1x1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x512.size a ≤ S16x1024x512.size a
  hwx2_1 : ∀ i : grid2.Coords, EltTy.bits .bf16 = 32 ∨ (Rect.block (s := S16x1024x512) S1x1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x512.size a ≤ S16x1024x512.size a
  hwx2_2 : ∀ i : grid2.Coords, EltTy.bits .bf16 = 32 ∨ (Rect.block (s := S16x1024x512) S1x1024x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x512.size a ≤ S16x1024x512.size a
  hwx2_3 : ∀ i : grid2.Coords, EltTy.bits .bf16 = 32 ∨ (Rect.block (s := S16x1024x512) S1x1024x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x1.size a ≤ S16x1024x1.size a
  hwx2_4 : ∀ i : grid2.Coords, EltTy.bits .i32 = 32 ∨ (Rect.block (s := S16x1024x1) S1x1024x1.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x1024.size a ≤ S16x1x1024.size a
  hwx2_5 : ∀ i : grid2.Coords, EltTy.bits .i32 = 32 ∨ (Rect.block (s := S16x1x1024) S1x1x1024.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024x512.size a ≤ S16x1024x512.size a
  hwx2_6 : ∀ i : grid2.Coords, EltTy.bits .f32 = 32 ∨ (Rect.block (s := S16x1024x512) S1x1024x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1024x512.size a ≤ S16x1024x512.size a
  hwx2_7 : ∀ i : grid2.Coords, EltTy.bits .f32 = 32 ∨ (Rect.block (s := S16x1024x512) S1x1024x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x512.size a ≤ S16x1024x512.size a
  hwx3_0 : ∀ i : grid3.Coords, EltTy.bits .bf16 = 32 ∨ (Rect.block (s := S16x1024x512) S1x1024x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024x512.size a ≤ S16x1024x512.size a
  hwx3_1 : ∀ i : grid3.Coords, EltTy.bits .bf16 = 32 ∨ (Rect.block (s := S16x1024x512) S1x1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1024.size a ≤ S16x1x1024.size a
  hwx3_2 : ∀ i : grid3.Coords, EltTy.bits .i32 = 32 ∨ (Rect.block (s := S16x1x1024) S1x1x1024.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x512.size a ≤ S16x1024x512.size a
  hwx3_3 : ∀ i : grid3.Coords, EltTy.bits .f32 = 32 ∨ (Rect.block (s := S16x1024x512) S1x1024x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1024x512.size a ≤ S16x1024x512.size a
  hwx4_0 : ∀ i : grid4.Coords, EltTy.bits .bf16 = 32 ∨ (Rect.block (s := S16x1024x512) S1x1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1024x512.size a ≤ S16x1024x512.size a
  hwx4_1 : ∀ i : grid4.Coords, EltTy.bits .bf16 = 32 ∨ (Rect.block (s := S16x1024x512) S1x1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x1024.size a ≤ S16x1x1024.size a
  hwx4_2 : ∀ i : grid4.Coords, EltTy.bits .i32 = 32 ∨ (Rect.block (s := S16x1x1024) S1x1x1024.size (cc4_transform_2 i) (hinb4_2 i)).WholeWords (EltTy.packing .i32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024x512.size a ≤ S16x1024x512.size a
  hwx4_3 : ∀ i : grid4.Coords, EltTy.bits .f32 = 32 ∨ (Rect.block (s := S16x1024x512) S1x1024x512.size (cc4_transform_3 i) (hinb4_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf

abbrev win0_0 : Pipeline.Window sig grid0 :=
  Pipeline.Window.ofSpec (Memref.whole main_v2) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x1024x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x1024x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1x1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v24_0) S1x1024x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v24_1) S1x1024x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v0) S1x1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1x1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25) S1x1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1) S1x1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S1x1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S1x1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v26) S1x1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S16x1024x512 : Shape := ⟨3, ![16, 1024, 512]⟩
abbrev S2x512x512 : Shape := ⟨3, ![2, 512, 512]⟩
abbrev S2x512 : Shape := ⟨2, ![2, 512]⟩
abbrev S16x1024 : Shape := ⟨2, ![16, 1024]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S16x1024x1024 : Shape := ⟨3, ![16, 1024, 1024]⟩
abbrev S16x1x1024 : Shape := ⟨3, ![16, 1, 1024]⟩
abbrev S16x1024x1 : Shape := ⟨3, ![16, 1024, 1]⟩

abbrev nBuf : Space → Nat
  | .hbm => 153
  | .vmem => 0
  | .smem => 0
  | _ => 0

abbrev hbmTy0_0 (i : Nat) : BufTy := match i % 128 with
  | 0 => ⟨S16x1024x512, .f32⟩
  | 1 => ⟨S16x1024x512, .f32⟩
  | 2 => ⟨S2x512x512, .f32⟩
  | 3 => ⟨S2x512, .f32⟩
  | 4 => ⟨S16x1024, .i32⟩
  | 5 => ⟨S16x1024, .i32⟩
  | 6 => ⟨S1x512x512, .f32⟩
  | 7 => ⟨S512x512, .f32⟩
  | 8 => ⟨S16x1024x512, .f32⟩
  | 9 => ⟨S1x512, .f32⟩
  | 10 => ⟨S512, .f32⟩
  | 11 => ⟨S1x1x512, .f32⟩
  | 12 => ⟨S16x1024x512, .f32⟩
  | 13 => ⟨S16x1024x512, .f32⟩
  | 14 => ⟨S_, .f32⟩
  | 15 => ⟨S16x1024x512, .f32⟩
  | 16 => ⟨S16x1024x512, .f32⟩
  | 17 => ⟨S1x512x512, .f32⟩
  | 18 => ⟨S512x512, .f32⟩
  | 19 => ⟨S16x1024x512, .f32⟩
  | 20 => ⟨S1x512, .f32⟩
  | 21 => ⟨S512, .f32⟩
  | 22 => ⟨S1x1x512, .f32⟩
  | 23 => ⟨S16x1024x512, .f32⟩
  | 24 => ⟨S16x1024x512, .f32⟩
  | 25 => ⟨S_, .f32⟩
  | 26 => ⟨S16x1024x512, .f32⟩
  | 27 => ⟨S16x1024x512, .f32⟩
  | 28 => ⟨S16x1024x1024, .f32⟩
  | 29 => ⟨S16x1024, .f32⟩
  | 30 => ⟨S16x1x1024, .f32⟩
  | 31 => ⟨S_, .f32⟩
  | 32 => ⟨S16x1x1024, .f32⟩
  | 33 => ⟨S16x1x1024, .f32⟩
  | 34 => ⟨S_, .f32⟩
  | 35 => ⟨S16x1x1024, .f32⟩
  | 36 => ⟨S16x1x1024, .f32⟩
  | 37 => ⟨S16x1024x1024, .f32⟩
  | 38 => ⟨S16x1024x1024, .f32⟩
  | 39 => ⟨S_, .f32⟩
  | 40 => ⟨S16x1024, .f32⟩
  | 41 => ⟨S_, .f32⟩
  | 42 => ⟨S16x1024, .f32⟩
  | 43 => ⟨S16x1024, .f32⟩
  | 44 => ⟨S16x1024x1, .f32⟩
  | 45 => ⟨S16x1024x1024, .f32⟩
  | 46 => ⟨S16x1024x1024, .f32⟩
  | 47 => ⟨S16x1024x1024, .f32⟩
  | 48 => ⟨S_, .f32⟩
  | 49 => ⟨S16x1024, .f32⟩
  | 50 => ⟨S16x1024x1, .f32⟩
  | 51 => ⟨S16x1024x1024, .f32⟩
  | 52 => ⟨S16x1024x1024, .f32⟩
  | 53 => ⟨S16x1024x512, .f32⟩
  | 54 => ⟨S16x1024, .f32⟩
  | 55 => ⟨S16x1024x1, .f32⟩
  | 56 => ⟨S_, .f32⟩
  | 57 => ⟨S16x1024x1, .f32⟩
  | 58 => ⟨S16x1024x1, .f32⟩
  | 59 => ⟨S_, .f32⟩
  | 60 => ⟨S16x1024x1, .f32⟩
  | 61 => ⟨S16x1024x1, .f32⟩
  | 62 => ⟨S16x1024x1024, .f32⟩
  | 63 => ⟨S16x1024x1024, .f32⟩
  | 64 => ⟨S_, .f32⟩
  | 65 => ⟨S16x1024, .f32⟩
  | 66 => ⟨S_, .f32⟩
  | 67 => ⟨S16x1024, .f32⟩
  | 68 => ⟨S16x1024, .f32⟩
  | 69 => ⟨S16x1x1024, .f32⟩
  | 70 => ⟨S16x1024x1024, .f32⟩
  | 71 => ⟨S16x1024x1024, .f32⟩
  | 72 => ⟨S16x1024x1024, .f32⟩
  | 73 => ⟨S_, .f32⟩
  | 74 => ⟨S16x1024, .f32⟩
  | 75 => ⟨S16x1x1024, .f32⟩
  | 76 => ⟨S16x1024x1024, .f32⟩
  | 77 => ⟨S16x1024x1024, .f32⟩
  | 78 => ⟨S16x1024x512, .f32⟩
  | 79 => ⟨S1x512x512, .f32⟩
  | 80 => ⟨S512x512, .f32⟩
  | 81 => ⟨S16x1024x512, .f32⟩
  | 82 => ⟨S1x512, .f32⟩
  | 83 => ⟨S512, .f32⟩
  | 84 => ⟨S1x1x512, .f32⟩
  | 85 => ⟨S16x1024x512, .f32⟩
  | 86 => ⟨S16x1024x512, .f32⟩
  | 87 => ⟨S_, .f32⟩
  | 88 => ⟨S16x1024x512, .f32⟩
  | 89 => ⟨S16x1024x512, .f32⟩
  | 90 => ⟨S1x512x512, .f32⟩
  | 91 => ⟨S512x512, .f32⟩
  | 92 => ⟨S16x1024x512, .f32⟩
  | 93 => ⟨S1x512, .f32⟩
  | 94 => ⟨S512, .f32⟩
  | 95 => ⟨S1x1x512, .f32⟩
  | 96 => ⟨S16x1024x512, .f32⟩
  | 97 => ⟨S16x1024x512, .f32⟩
  | 98 => ⟨S_, .f32⟩
  | 99 => ⟨S16x1024x512, .f32⟩
  | 100 => ⟨S16x1024x512, .f32⟩
  | 101 => ⟨S16x1024x1024, .f32⟩
  | 102 => ⟨S16x1024x1024, .f32⟩
  | 103 => ⟨S16x1024, .f32⟩
  | 104 => ⟨S16x1x1024, .f32⟩
  | 105 => ⟨S_, .f32⟩
  | 106 => ⟨S16x1x1024, .f32⟩
  | 107 => ⟨S16x1x1024, .f32⟩
  | 108 => ⟨S_, .f32⟩
  | 109 => ⟨S16x1x1024, .f32⟩
  | 110 => ⟨S16x1x1024, .f32⟩
  | 111 => ⟨S16x1024x1024, .f32⟩
  | 112 => ⟨S16x1024x1024, .f32⟩
  | 113 => ⟨S_, .f32⟩
  | 114 => ⟨S16x1024, .f32⟩
  | 115 => ⟨S_, .f32⟩
  | 116 => ⟨S16x1024, .f32⟩
  | 117 => ⟨S16x1024, .f32⟩
  | 118 => ⟨S16x1024x1, .f32⟩
  | 119 => ⟨S16x1024x1024, .f32⟩
  | 120 => ⟨S16x1024x1024, .f32⟩
  | 121 => ⟨S16x1024x1024, .f32⟩
  | 122 => ⟨S_, .f32⟩
  | 123 => ⟨S16x1024, .f32⟩
  | 124 => ⟨S16x1024x1, .f32⟩
  | 125 => ⟨S16x1024x1024, .f32⟩
  | 126 => ⟨S16x1024x1024, .f32⟩
  | 127 => ⟨S16x1024x512, .f32⟩
  | _ => ⟨S16x1024x512, .f32⟩

abbrev hbmTy0_1 (i : Nat) : BufTy := match i % 128 with
  | 0 => ⟨S16x1024, .f32⟩
  | 1 => ⟨S16x1x1024, .f32⟩
  | 2 => ⟨S_, .f32⟩
  | 3 => ⟨S16x1x1024, .f32⟩
  | 4 => ⟨S16x1x1024, .f32⟩
  | 5 => ⟨S_, .f32⟩
  | 6 => ⟨S16x1x1024, .f32⟩
  | 7 => ⟨S16x1x1024, .f32⟩
  | 8 => ⟨S16x1024x1024, .f32⟩
  | 9 => ⟨S16x1024x1024, .f32⟩
  | 10 => ⟨S_, .f32⟩
  | 11 => ⟨S16x1024, .f32⟩
  | 12 => ⟨S_, .f32⟩
  | 13 => ⟨S16x1024, .f32⟩
  | 14 => ⟨S16x1024, .f32⟩
  | 15 => ⟨S16x1024x1, .f32⟩
  | 16 => ⟨S16x1024x1024, .f32⟩
  | 17 => ⟨S16x1024x1024, .f32⟩
  | 18 => ⟨S16x1024x1024, .f32⟩
  | 19 => ⟨S_, .f32⟩
  | 20 => ⟨S16x1024, .f32⟩
  | 21 => ⟨S16x1024x1, .f32⟩
  | 22 => ⟨S16x1024x1024, .f32⟩
  | 23 => ⟨S16x1024x1024, .f32⟩
  | 24 => ⟨S16x1024x512, .f32⟩
  | _ => ⟨S16x1024x512, .f32⟩

abbrev hbmTy (i : Nat) : BufTy := match i / 128 with
  | 0 => hbmTy0_0 i
  | 1 => hbmTy0_1 i
  | _ => ⟨S16x1024x512, .f32⟩

abbrev bufTy : (tb : Table) → Fin (tcTables nBuf tb) → BufTy
  | .hbm, ⟨i, _⟩ => hbmTy i
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_cst : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call2_cst : Ref sig .tc := ⟨.hbm, 87, rfl⟩
abbrev main_call2_v0 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call3_cst : Ref sig .tc := ⟨.hbm, 98, rfl⟩
abbrev main_call3_v0 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_9 : Ref sig .tc := ⟨.hbm, 105, rfl⟩
abbrev main_v81 : Ref sig .tc := ⟨.hbm, 106, rfl⟩
abbrev main_v82 : Ref sig .tc := ⟨.hbm, 107, rfl⟩
abbrev main_cst_10 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_11 : Ref sig .tc := ⟨.hbm, 113, rfl⟩
abbrev main_v87 : Ref sig .tc := ⟨.hbm, 114, rfl⟩
abbrev main_cst_12 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_13 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_14 : Ref sig .tc := ⟨.hbm, 130, rfl⟩
abbrev main_v101 : Ref sig .tc := ⟨.hbm, 131, rfl⟩
abbrev main_v102 : Ref sig .tc := ⟨.hbm, 132, rfl⟩
abbrev main_cst_15 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_16 : Ref sig .tc := ⟨.hbm, 138, rfl⟩
abbrev main_v107 : Ref sig .tc := ⟨.hbm, 139, rfl⟩
abbrev main_cst_17 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_18 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩

abbrev nD : Nat := 1
abbrev τ : Topo := Topo.v7x

variable {F : FTy → Type} [FloatOps F]

class Facts₀ : Prop where
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  bcast_S_S16x1024x512 : S_.BroadcastsInDim S16x1024x512 (![] : Fin 0 → Fin S16x1024x512.rank)
  bcast_S16x1024_S16x1x1024_0_2 : S16x1024.BroadcastsInDim S16x1x1024 (![0, 2] : Fin 2 → Fin S16x1x1024.rank)
  bcast_S_S16x1x1024 : S_.BroadcastsInDim S16x1x1024 (![] : Fin 0 → Fin S16x1x1024.rank)
  bcast_S16x1x1024_S16x1024x1024_0_1_2 : S16x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x1024x1 : S_.BroadcastsInDim S16x1024x1 (![] : Fin 0 → Fin S16x1024x1.rank)
  reducesTo_S16x1024x1024_S16x1024_d1 : S16x1024x1024.ReducesTo [1] S16x1024
  slices_S2x512x512_S1x512x512_1_0_0 : S2x512x512.Slices ![1, 0, 0] S1x512x512
  slices_S2x512_S1x512_1_0 : S2x512.Slices ![1, 0] S1x512
  dot_S16x1024x512_S512x512_S16x1024x512_2_0_01_1_n_n_wf : DotDims.WF S16x1024x512 S512x512 S16x1024x512 [2] [0] [0, 1] [1] [] []
  dot_S16x1024x512_S16x1024x512_S16x1024x1024_2_2_1_1_0_0_wf : DotDims.WF S16x1024x512 S16x1024x512 S16x1024x1024 [2] [2] [1] [1] [0] [0]
  dot_S16x1024x1024_S16x1024x512_S16x1024x512_2_1_1_2_0_0_wf : DotDims.WF S16x1024x1024 S16x1024x512 S16x1024x512 [2] [1] [1] [2] [0] [0]
  dot_S16x1024x1024_S16x1024x512_S16x1024x512_1_1_2_2_0_0_wf : DotDims.WF S16x1024x1024 S16x1024x512 S16x1024x512 [1] [1] [2] [2] [0] [0]

variable [Facts₀]

def dot_S16x1024x512_S512x512_S16x1024x512_2_0_01_1_n_n : DotDims S16x1024x512 S512x512 S16x1024x512 where
  lhsContracting := [2]
  rhsContracting := [0]
  lhsNonContracting := [0, 1]
  rhsNonContracting := [1]
  lhsBatch := []
  rhsBatch := []
  wf := dot_S16x1024x512_S512x512_S16x1024x512_2_0_01_1_n_n_wf
def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf
def dot_S16x1024x1024_S16x1024x512_S16x1024x512_1_1_2_2_0_0 : DotDims S16x1024x1024 S16x1024x512 S16x1024x512 where
  lhsContracting := [1]
  rhsContracting := [1]
  lhsNonContracting := [2]
  rhsNonContracting := [2]
  lhsBatch := [0]
  rhsBatch := [0]
  wf := dot_S16x1024x1024_S16x1024x512_S16x1024x512_1_1_2_2_0_0_wf

class Facts : Prop extends Facts₀ where

variable [Facts]
-- ==== Proof.KBProj0.lean ====
/-
  Region 0 of the kernel program: the projection call with weight slice 0.  One grid point per stacked
  batch row (32 of them: the 16 rows of x1 followed by the 16 rows of x2).  At a point the body reads the
  point's [1, 1024, 512] block of the stacked input, the whole [512, 512] weight and the [1, 512] bias,
  and stores relu(x · W + b) over the whole [1, 1024, 512] output block.  Nothing is kept between points.

  This module states, at ANY contents V of the core's buffers when the region is entered: each window's
  block at a point, what the body leaves in the output block as one pure term of the three input blocks,
  the body's triple, the region's proof data, and the body obligation at every point.
-/
import proofs.«148046_j8589934611_1_alg».proof.Proof.Gen.Kernel.Launch
import proofs.«148046_j8589934611_1_alg».proof.Proof.Gen.Kernel.Skeleton
import proofs.«148046_j8589934611_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or
    not: where it was not fetched the block index has not moved (stated per window: a block's index type is the
    window's literal block shape only at a literal window number). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S1x1024x512 := Rect.unit (s := S1x1024x512) ![0, 0, 0] S1x1024x512.size inb_S1x1024x512_S1x1024x512_0_0_0
abbrev r0_w : Rect S512x512 := Rect.unit (s := S512x512) ![0, 0] S512x512.size inb_S512x512_S512x512_0_0
abbrev r0_b : Rect S1x512 := Rect.unit (s := S1x512) ![0, 0] S1x512.size inb_S1x512_S1x512_0_0

/-- What the body leaves in the output block: its one store, of relu(x · W + b) of the three input blocks. -/
def out0_3 (x0 : Vec F S1x1024x512 .bf16) (x1 : Vec F S512x512 .bf16) (x2 : Vec F S1x512 .f32) : Vec F S1x1024x512 .bf16 :=
  View.canon [⟨r0_x, k0_pay1 (View.ld x0 r0_x) (View.ld x1 r0_w) (View.ld x2 r0_b)⟩]

/-- The one store covers the block. -/
theorem cover0_3 (p0 : Vec F S1x1024x512 .bf16) (y : S1x1024x512.Idx) :
    ∃ pc ∈ ([⟨r0_x, p0⟩] : List (View.Piece (Elt F) S1x1024x512 .bf16)), y ∈ pc.1.set :=
  View.cover_of_tiled [⟨r0_x, p0⟩] S1x1024x512.size (by rfl) y

set_option maxHeartbeats 1000000 in
/-- The body on whole staging buffers, the inputs' at contents x0, x1, x2 and the output's at anything, runs to
    the end with the inputs' as they were and the output's at out0_3 of them. -/
theorem sound_kernel0 (c : Dev nD) (E : Set ℕ) (i : grid0.Coords)
    (arg1 : Memref sig .tc .vmem S1x1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x1024x512 .bf16) (harg4 : arg4.IsWhole)
    (x0 : Vec F S1x1024x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_proj_kernel i arg1 harg1 arg2 harg2 arg3 harg3 arg4 harg4) K := by
  simp only [cc0_proj_kernel_eq_skeleton]; unfold cc0_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core c: the arrays as the region finds them; after the body at point t each input
    buffer at its block and the output buffer at out0_3 of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBProj1.lean ====
/-
  Region 1 of the kernel program: the projection call with weight slice 1.  One grid point per stacked
  batch row (32 of them: the 16 rows of x1 followed by the 16 rows of x2).  At a point the body reads the
  point's [1, 1024, 512] block of the stacked input, the whole [512, 512] weight and the [1, 512] bias,
  and stores relu(x · W + b) over the whole [1, 1024, 512] output block.  Nothing is kept between points.

  This module states, at ANY contents V of the core's buffers when the region is entered: each window's
  block at a point, what the body leaves in the output block as one pure term of the three input blocks,
  the body's triple, the region's proof data, and the body obligation at every point.
-/
import proofs.«148046_j8589934611_1_alg».proof.Proof.Gen.Kernel.Launch
import proofs.«148046_j8589934611_1_alg».proof.Proof.Gen.Kernel.Skeleton
import proofs.«148046_j8589934611_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or
    not: where it was not fetched the block index has not moved (stated per window: a block's index type is the
    window's literal block shape only at a literal window number). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_x : Rect S1x1024x512 := Rect.unit (s := S1x1024x512) ![0, 0, 0] S1x1024x512.size inb_S1x1024x512_S1x1024x512_0_0_0
abbrev r1_w : Rect S512x512 := Rect.unit (s := S512x512) ![0, 0] S512x512.size inb_S512x512_S512x512_0_0
abbrev r1_b : Rect S1x512 := Rect.unit (s := S1x512) ![0, 0] S1x512.size inb_S1x512_S1x512_0_0

/-- What the body leaves in the output block: its one store, of relu(x · W + b) of the three input blocks. -/
def out1_3 (x0 : Vec F S1x1024x512 .bf16) (x1 : Vec F S512x512 .bf16) (x2 : Vec F S1x512 .f32) : Vec F S1x1024x512 .bf16 :=
  View.canon [⟨r1_x, k1_pay1 (View.ld x0 r1_x) (View.ld x1 r1_w) (View.ld x2 r1_b)⟩]

/-- The one store covers the block. -/
theorem cover1_3 (p0 : Vec F S1x1024x512 .bf16) (y : S1x1024x512.Idx) :
    ∃ pc ∈ ([⟨r1_x, p0⟩] : List (View.Piece (Elt F) S1x1024x512 .bf16)), y ∈ pc.1.set :=
  View.cover_of_tiled [⟨r1_x, p0⟩] S1x1024x512.size (by rfl) y

set_option maxHeartbeats 1000000 in
/-- The body on whole staging buffers, the inputs' at contents x0, x1, x2 and the output's at anything, runs to
    the end with the inputs' as they were and the output's at out1_3 of them. -/
theorem sound_kernel1 (c : Dev nD) (E : Set ℕ) (i : grid1.Coords)
    (arg1 : Memref sig .tc .vmem S1x1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x1024x512 .bf16) (harg4 : arg4.IsWhole)
    (x0 : Vec F S1x1024x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_proj_kernel i arg1 harg1 arg2 harg2 arg3 harg3 arg4 harg4) K := by
  simp only [cc1_proj_kernel_eq_skeleton]; unfold cc1_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core c: the arrays as the region finds them; after the body at point t each input
    buffer at its block and the output buffer at out1_3 of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KBCross.lean ====
/-
  Region 2 of the kernel program: the cross-attention call.  One grid point per batch row (16).  At a point the
  body reads the row's [1, 1024, 512] blocks of x1, x2 and of the projections Q1, Q2, the row's mask1 as a
  [1, 1024, 1] column and mask2 as a [1, 1, 1024] row; stores E = Q1 · Q2ᵀ over the whole [1024, 1024] scratch
  buffer; reads it back, subtracts (1 - mask2_j) · 1e30 along the columns, takes the softmax of every ROW and
  stores (weights · x2) over the first output block; reads E back again, subtracts (1 - mask1_i) · 1e30 along
  the rows, takes the softmax of every COLUMN and stores (weightsᵀ · x1) over the second output block.
  The scratch is written whole before either read-back, so nothing is kept between points.
-/
import proofs.«148046_j8589934611_1_alg».proof.Proof.Gen.Kernel.Launch
import proofs.«148046_j8589934611_1_alg».proof.Proof.Gen.Kernel.Skeleton
import proofs.«148046_j8589934611_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point (stated per window, at literal
    window numbers). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_x : Rect S1x1024x512 := Rect.unit (s := S1x1024x512) ![0, 0, 0] S1x1024x512.size inb_S1x1024x512_S1x1024x512_0_0_0
abbrev r2_c : Rect S1x1024x1 := Rect.unit (s := S1x1024x1) ![0, 0, 0] S1x1024x1.size inb_S1x1024x1_S1x1024x1_0_0_0
abbrev r2_m : Rect S1x1x1024 := Rect.unit (s := S1x1x1024) ![0, 0, 0] S1x1x1024.size inb_S1x1x1024_S1x1x1024_0_0_0
abbrev r2_s : Rect S1024x1024 := Rect.unit (s := S1024x1024) ![0, 0] S1024x1024.size inb_S1024x1024_S1024x1024_0_0

/-- The scratch rectangle starts at the origin. -/
theorem hz2_s : (![0, 0] : Fin S1024x1024.rank → Nat) = fun _ => 0 :=
  funext fun a => by match a with | ⟨0, _⟩ => rfl | ⟨1, _⟩ => rfl

/-- What the body leaves in the first output block (beta): row softmax of the masked Q1 · Q2ᵀ, times x2. -/
def out2_6 (x2 q1 q2 : Vec F S1x1024x512 .bf16) (mr : Vec F S1x1x1024 .i32) : Vec F S1x1024x512 .f32 :=
  View.canon [⟨r2_x, k2_pay1 (k2_pay5 (View.ld mr r2_m) (k2_pay4 (View.ld q1 r2_x) (View.ld q2 r2_x))) (View.ld x2 r2_x)⟩]

/-- What the body leaves in the second output block (alpha): column softmax of the masked Q1 · Q2ᵀ, transposed, times x1. -/
def out2_7 (x1 q1 q2 : Vec F S1x1024x512 .bf16) (mc : Vec F S1x1024x1 .i32) : Vec F S1x1024x512 .f32 :=
  View.canon [⟨r2_x, k2_pay2 (k2_pay3 (View.ld mc r2_c)) (k2_pay4 (View.ld q1 r2_x) (View.ld q2 r2_x)) (View.ld x1 r2_x)⟩]

/-- One whole-block store covers the block. -/
theorem cover2_o (p0 : Vec F S1x1024x512 .f32) (y : S1x1024x512.Idx) :
    ∃ pc ∈ ([⟨r2_x, p0⟩] : List (View.Piece (Elt F) S1x1024x512 .f32)), y ∈ pc.1.set :=
  View.cover_of_tiled [⟨r2_x, p0⟩] S1x1024x512.size (by rfl) y

set_option maxHeartbeats 4000000 in
/-- The body on whole buffers — the six inputs' at contents x1 x2 q1 q2 mc mr, the outputs' and the scratch's at
    anything — runs to the end with the inputs' as they were, the outputs' at out2_6 and out2_7 of them, and the
    scratch's at something. -/
theorem sound_kernel2 (c : Dev nD) (E : Set ℕ) (i : grid2.Coords)
    (arg1 : Memref sig .tc .vmem S1x1024x512 .bf16) (harg1 : arg1.IsWhole) (arg2 : Memref sig .tc .vmem S1x1024x512 .bf16) (harg2 : arg2.IsWhole)
    (arg3 : Memref sig .tc .vmem S1x1024x512 .bf16) (harg3 : arg3.IsWhole) (arg4 : Memref sig .tc .vmem S1x1024x512 .bf16) (harg4 : arg4.IsWhole)
    (arg5 : Memref sig .tc .vmem S1x1024x1 .i32) (harg5 : arg5.IsWhole) (arg6 : Memref sig .tc .vmem S1x1x1024 .i32) (harg6 : arg6.IsWhole)
    (arg7 : Memref sig .tc .vmem S1x1024x512 .f32) (harg7 : arg7.IsWhole) (arg8 : Memref sig .tc .vmem S1x1024x512 .f32) (harg8 : arg8.IsWhole)
    (arg9 : Memref sig .tc .vmem S1024x1024 .f32) (harg9 : arg9.IsWhole)
    (x1 x2 q1 q2 : Vec F S1x1024x512 .bf16) (mc : Vec F S1x1024x1 .i32) (mr : Vec F S1x1x1024 .i32) (K : PUnit → sProp 𝕄) :
    iprop(owns (c : Thread nD τ) arg1 fullShare x1 ∗ owns (c : Thread nD τ) arg2 fullShare x2 ∗ owns (c : Thread nD τ) arg3 fullShare q1
        ∗ owns (c : Thread nD τ) arg4 fullShare q2 ∗ owns (c : Thread nD τ) arg5 fullShare mc ∗ owns (c : Thread nD τ) arg6 fullShare mr
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare q1
            ∗ owns (c : Thread nD τ) arg4 fullShare q2 ∗ owns (c : Thread nD τ) arg5 fullShare mc ∗ owns (c : Thread nD τ) arg6 fullShare mr
            ∗ owns (c : Thread nD τ) arg7 fullShare (out2_6 x2 q1 q2 mr) ∗ owns (c : Thread nD τ) arg8 fullShare (out2_7 x1 q1 q2 mc)
            ∗ (∃ d, owns (c : Thread nD τ) arg9 fullShare d)) -∗ K ⟨⟩))
      ⊢ wp frame (wpE (defs₀ (F := F)) Variants.none c none) E
          (cc2_cross_attn_kernel i arg1 harg1 arg2 harg2 arg3 harg3 arg4 harg4 arg5 harg5 arg6 harg6 arg7 harg7 arg8 harg8 arg9 harg9) K := by
  simp only [cc2_cross_attn_kernel_eq_skeleton]; unfold cc2_cross_attn_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover2_o _)]
    unfold out2_6
    sl_unfold_words
    rw [View.readCov_unit_zero (S := S1024x1024) _ hz2_s]
    rfl
  isplitl [H8]
  · iexists _; isplitr
    swap; · iexact H8
    ipureintro
    rw [View.read_writes_eq_canon _ _ _ (cover2_o _)]
    unfold out2_7
    sl_unfold_words
    rw [View.readCov_unit_zero (S := S1024x1024) _ hz2_s]
    rfl
  iexists _; iexists _; isplitr
  swap; · iexact H9
  ipureintro; rfl

/-- A whole scratch buffer held by its points-to at some contents is owned at some contents, and back. -/
theorem owns_of_pt2 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole]; exact .rfl
theorem pt_of_owns2 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]; exact .rfl

/-- The region's proof data on core c: the arrays as the region finds them; after the body at point t each input
    buffer at its block and the two output buffers at out2_6 and out2_7 of the input blocks; the invariant is the
    scoped rest (the scratch among it) and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 1 t) (iblk2 V c 2 t) (iblk2 V c 3 t) (iblk2 V c 5 t)
    | ⟨7, _⟩ => out2_7 (iblk2 V c 0 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 1 t) (iblk2 V c 2 t) (iblk2 V c 3 t) (iblk2 V c 5 t) := by dsimp only [dat2]
theorem after2_7 (c : Dev nD) (t : Fin cfg2.N) :
    (dat2 V c).after 7 t = out2_7 (iblk2 V c 0 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the scratch is taken out of the scoped rest for the call and put back after it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7,
    show (dat2 V c).Φ t.castSucc = Pipeline.ΦA spec2 c from rfl]
  unfold Pipeline.ΦA
  rw [scopedRest2_split]
  iintro ⟨⟨⟨Hs, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [Hs]; · iapply (owns_of_pt2 c cc2_scratch0); iexact Hs
  iintro ⟨H0, H1, H2, H3, H4, H5, H6, H7, Hs⟩
  isplitl [Hs Hrest Hp]
  · isplitl [Hs Hrest]
    · isplitl [Hs]; · iapply (pt_of_owns2 c cc2_scratch0); iexact Hs
      iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KBSelf3.lean ====
/-
  Region 3 of the kernel program: the self-attention call on (x1, P1, mask1).  One grid point per batch row
  (16).  At a point the body reads the row's [1, 1024, 512] blocks of x and of the projection P and the row's
  [1, 1, 1024] mask, stores the Gram matrix P · Pᵀ over the whole [1024, 1024] scratch buffer, loads it back,
  subtracts (1 - mask_j) · 1e30 along the columns, takes the softmax of every row, and stores the product of
  the weights with x over the whole [1, 1024, 512] output block.  The scratch is written whole before it is
  read back, so nothing is kept between points: the scratch stays inside the scoped rest of the invariant and
  is opened only for the duration of the body.
-/
import proofs.«148046_j8589934611_1_alg».proof.Proof.Gen.Kernel.Launch
import proofs.«148046_j8589934611_1_alg».proof.Proof.Gen.Kernel.Skeleton
import proofs.«148046_j8589934611_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point (every input is fetched at every
    point here; stated per window, at literal window numbers). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_x : Rect S1x1024x512 := Rect.unit (s := S1x1024x512) ![0, 0, 0] S1x1024x512.size inb_S1x1024x512_S1x1024x512_0_0_0
abbrev r3_m : Rect S1x1x1024 := Rect.unit (s := S1x1x1024) ![0, 0, 0] S1x1x1024.size inb_S1x1x1024_S1x1x1024_0_0_0
abbrev r3_s : Rect S1024x1024 := Rect.unit (s := S1024x1024) ![0, 0] S1024x1024.size inb_S1024x1024_S1024x1024_0_0

/-- The scratch rectangle starts at the origin. -/
theorem hz3_s : (![0, 0] : Fin S1024x1024.rank → Nat) = fun _ => 0 :=
  funext fun a => by match a with | ⟨0, _⟩ => rfl | ⟨1, _⟩ => rfl

/-- What the body leaves in the output block, as one pure term of the three input blocks: the Gram matrix of
    the projection block (what the scratch holds when it is read back), masked, row-softmaxed, times x. -/
def out3_3 (x0 : Vec F S1x1024x512 .bf16) (x1 : Vec F S1x1024x512 .bf16) (x2 : Vec F S1x1x1024 .i32) : Vec F S1x1024x512 .f32 :=
  View.canon [⟨r3_x, k3_pay1 (k3_pay3 (View.ld x2 r3_m) (k3_pay2 (View.ld x1 r3_x) (View.ld x1 r3_x)) (View.ld x0 r3_x))⟩]

/-- The one store covers the block. -/
theorem cover3_3 (p0 : Vec F S1x1024x512 .f32) (y : S1x1024x512.Idx) :
    ∃ pc ∈ ([⟨r3_x, p0⟩] : List (View.Piece (Elt F) S1x1024x512 .f32)), y ∈ pc.1.set :=
  View.cover_of_tiled [⟨r3_x, p0⟩] S1x1024x512.size (by rfl) y

set_option maxHeartbeats 2000000 in
/-- The body on whole buffers — the inputs' at contents x0, x1, x2, the output's and the scratch's at anything —
    runs to the end with the inputs' as they were, the output's at out3_3 of them and the scratch's at something. -/
theorem sound_kernel3 (c : Dev nD) (E : Set ℕ) (i : grid3.Coords)
    (arg1 : Memref sig .tc .vmem S1x1024x512 .bf16) (harg1 : arg1.IsWhole) (arg2 : Memref sig .tc .vmem S1x1024x512 .bf16) (harg2 : arg2.IsWhole)
    (arg3 : Memref sig .tc .vmem S1x1x1024 .i32) (harg3 : arg3.IsWhole) (arg4 : Memref sig .tc .vmem S1x1024x512 .f32) (harg4 : arg4.IsWhole)
    (arg5 : Memref sig .tc .vmem S1024x1024 .f32) (harg5 : arg5.IsWhole)
    (x0 : Vec F S1x1024x512 .bf16) (x1 : Vec F S1x1024x512 .bf16) (x2 : Vec F S1x1x1024 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2) ∗ (∃ d, owns (c : Thread nD τ) arg5 fullShare d)) -∗ K ⟨⟩))
      ⊢ wp frame (wpE (defs₀ (F := F)) Variants.none c none) E (cc3_self_attn_kernel i arg1 harg1 arg2 harg2 arg3 harg3 arg4 harg4 arg5 harg5) K := by
  simp only [cc3_self_attn_kernel_eq_skeleton]; unfold cc3_self_attn_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover3_3 _)]
    unfold out3_3
    sl_unfold_words
    rw [View.readCov_unit_zero (S := S1024x1024) _ hz3_s]
    rfl
  iexists _; iexists _; isplitr
  swap; · iexact H4
  ipureintro; rfl

/-- A whole scratch buffer held by its points-to at some contents is owned at some contents, and back. -/
theorem owns_of_pt (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole]; exact .rfl
theorem pt_of_owns (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]; exact .rfl

/-- The region's proof data on core c: the arrays as the region finds them; after the body at point t each input
    buffer at its block and the output buffer at out3_3 of the input blocks; the invariant is the scoped rest (the
    scratch among it) and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the scratch is taken out of the scoped rest for the call and put back after it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3,
    show (dat3 V c).Φ t.castSucc = Pipeline.ΦA spec3 c from rfl]
  unfold Pipeline.ΦA
  rw [scopedRest3_split]
  iintro ⟨⟨⟨Hs, Hrest⟩, Hp⟩, Ho, ⟨%d0, H0⟩, ⟨%d1, H1⟩, ⟨%d2, H2⟩, ⟨%d3, H3⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [Hs]; · iapply (owns_of_pt c cc3_scratch0); iexact Hs
  iintro ⟨H0, H1, H2, H3, Hs⟩
  isplitl [Hs Hrest Hp]
  · isplitl [Hs Hrest]
    · isplitl [Hs]; · iapply (pt_of_owns c cc3_scratch0); iexact Hs
      iexact Hrest
    iexact Hp
  isplitl [Ho]; · iexact Ho
  isplitl [H0]; · iexact H0
  isplitl [H1]; · iexact H1
  isplitl [H2]; · iexact H2
  iexact H3

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KBSelf4.lean ====
/-
  Region 4 of the kernel program: the self-attention call on (x2, P2, mask2).  One grid point per batch row
  (16).  At a point the body reads the row's [1, 1024, 512] blocks of x and of the projection P and the row's
  [1, 1, 1024] mask, stores the Gram matrix P · Pᵀ over the whole [1024, 1024] scratch buffer, loads it back,
  subtracts (1 - mask_j) · 1e30 along the columns, takes the softmax of every row, and stores the product of
  the weights with x over the whole [1, 1024, 512] output block.  The scratch is written whole before it is
  read back, so nothing is kept between points: the scratch stays inside the scoped rest of the invariant and
  is opened only for the duration of the body.
-/
import proofs.«148046_j8589934611_1_alg».proof.Proof.Gen.Kernel.Launch
import proofs.«148046_j8589934611_1_alg».proof.Proof.Gen.Kernel.Skeleton
import proofs.«148046_j8589934611_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point (every input is fetched at every
    point here; stated per window, at literal window numbers). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_x : Rect S1x1024x512 := Rect.unit (s := S1x1024x512) ![0, 0, 0] S1x1024x512.size inb_S1x1024x512_S1x1024x512_0_0_0
abbrev r4_m : Rect S1x1x1024 := Rect.unit (s := S1x1x1024) ![0, 0, 0] S1x1x1024.size inb_S1x1x1024_S1x1x1024_0_0_0
abbrev r4_s : Rect S1024x1024 := Rect.unit (s := S1024x1024) ![0, 0] S1024x1024.size inb_S1024x1024_S1024x1024_0_0

/-- The scratch rectangle starts at the origin. -/
theorem hz4_s : (![0, 0] : Fin S1024x1024.rank → Nat) = fun _ => 0 :=
  funext fun a => by match a with | ⟨0, _⟩ => rfl | ⟨1, _⟩ => rfl

/-- What the body leaves in the output block, as one pure term of the three input blocks: the Gram matrix of
    the projection block (what the scratch holds when it is read back), masked, row-softmaxed, times x. -/
def out4_3 (x0 : Vec F S1x1024x512 .bf16) (x1 : Vec F S1x1024x512 .bf16) (x2 : Vec F S1x1x1024 .i32) : Vec F S1x1024x512 .f32 :=
  View.canon [⟨r4_x, k4_pay1 (k4_pay3 (View.ld x2 r4_m) (k4_pay2 (View.ld x1 r4_x) (View.ld x1 r4_x)) (View.ld x0 r4_x))⟩]

/-- The one store covers the block. -/
theorem cover4_3 (p0 : Vec F S1x1024x512 .f32) (y : S1x1024x512.Idx) :
    ∃ pc ∈ ([⟨r4_x, p0⟩] : List (View.Piece (Elt F) S1x1024x512 .f32)), y ∈ pc.1.set :=
  View.cover_of_tiled [⟨r4_x, p0⟩] S1x1024x512.size (by rfl) y

set_option maxHeartbeats 2000000 in
/-- The body on whole buffers — the inputs' at contents x0, x1, x2, the output's and the scratch's at anything —
    runs to the end with the inputs' as they were, the output's at out4_3 of them and the scratch's at something. -/
theorem sound_kernel4 (c : Dev nD) (E : Set ℕ) (i : grid4.Coords)
    (arg1 : Memref sig .tc .vmem S1x1024x512 .bf16) (harg1 : arg1.IsWhole) (arg2 : Memref sig .tc .vmem S1x1024x512 .bf16) (harg2 : arg2.IsWhole)
    (arg3 : Memref sig .tc .vmem S1x1x1024 .i32) (harg3 : arg3.IsWhole) (arg4 : Memref sig .tc .vmem S1x1024x512 .f32) (harg4 : arg4.IsWhole)
    (arg5 : Memref sig .tc .vmem S1024x1024 .f32) (harg5 : arg5.IsWhole)
    (x0 : Vec F S1x1024x512 .bf16) (x1 : Vec F S1x1024x512 .bf16) (x2 : Vec F S1x1x1024 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2) ∗ (∃ d, owns (c : Thread nD τ) arg5 fullShare d)) -∗ K ⟨⟩))
      ⊢ wp frame (wpE (defs₀ (F := F)) Variants.none c none) E (cc4_self_attn_kernel i arg1 harg1 arg2 harg2 arg3 harg3 arg4 harg4 arg5 harg5) K := by
  simp only [cc4_self_attn_kernel_eq_skeleton]; unfold cc4_self_attn_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover4_3 _)]
    unfold out4_3
    sl_unfold_words
    rw [View.readCov_unit_zero (S := S1024x1024) _ hz4_s]
    rfl
  iexists _; iexists _; isplitr
  swap; · iexact H4
  ipureintro; rfl

/-- A whole scratch buffer held by its points-to at some contents is owned at some contents, and back. -/
theorem owns_of_pt4 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole]; exact .rfl
theorem pt_of_owns4 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]; exact .rfl

/-- The region's proof data on core c: the arrays as the region finds them; after the body at point t each input
    buffer at its block and the output buffer at out4_3 of the input blocks; the invariant is the scoped rest (the
    scratch among it) and the generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the scratch is taken out of the scoped rest for the call and put back after it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3,
    show (dat4 V c).Φ t.castSucc = Pipeline.ΦA spec4 c from rfl]
  unfold Pipeline.ΦA
  rw [scopedRest4_split]
  iintro ⟨⟨⟨Hs, Hrest⟩, Hp⟩, Ho, ⟨%d0, H0⟩, ⟨%d1, H1⟩, ⟨%d2, H2⟩, ⟨%d3, H3⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [Hs]; · iapply (owns_of_pt4 c cc4_scratch0); iexact Hs
  iintro ⟨H0, H1, H2, H3, Hs⟩
  isplitl [Hs Hrest Hp]
  · isplitl [Hs Hrest]
    · isplitl [Hs]; · iapply (pt_of_owns4 c cc4_scratch0); iexact Hs
      iexact Hrest
    iexact Hp
  isplitl [Ho]; · iexact Ho
  isplitl [H0]; · iexact H0
  isplitl [H1]; · iexact H1
  isplitl [H2]; · iexact H2
  iexact H3

/-- The body obligation of region 4, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KBRun.lean ====
/-
  The run of the kernel program: @main is seven items in a row — the host operations that build the stacked
  input and the weight and bias slices, the two projection calls, the host operations that slice the projections
  apart and reshape the masks, the cross-attention call and the two self-attention calls.

  The contents of the core's buffers at each boundary are a fold from the launch memory: a stretch of host
  operations applies them; a region leaves its arrays at what its write-backs fold in and every other buffer as
  it found it.  Each region's proof data is taken at the contents the region is entered with.  The run: every
  weakly fair execution terminates, nothing faults, and the final memory holds every unscoped buffer at the last
  boundary's contents — from which the frame (no item writes an argument) and the four results are read.
-/
import proofs.«148046_j8589934611_1_alg».proof.Proof.KBProj0
import proofs.«148046_j8589934611_1_alg».proof.Proof.KBProj1
import proofs.«148046_j8589934611_1_alg».proof.Proof.KBCross
import proofs.«148046_j8589934611_1_alg».proof.Proof.KBSelf3
import proofs.«148046_j8589934611_1_alg».proof.Proof.KBSelf4
import proofs.«148046_j8589934611_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first stretch of host operations (what the projection calls are entered with). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- When region 0 ends: its arrays hold what its write-backs leave (the inputs as entered, each output's blocks folded
    in), every other buffer is as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When region 1 ends: its arrays hold what its write-backs leave (the inputs as entered, each output's blocks folded
    in), every other buffer is as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (what the attention calls are entered with). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- When region 2 ends: its arrays hold what its write-backs leave (the inputs as entered, each output's blocks folded
    in), every other buffer is as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- When region 3 ends: its arrays hold what its write-backs leave (the inputs as entered, each output's blocks folded
    in), every other buffer is as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references. -/
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- When region 4 ends: its arrays hold what its write-backs leave (the inputs as entered, each output's blocks folded
    in), every other buffer is as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- The same read at the TensorCore's references. -/
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ## The arguments end as launched: no host operation writes one and no region has one among its arrays -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_writes_sub hostOps2 _ hostOps2_writes (r := main_arg4) (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := StableHlo.after_of_writes_sub hostOps2 _ hostOps2_writes (r := main_arg5) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

/-- Every region's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 as a segment: entered with every unscoped buffer at the contents before it, left with them at the contents
    after it.  Its arrays are split out of the unscoped buffers and put back at what the write-backs leave; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it.  Its arrays are split out of the unscoped buffers and put back at what the write-backs leave; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the contents
    after it.  Its arrays are split out of the unscoped buffers and put back at what the write-backs leave; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at the contents
    after it.  Its arrays are split out of the unscoped buffers and put back at what the write-backs leave; the generator
    register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the contents before it, left with them at the contents
    after it.  Its arrays are split out of the unscoped buffers and put back at what the write-backs leave; the generator
    register goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .region (reg4 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_main m ρ)

end Cert.Kernel.Fr

end
-- ==== Proof.KIProj0.lean ====
/-
  Region 0 of the kernel program: the projection call with weight slice 0.  One grid point per stacked
  batch row (32 of them: the 16 rows of x1 followed by the 16 rows of x2).  At a point the body reads the
  point's [1, 1024, 512] block of the stacked input, the whole [512, 512] weight and the [1, 512] bias,
  and stores relu(x · W + b) over the whole [1, 1024, 512] output block.  Nothing is kept between points.

  This module states, at ANY contents V of the core's buffers when the region is entered: each window's
  block at a point, what the body leaves in the output block as one pure term of the three input blocks,
  the body's triple, the region's proof data, and the body obligation at every point.
-/
import proofs.«148046_j8589934611_1_alg».proof.Proof.Gen.KernelIdeal.Launch
import proofs.«148046_j8589934611_1_alg».proof.Proof.Gen.KernelIdeal.Skeleton
import proofs.«148046_j8589934611_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or
    not: where it was not fetched the block index has not moved (stated per window: a block's index type is the
    window's literal block shape only at a literal window number). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S1x1024x512 := Rect.unit (s := S1x1024x512) ![0, 0, 0] S1x1024x512.size inb_S1x1024x512_S1x1024x512_0_0_0
abbrev r0_w : Rect S512x512 := Rect.unit (s := S512x512) ![0, 0] S512x512.size inb_S512x512_S512x512_0_0
abbrev r0_b : Rect S1x512 := Rect.unit (s := S1x512) ![0, 0] S1x512.size inb_S1x512_S1x512_0_0

/-- What the body leaves in the output block: its one store, of relu(x · W + b) of the three input blocks. -/
def out0_3 (x0 : Vec F S1x1024x512 .bf16) (x1 : Vec F S512x512 .bf16) (x2 : Vec F S1x512 .f32) : Vec F S1x1024x512 .bf16 :=
  View.canon [⟨r0_x, k0_pay1 (View.ld x0 r0_x) (View.ld x1 r0_w) (View.ld x2 r0_b)⟩]

/-- The one store covers the block. -/
theorem cover0_3 (p0 : Vec F S1x1024x512 .bf16) (y : S1x1024x512.Idx) :
    ∃ pc ∈ ([⟨r0_x, p0⟩] : List (View.Piece (Elt F) S1x1024x512 .bf16)), y ∈ pc.1.set :=
  View.cover_of_tiled [⟨r0_x, p0⟩] S1x1024x512.size (by rfl) y

set_option maxHeartbeats 1000000 in
/-- The body on whole staging buffers, the inputs' at contents x0, x1, x2 and the output's at anything, runs to
    the end with the inputs' as they were and the output's at out0_3 of them. -/
theorem sound_kernel0 (c : Dev nD) (E : Set ℕ) (i : grid0.Coords)
    (arg1 : Memref sig .tc .vmem S1x1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x1024x512 .bf16) (harg4 : arg4.IsWhole)
    (x0 : Vec F S1x1024x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_proj_kernel i arg1 harg1 arg2 harg2 arg3 harg3 arg4 harg4) K := by
  simp only [cc0_proj_kernel_eq_skeleton]; unfold cc0_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core c: the arrays as the region finds them; after the body at point t each input
    buffer at its block and the output buffer at out0_3 of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIProj1.lean ====
/-
  Region 1 of the kernel program: the projection call with weight slice 1.  One grid point per stacked
  batch row (32 of them: the 16 rows of x1 followed by the 16 rows of x2).  At a point the body reads the
  point's [1, 1024, 512] block of the stacked input, the whole [512, 512] weight and the [1, 512] bias,
  and stores relu(x · W + b) over the whole [1, 1024, 512] output block.  Nothing is kept between points.

  This module states, at ANY contents V of the core's buffers when the region is entered: each window's
  block at a point, what the body leaves in the output block as one pure term of the three input blocks,
  the body's triple, the region's proof data, and the body obligation at every point.
-/
import proofs.«148046_j8589934611_1_alg».proof.Proof.Gen.KernelIdeal.Launch
import proofs.«148046_j8589934611_1_alg».proof.Proof.Gen.KernelIdeal.Skeleton
import proofs.«148046_j8589934611_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or
    not: where it was not fetched the block index has not moved (stated per window: a block's index type is the
    window's literal block shape only at a literal window number). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_x : Rect S1x1024x512 := Rect.unit (s := S1x1024x512) ![0, 0, 0] S1x1024x512.size inb_S1x1024x512_S1x1024x512_0_0_0
abbrev r1_w : Rect S512x512 := Rect.unit (s := S512x512) ![0, 0] S512x512.size inb_S512x512_S512x512_0_0
abbrev r1_b : Rect S1x512 := Rect.unit (s := S1x512) ![0, 0] S1x512.size inb_S1x512_S1x512_0_0

/-- What the body leaves in the output block: its one store, of relu(x · W + b) of the three input blocks. -/
def out1_3 (x0 : Vec F S1x1024x512 .bf16) (x1 : Vec F S512x512 .bf16) (x2 : Vec F S1x512 .f32) : Vec F S1x1024x512 .bf16 :=
  View.canon [⟨r1_x, k1_pay1 (View.ld x0 r1_x) (View.ld x1 r1_w) (View.ld x2 r1_b)⟩]

/-- The one store covers the block. -/
theorem cover1_3 (p0 : Vec F S1x1024x512 .bf16) (y : S1x1024x512.Idx) :
    ∃ pc ∈ ([⟨r1_x, p0⟩] : List (View.Piece (Elt F) S1x1024x512 .bf16)), y ∈ pc.1.set :=
  View.cover_of_tiled [⟨r1_x, p0⟩] S1x1024x512.size (by rfl) y

set_option maxHeartbeats 1000000 in
/-- The body on whole staging buffers, the inputs' at contents x0, x1, x2 and the output's at anything, runs to
    the end with the inputs' as they were and the output's at out1_3 of them. -/
theorem sound_kernel1 (c : Dev nD) (E : Set ℕ) (i : grid1.Coords)
    (arg1 : Memref sig .tc .vmem S1x1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x1024x512 .bf16) (harg4 : arg4.IsWhole)
    (x0 : Vec F S1x1024x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_proj_kernel i arg1 harg1 arg2 harg2 arg3 harg3 arg4 harg4) K := by
  simp only [cc1_proj_kernel_eq_skeleton]; unfold cc1_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core c: the arrays as the region finds them; after the body at point t each input
    buffer at its block and the output buffer at out1_3 of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KICross.lean ====
/-
  Region 2 of the kernel program: the cross-attention call.  One grid point per batch row (16).  At a point the
  body reads the row's [1, 1024, 512] blocks of x1, x2 and of the projections Q1, Q2, the row's mask1 as a
  [1, 1024, 1] column and mask2 as a [1, 1, 1024] row; stores E = Q1 · Q2ᵀ over the whole [1024, 1024] scratch
  buffer; reads it back, subtracts (1 - mask2_j) · 1e30 along the columns, takes the softmax of every ROW and
  stores (weights · x2) over the first output block; reads E back again, subtracts (1 - mask1_i) · 1e30 along
  the rows, takes the softmax of every COLUMN and stores (weightsᵀ · x1) over the second output block.
  The scratch is written whole before either read-back, so nothing is kept between points.
-/
import proofs.«148046_j8589934611_1_alg».proof.Proof.Gen.KernelIdeal.Launch
import proofs.«148046_j8589934611_1_alg».proof.Proof.Gen.KernelIdeal.Skeleton
import proofs.«148046_j8589934611_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point (stated per window, at literal
    window numbers). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_x : Rect S1x1024x512 := Rect.unit (s := S1x1024x512) ![0, 0, 0] S1x1024x512.size inb_S1x1024x512_S1x1024x512_0_0_0
abbrev r2_c : Rect S1x1024x1 := Rect.unit (s := S1x1024x1) ![0, 0, 0] S1x1024x1.size inb_S1x1024x1_S1x1024x1_0_0_0
abbrev r2_m : Rect S1x1x1024 := Rect.unit (s := S1x1x1024) ![0, 0, 0] S1x1x1024.size inb_S1x1x1024_S1x1x1024_0_0_0
abbrev r2_s : Rect S1024x1024 := Rect.unit (s := S1024x1024) ![0, 0] S1024x1024.size inb_S1024x1024_S1024x1024_0_0

/-- The scratch rectangle starts at the origin. -/
theorem hz2_s : (![0, 0] : Fin S1024x1024.rank → Nat) = fun _ => 0 :=
  funext fun a => by match a with | ⟨0, _⟩ => rfl | ⟨1, _⟩ => rfl

/-- What the body leaves in the first output block (beta): row softmax of the masked Q1 · Q2ᵀ, times x2. -/
def out2_6 (x2 q1 q2 : Vec F S1x1024x512 .bf16) (mr : Vec F S1x1x1024 .i32) : Vec F S1x1024x512 .f32 :=
  View.canon [⟨r2_x, k2_pay1 (k2_pay5 (View.ld mr r2_m) (k2_pay4 (View.ld q1 r2_x) (View.ld q2 r2_x))) (View.ld x2 r2_x)⟩]

/-- What the body leaves in the second output block (alpha): column softmax of the masked Q1 · Q2ᵀ, transposed, times x1. -/
def out2_7 (x1 q1 q2 : Vec F S1x1024x512 .bf16) (mc : Vec F S1x1024x1 .i32) : Vec F S1x1024x512 .f32 :=
  View.canon [⟨r2_x, k2_pay2 (k2_pay3 (View.ld mc r2_c)) (k2_pay4 (View.ld q1 r2_x) (View.ld q2 r2_x)) (View.ld x1 r2_x)⟩]

/-- One whole-block store covers the block. -/
theorem cover2_o (p0 : Vec F S1x1024x512 .f32) (y : S1x1024x512.Idx) :
    ∃ pc ∈ ([⟨r2_x, p0⟩] : List (View.Piece (Elt F) S1x1024x512 .f32)), y ∈ pc.1.set :=
  View.cover_of_tiled [⟨r2_x, p0⟩] S1x1024x512.size (by rfl) y

set_option maxHeartbeats 4000000 in
/-- The body on whole buffers — the six inputs' at contents x1 x2 q1 q2 mc mr, the outputs' and the scratch's at
    anything — runs to the end with the inputs' as they were, the outputs' at out2_6 and out2_7 of them, and the
    scratch's at something. -/
theorem sound_kernel2 (c : Dev nD) (E : Set ℕ) (i : grid2.Coords)
    (arg1 : Memref sig .tc .vmem S1x1024x512 .bf16) (harg1 : arg1.IsWhole) (arg2 : Memref sig .tc .vmem S1x1024x512 .bf16) (harg2 : arg2.IsWhole)
    (arg3 : Memref sig .tc .vmem S1x1024x512 .bf16) (harg3 : arg3.IsWhole) (arg4 : Memref sig .tc .vmem S1x1024x512 .bf16) (harg4 : arg4.IsWhole)
    (arg5 : Memref sig .tc .vmem S1x1024x1 .i32) (harg5 : arg5.IsWhole) (arg6 : Memref sig .tc .vmem S1x1x1024 .i32) (harg6 : arg6.IsWhole)
    (arg7 : Memref sig .tc .vmem S1x1024x512 .f32) (harg7 : arg7.IsWhole) (arg8 : Memref sig .tc .vmem S1x1024x512 .f32) (harg8 : arg8.IsWhole)
    (arg9 : Memref sig .tc .vmem S1024x1024 .f32) (harg9 : arg9.IsWhole)
    (x1 x2 q1 q2 : Vec F S1x1024x512 .bf16) (mc : Vec F S1x1024x1 .i32) (mr : Vec F S1x1x1024 .i32) (K : PUnit → sProp 𝕄) :
    iprop(owns (c : Thread nD τ) arg1 fullShare x1 ∗ owns (c : Thread nD τ) arg2 fullShare x2 ∗ owns (c : Thread nD τ) arg3 fullShare q1
        ∗ owns (c : Thread nD τ) arg4 fullShare q2 ∗ owns (c : Thread nD τ) arg5 fullShare mc ∗ owns (c : Thread nD τ) arg6 fullShare mr
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare q1
            ∗ owns (c : Thread nD τ) arg4 fullShare q2 ∗ owns (c : Thread nD τ) arg5 fullShare mc ∗ owns (c : Thread nD τ) arg6 fullShare mr
            ∗ owns (c : Thread nD τ) arg7 fullShare (out2_6 x2 q1 q2 mr) ∗ owns (c : Thread nD τ) arg8 fullShare (out2_7 x1 q1 q2 mc)
            ∗ (∃ d, owns (c : Thread nD τ) arg9 fullShare d)) -∗ K ⟨⟩))
      ⊢ wp frame (wpE (defs₀ (F := F)) Variants.none c none) E
          (cc2_cross_attn_kernel i arg1 harg1 arg2 harg2 arg3 harg3 arg4 harg4 arg5 harg5 arg6 harg6 arg7 harg7 arg8 harg8 arg9 harg9) K := by
  simp only [cc2_cross_attn_kernel_eq_skeleton]; unfold cc2_cross_attn_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover2_o _)]
    unfold out2_6
    sl_unfold_words
    rw [View.readCov_unit_zero (S := S1024x1024) _ hz2_s]
    rfl
  isplitl [H8]
  · iexists _; isplitr
    swap; · iexact H8
    ipureintro
    rw [View.read_writes_eq_canon _ _ _ (cover2_o _)]
    unfold out2_7
    sl_unfold_words
    rw [View.readCov_unit_zero (S := S1024x1024) _ hz2_s]
    rfl
  iexists _; iexists _; isplitr
  swap; · iexact H9
  ipureintro; rfl

/-- A whole scratch buffer held by its points-to at some contents is owned at some contents, and back. -/
theorem owns_of_pt2 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole]; exact .rfl
theorem pt_of_owns2 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]; exact .rfl

/-- The region's proof data on core c: the arrays as the region finds them; after the body at point t each input
    buffer at its block and the two output buffers at out2_6 and out2_7 of the input blocks; the invariant is the
    scoped rest (the scratch among it) and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 1 t) (iblk2 V c 2 t) (iblk2 V c 3 t) (iblk2 V c 5 t)
    | ⟨7, _⟩ => out2_7 (iblk2 V c 0 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 1 t) (iblk2 V c 2 t) (iblk2 V c 3 t) (iblk2 V c 5 t) := by dsimp only [dat2]
theorem after2_7 (c : Dev nD) (t : Fin cfg2.N) :
    (dat2 V c).after 7 t = out2_7 (iblk2 V c 0 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the scratch is taken out of the scoped rest for the call and put back after it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7,
    show (dat2 V c).Φ t.castSucc = Pipeline.ΦA spec2 c from rfl]
  unfold Pipeline.ΦA
  rw [scopedRest2_split]
  iintro ⟨⟨⟨Hs, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [Hs]; · iapply (owns_of_pt2 c cc2_scratch0); iexact Hs
  iintro ⟨H0, H1, H2, H3, H4, H5, H6, H7, Hs⟩
  isplitl [Hs Hrest Hp]
  · isplitl [Hs Hrest]
    · isplitl [Hs]; · iapply (pt_of_owns2 c cc2_scratch0); iexact Hs
      iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KISelf3.lean ====
/-
  Region 3 of the kernel program: the self-attention call on (x1, P1, mask1).  One grid point per batch row
  (16).  At a point the body reads the row's [1, 1024, 512] blocks of x and of the projection P and the row's
  [1, 1, 1024] mask, stores the Gram matrix P · Pᵀ over the whole [1024, 1024] scratch buffer, loads it back,
  subtracts (1 - mask_j) · 1e30 along the columns, takes the softmax of every row, and stores the product of
  the weights with x over the whole [1, 1024, 512] output block.  The scratch is written whole before it is
  read back, so nothing is kept between points: the scratch stays inside the scoped rest of the invariant and
  is opened only for the duration of the body.
-/
import proofs.«148046_j8589934611_1_alg».proof.Proof.Gen.KernelIdeal.Launch
import proofs.«148046_j8589934611_1_alg».proof.Proof.Gen.KernelIdeal.Skeleton
import proofs.«148046_j8589934611_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point (every input is fetched at every
    point here; stated per window, at literal window numbers). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_x : Rect S1x1024x512 := Rect.unit (s := S1x1024x512) ![0, 0, 0] S1x1024x512.size inb_S1x1024x512_S1x1024x512_0_0_0
abbrev r3_m : Rect S1x1x1024 := Rect.unit (s := S1x1x1024) ![0, 0, 0] S1x1x1024.size inb_S1x1x1024_S1x1x1024_0_0_0
abbrev r3_s : Rect S1024x1024 := Rect.unit (s := S1024x1024) ![0, 0] S1024x1024.size inb_S1024x1024_S1024x1024_0_0

/-- The scratch rectangle starts at the origin. -/
theorem hz3_s : (![0, 0] : Fin S1024x1024.rank → Nat) = fun _ => 0 :=
  funext fun a => by match a with | ⟨0, _⟩ => rfl | ⟨1, _⟩ => rfl

/-- What the body leaves in the output block, as one pure term of the three input blocks: the Gram matrix of
    the projection block (what the scratch holds when it is read back), masked, row-softmaxed, times x. -/
def out3_3 (x0 : Vec F S1x1024x512 .bf16) (x1 : Vec F S1x1024x512 .bf16) (x2 : Vec F S1x1x1024 .i32) : Vec F S1x1024x512 .f32 :=
  View.canon [⟨r3_x, k3_pay1 (k3_pay3 (View.ld x2 r3_m) (k3_pay2 (View.ld x1 r3_x) (View.ld x1 r3_x)) (View.ld x0 r3_x))⟩]

/-- The one store covers the block. -/
theorem cover3_3 (p0 : Vec F S1x1024x512 .f32) (y : S1x1024x512.Idx) :
    ∃ pc ∈ ([⟨r3_x, p0⟩] : List (View.Piece (Elt F) S1x1024x512 .f32)), y ∈ pc.1.set :=
  View.cover_of_tiled [⟨r3_x, p0⟩] S1x1024x512.size (by rfl) y

set_option maxHeartbeats 2000000 in
/-- The body on whole buffers — the inputs' at contents x0, x1, x2, the output's and the scratch's at anything —
    runs to the end with the inputs' as they were, the output's at out3_3 of them and the scratch's at something. -/
theorem sound_kernel3 (c : Dev nD) (E : Set ℕ) (i : grid3.Coords)
    (arg1 : Memref sig .tc .vmem S1x1024x512 .bf16) (harg1 : arg1.IsWhole) (arg2 : Memref sig .tc .vmem S1x1024x512 .bf16) (harg2 : arg2.IsWhole)
    (arg3 : Memref sig .tc .vmem S1x1x1024 .i32) (harg3 : arg3.IsWhole) (arg4 : Memref sig .tc .vmem S1x1024x512 .f32) (harg4 : arg4.IsWhole)
    (arg5 : Memref sig .tc .vmem S1024x1024 .f32) (harg5 : arg5.IsWhole)
    (x0 : Vec F S1x1024x512 .bf16) (x1 : Vec F S1x1024x512 .bf16) (x2 : Vec F S1x1x1024 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2) ∗ (∃ d, owns (c : Thread nD τ) arg5 fullShare d)) -∗ K ⟨⟩))
      ⊢ wp frame (wpE (defs₀ (F := F)) Variants.none c none) E (cc3_self_attn_kernel i arg1 harg1 arg2 harg2 arg3 harg3 arg4 harg4 arg5 harg5) K := by
  simp only [cc3_self_attn_kernel_eq_skeleton]; unfold cc3_self_attn_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover3_3 _)]
    unfold out3_3
    sl_unfold_words
    rw [View.readCov_unit_zero (S := S1024x1024) _ hz3_s]
    rfl
  iexists _; iexists _; isplitr
  swap; · iexact H4
  ipureintro; rfl

/-- A whole scratch buffer held by its points-to at some contents is owned at some contents, and back. -/
theorem owns_of_pt (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole]; exact .rfl
theorem pt_of_owns (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]; exact .rfl

/-- The region's proof data on core c: the arrays as the region finds them; after the body at point t each input
    buffer at its block and the output buffer at out3_3 of the input blocks; the invariant is the scoped rest (the
    scratch among it) and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the scratch is taken out of the scoped rest for the call and put back after it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3,
    show (dat3 V c).Φ t.castSucc = Pipeline.ΦA spec3 c from rfl]
  unfold Pipeline.ΦA
  rw [scopedRest3_split]
  iintro ⟨⟨⟨Hs, Hrest⟩, Hp⟩, Ho, ⟨%d0, H0⟩, ⟨%d1, H1⟩, ⟨%d2, H2⟩, ⟨%d3, H3⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [Hs]; · iapply (owns_of_pt c cc3_scratch0); iexact Hs
  iintro ⟨H0, H1, H2, H3, Hs⟩
  isplitl [Hs Hrest Hp]
  · isplitl [Hs Hrest]
    · isplitl [Hs]; · iapply (pt_of_owns c cc3_scratch0); iexact Hs
      iexact Hrest
    iexact Hp
  isplitl [Ho]; · iexact Ho
  isplitl [H0]; · iexact H0
  isplitl [H1]; · iexact H1
  isplitl [H2]; · iexact H2
  iexact H3

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KISelf4.lean ====
/-
  Region 4 of the kernel program: the self-attention call on (x2, P2, mask2).  One grid point per batch row
  (16).  At a point the body reads the row's [1, 1024, 512] blocks of x and of the projection P and the row's
  [1, 1, 1024] mask, stores the Gram matrix P · Pᵀ over the whole [1024, 1024] scratch buffer, loads it back,
  subtracts (1 - mask_j) · 1e30 along the columns, takes the softmax of every row, and stores the product of
  the weights with x over the whole [1, 1024, 512] output block.  The scratch is written whole before it is
  read back, so nothing is kept between points: the scratch stays inside the scoped rest of the invariant and
  is opened only for the duration of the body.
-/
import proofs.«148046_j8589934611_1_alg».proof.Proof.Gen.KernelIdeal.Launch
import proofs.«148046_j8589934611_1_alg».proof.Proof.Gen.KernelIdeal.Skeleton
import proofs.«148046_j8589934611_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point (every input is fetched at every
    point here; stated per window, at literal window numbers). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_x : Rect S1x1024x512 := Rect.unit (s := S1x1024x512) ![0, 0, 0] S1x1024x512.size inb_S1x1024x512_S1x1024x512_0_0_0
abbrev r4_m : Rect S1x1x1024 := Rect.unit (s := S1x1x1024) ![0, 0, 0] S1x1x1024.size inb_S1x1x1024_S1x1x1024_0_0_0
abbrev r4_s : Rect S1024x1024 := Rect.unit (s := S1024x1024) ![0, 0] S1024x1024.size inb_S1024x1024_S1024x1024_0_0

/-- The scratch rectangle starts at the origin. -/
theorem hz4_s : (![0, 0] : Fin S1024x1024.rank → Nat) = fun _ => 0 :=
  funext fun a => by match a with | ⟨0, _⟩ => rfl | ⟨1, _⟩ => rfl

/-- What the body leaves in the output block, as one pure term of the three input blocks: the Gram matrix of
    the projection block (what the scratch holds when it is read back), masked, row-softmaxed, times x. -/
def out4_3 (x0 : Vec F S1x1024x512 .bf16) (x1 : Vec F S1x1024x512 .bf16) (x2 : Vec F S1x1x1024 .i32) : Vec F S1x1024x512 .f32 :=
  View.canon [⟨r4_x, k4_pay1 (k4_pay3 (View.ld x2 r4_m) (k4_pay2 (View.ld x1 r4_x) (View.ld x1 r4_x)) (View.ld x0 r4_x))⟩]

/-- The one store covers the block. -/
theorem cover4_3 (p0 : Vec F S1x1024x512 .f32) (y : S1x1024x512.Idx) :
    ∃ pc ∈ ([⟨r4_x, p0⟩] : List (View.Piece (Elt F) S1x1024x512 .f32)), y ∈ pc.1.set :=
  View.cover_of_tiled [⟨r4_x, p0⟩] S1x1024x512.size (by rfl) y

set_option maxHeartbeats 2000000 in
/-- The body on whole buffers — the inputs' at contents x0, x1, x2, the output's and the scratch's at anything —
    runs to the end with the inputs' as they were, the output's at out4_3 of them and the scratch's at something. -/
theorem sound_kernel4 (c : Dev nD) (E : Set ℕ) (i : grid4.Coords)
    (arg1 : Memref sig .tc .vmem S1x1024x512 .bf16) (harg1 : arg1.IsWhole) (arg2 : Memref sig .tc .vmem S1x1024x512 .bf16) (harg2 : arg2.IsWhole)
    (arg3 : Memref sig .tc .vmem S1x1x1024 .i32) (harg3 : arg3.IsWhole) (arg4 : Memref sig .tc .vmem S1x1024x512 .f32) (harg4 : arg4.IsWhole)
    (arg5 : Memref sig .tc .vmem S1024x1024 .f32) (harg5 : arg5.IsWhole)
    (x0 : Vec F S1x1024x512 .bf16) (x1 : Vec F S1x1024x512 .bf16) (x2 : Vec F S1x1x1024 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2) ∗ (∃ d, owns (c : Thread nD τ) arg5 fullShare d)) -∗ K ⟨⟩))
      ⊢ wp frame (wpE (defs₀ (F := F)) Variants.none c none) E (cc4_self_attn_kernel i arg1 harg1 arg2 harg2 arg3 harg3 arg4 harg4 arg5 harg5) K := by
  simp only [cc4_self_attn_kernel_eq_skeleton]; unfold cc4_self_attn_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover4_3 _)]
    unfold out4_3
    sl_unfold_words
    rw [View.readCov_unit_zero (S := S1024x1024) _ hz4_s]
    rfl
  iexists _; iexists _; isplitr
  swap; · iexact H4
  ipureintro; rfl

/-- A whole scratch buffer held by its points-to at some contents is owned at some contents, and back. -/
theorem owns_of_pt4 (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  simp only [owns_whole]; exact .rfl
theorem pt_of_owns4 (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole]; exact .rfl

/-- The region's proof data on core c: the arrays as the region finds them; after the body at point t each input
    buffer at its block and the output buffer at out4_3 of the input blocks; the invariant is the scoped rest (the
    scratch among it) and the generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the scratch is taken out of the scoped rest for the call and put back after it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3,
    show (dat4 V c).Φ t.castSucc = Pipeline.ΦA spec4 c from rfl]
  unfold Pipeline.ΦA
  rw [scopedRest4_split]
  iintro ⟨⟨⟨Hs, Hrest⟩, Hp⟩, Ho, ⟨%d0, H0⟩, ⟨%d1, H1⟩, ⟨%d2, H2⟩, ⟨%d3, H3⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [Hs]; · iapply (owns_of_pt4 c cc4_scratch0); iexact Hs
  iintro ⟨H0, H1, H2, H3, Hs⟩
  isplitl [Hs Hrest Hp]
  · isplitl [Hs Hrest]
    · isplitl [Hs]; · iapply (pt_of_owns4 c cc4_scratch0); iexact Hs
      iexact Hrest
    iexact Hp
  isplitl [Ho]; · iexact Ho
  isplitl [H0]; · iexact H0
  isplitl [H1]; · iexact H1
  isplitl [H2]; · iexact H2
  iexact H3

/-- The body obligation of region 4, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KIRun.lean ====
/-
  The run of the kernel program: @main is seven items in a row — the host operations that build the stacked
  input and the weight and bias slices, the two projection calls, the host operations that slice the projections
  apart and reshape the masks, the cross-attention call and the two self-attention calls.

  The contents of the core's buffers at each boundary are a fold from the launch memory: a stretch of host
  operations applies them; a region leaves its arrays at what its write-backs fold in and every other buffer as
  it found it.  Each region's proof data is taken at the contents the region is entered with.  The run: every
  weakly fair execution terminates, nothing faults, and the final memory holds every unscoped buffer at the last
  boundary's contents — from which the frame (no item writes an argument) and the four results are read.
-/
import proofs.«148046_j8589934611_1_alg».proof.Proof.KIProj0
import proofs.«148046_j8589934611_1_alg».proof.Proof.KIProj1
import proofs.«148046_j8589934611_1_alg».proof.Proof.KICross
import proofs.«148046_j8589934611_1_alg».proof.Proof.KISelf3
import proofs.«148046_j8589934611_1_alg».proof.Proof.KISelf4
import proofs.«148046_j8589934611_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first stretch of host operations (what the projection calls are entered with). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- When region 0 ends: its arrays hold what its write-backs leave (the inputs as entered, each output's blocks folded
    in), every other buffer is as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When region 1 ends: its arrays hold what its write-backs leave (the inputs as entered, each output's blocks folded
    in), every other buffer is as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (what the attention calls are entered with). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- When region 2 ends: its arrays hold what its write-backs leave (the inputs as entered, each output's blocks folded
    in), every other buffer is as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- When region 3 ends: its arrays hold what its write-backs leave (the inputs as entered, each output's blocks folded
    in), every other buffer is as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references. -/
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- When region 4 ends: its arrays hold what its write-backs leave (the inputs as entered, each output's blocks folded
    in), every other buffer is as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- The same read at the TensorCore's references. -/
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ## The arguments end as launched: no host operation writes one and no region has one among its arrays -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := StableHlo.after_of_writes_sub hostOps2 _ hostOps2_writes (r := main_arg4) (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := StableHlo.after_of_writes_sub hostOps2 _ hostOps2_writes (r := main_arg5) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

/-! ## The proof data family and the thread state -/

/-- Every region's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 as a segment: entered with every unscoped buffer at the contents before it, left with them at the contents
    after it.  Its arrays are split out of the unscoped buffers and put back at what the write-backs leave; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it.  Its arrays are split out of the unscoped buffers and put back at what the write-backs leave; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the contents
    after it.  Its arrays are split out of the unscoped buffers and put back at what the write-backs leave; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at the contents
    after it.  Its arrays are split out of the unscoped buffers and put back at what the write-backs leave; the generator
    register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the contents before it, left with them at the contents
    after it.  Its arrays are split out of the unscoped buffers and put back at what the write-backs leave; the generator
    register goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .region (reg4 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_main m ρ)

end Cert.KernelIdeal.Fr

end
-- ==== Proof.Spec.lean ====
/-
  The mathematics both programs compute, written once over plain coordinate functions on the extended reals.

  With x1, x2 : [16, 1024, 512], a weight stack K : [2, 512, 512], a bias stack b : [2, 512] and two integer masks
  m1, m2 : [16, 1024], per batch row β:
      Q_s(x)      = relu (x · K_s + b_s)                                   (a [1024, 512] matrix per row)
      E           = Q_0(x1) · Q_0(x2)ᵀ                                      ([1024, 1024])
      beta        = softmax over j of (E_ij - (1 - m2_j)·1e30)  ·  x2        (rows i)
      alpha       = softmax over i of (E_ij - (1 - m1_i)·1e30), transposed, · x1   (rows j)
      Q1_new      = softmax over j of ((Q_1(x1) · Q_1(x1)ᵀ)_ij - (1 - m1_j)·1e30) · x1
      Q2_new      = softmax over j of ((Q_1(x2) · Q_1(x2)ᵀ)_ij - (1 - m2_j)·1e30) · x2
  The softmax of a vector v is written the way both programs compute it: exp (v_j - μ) / Σ_j' exp (v_j' - μ) with
  μ = max (-∞) (the running maximum of v from -∞).  The float literals stay the words the programs print (1.0, 1e30,
  -∞ and 0), read at the ideal instance; none of them is ever evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literals, as the programs print them. -/
abbrev zero : EReal := Ideal.ofBits .f32 0x00000000#32
abbrev one : EReal := Ideal.ofBits .f32 0x3F800000#32
abbrev big : EReal := Ideal.ofBits .f32 0x7149F2CA#32
abbrev ninf : EReal := Ideal.ofBits .f32 0xFF800000#32

/-- relu (x · W + b) at (l, u). -/
def proj (x : Fin 1024 → Fin 512 → EReal) (W : Fin 512 → Fin 512 → EReal) (b : Fin 512 → EReal) (l : Fin 1024) (u : Fin 512) : EReal :=
  max ((∑ k : Fin 512, x l k * W k u) + b u) zero

/-- (p · qᵀ) at (i, j). -/
def gram (p q : Fin 1024 → Fin 512 → EReal) (i j : Fin 1024) : EReal := ∑ k : Fin 512, p i k * q j k

/-- The penalty (1 - m) · 1e30 of a mask word m. -/
def pen (w : BitVec 32) : EReal := (one - FloatOps.sitofp (F := Ideal) .f32 w) * big

/-- The maximum the softmax subtracts: max (-∞) (the running maximum of v from -∞). -/
def vmax (v : Fin 1024 → EReal) : EReal := max ninf ((Finset.univ : Finset (Fin 1024)).fold max ninf v)

/-- The softmax of v at j. -/
def smax (v : Fin 1024 → EReal) (j : Fin 1024) : EReal :=
  Ideal.div (Ideal.exp (v j - vmax v)) (∑ j' : Fin 1024, Ideal.exp (v j' - vmax v))

/-- Attention along the rows: Σ_j softmax_j (S i · - pn ·) · x j d. -/
def attnRow (S : Fin 1024 → Fin 1024 → EReal) (pn : Fin 1024 → EReal) (x : Fin 1024 → Fin 512 → EReal) (i : Fin 1024) (d : Fin 512) : EReal :=
  ∑ j : Fin 1024, smax (fun j' => S i j' - pn j') j * x j d

/-- Attention along the columns: Σ_i softmax_i (S · j - pn ·) · x i d. -/
def attnCol (S : Fin 1024 → Fin 1024 → EReal) (pn : Fin 1024 → EReal) (x : Fin 1024 → Fin 512 → EReal) (j : Fin 1024) (d : Fin 512) : EReal :=
  ∑ i : Fin 1024, smax (fun i' => S i' j - pn i') i * x i d

section Results

/-- The projection with weight slice s of batch row β of X. -/
def Q (K : Fin 2 → Fin 512 → Fin 512 → EReal) (B : Fin 2 → Fin 512 → EReal) (s : Fin 2)
    (X : Fin 16 → Fin 1024 → Fin 512 → EReal) (β : Fin 16) : Fin 1024 → Fin 512 → EReal :=
  proj (X β) (K s) (B s)

def beta (X1 X2 : Fin 16 → Fin 1024 → Fin 512 → EReal) (K : Fin 2 → Fin 512 → Fin 512 → EReal) (B : Fin 2 → Fin 512 → EReal)
    (M2 : Fin 16 → Fin 1024 → BitVec 32) (β : Fin 16) (i : Fin 1024) (d : Fin 512) : EReal :=
  attnRow (gram (Q K B 0 X1 β) (Q K B 0 X2 β)) (fun j => pen (M2 β j)) (X2 β) i d
def alpha (X1 X2 : Fin 16 → Fin 1024 → Fin 512 → EReal) (K : Fin 2 → Fin 512 → Fin 512 → EReal) (B : Fin 2 → Fin 512 → EReal)
    (M1 : Fin 16 → Fin 1024 → BitVec 32) (β : Fin 16) (j : Fin 1024) (d : Fin 512) : EReal :=
  attnCol (gram (Q K B 0 X1 β) (Q K B 0 X2 β)) (fun i => pen (M1 β i)) (X1 β) j d
/-- The self-attention of one input: used for Q1_new (x1, mask1) and Q2_new (x2, mask2). -/
def selfAttn (X : Fin 16 → Fin 1024 → Fin 512 → EReal) (K : Fin 2 → Fin 512 → Fin 512 → EReal) (B : Fin 2 → Fin 512 → EReal)
    (M : Fin 16 → Fin 1024 → BitVec 32) (β : Fin 16) (i : Fin 1024) (d : Fin 512) : EReal :=
  attnRow (gram (Q K B 1 X β) (Q K B 1 X β)) (fun j => pen (M β j)) (X β) i d

end Results

/-! ## Arrays as functions of their coordinates -/

section Coords
variable {α : Type}
/-- A rank-3 array as a function of its three coordinates. -/
def f3 {n0 n1 n2 : Nat} (X : (⟨3, ![n0, n1, n2]⟩ : Shape).Idx → α) : Fin n0 → Fin n1 → Fin n2 → α := fun a b c => X (ix3 a b c)
/-- A rank-2 array as a function of its two coordinates. -/
def f2 {n0 n1 : Nat} (X : (⟨2, ![n0, n1]⟩ : Shape).Idx → α) : Fin n0 → Fin n1 → α := fun a b => X (ix2 a b)
end Coords

/-! ## Blocks of a batch row -/

section Blocks
variable {α : Type}

/-- Row β of an [n, 1024, 512] array as a [1, 1024, 512] block. -/
def rowBlk {n : Nat} (X : (⟨3, ![n, 1024, 512]⟩ : Shape).Idx → α) (β : Fin n) : (⟨3, ![1, 1024, 512]⟩ : Shape).Idx → α :=
  fun y => X (ix3 β (y 1) (y 2))
/-- Row β of an [n, 1, 1024] array as a [1, 1, 1024] block. -/
def mrowBlk {n : Nat} (X : (⟨3, ![n, 1, 1024]⟩ : Shape).Idx → α) (β : Fin n) : (⟨3, ![1, 1, 1024]⟩ : Shape).Idx → α :=
  fun y => X (ix3 β (y 1) (y 2))
/-- Row β of an [n, 1024, 1] array as a [1, 1024, 1] block. -/
def mcolBlk {n : Nat} (X : (⟨3, ![n, 1024, 1]⟩ : Shape).Idx → α) (β : Fin n) : (⟨3, ![1, 1024, 1]⟩ : Shape).Idx → α :=
  fun y => X (ix3 β (y 1) (y 2))

end Blocks

end Cert.Spec

end
-- ==== Proof.KIHost.lean ====
/-
  What the two stretches of host operations put into the attention and projection calls' input arrays, read at
  an index at the ideal instance (where a change of float format is the identity), and which buffers each
  region leaves as it found them.

  First stretch: the stacked input is x1's sixteen batch rows followed by x2's; weight slice s and bias slice s
  are rows s of the weight and bias stacks.  Second stretch: the two halves of each projection call's output are
  the projections of x1 and of x2; the masks are reshaped to a column [16, 1024, 1] or a row [16, 1, 1024].
-/
import proofs.«148046_j8589934611_1_alg».proof.Proof.KIRun
import proofs.«148046_j8589934611_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The argument arrays on core c -/

abbrev ax1 : FVec Ideal S16x1024x512 .f32 := m ((c : Thread nD τ).loc main_arg0)
abbrev ax2 : FVec Ideal S16x1024x512 .f32 := m ((c : Thread nD τ).loc main_arg1)
abbrev aK : FVec Ideal S2x512x512 .f32 := m ((c : Thread nD τ).loc main_arg2)
abbrev aB : FVec Ideal S2x512 .f32 := m ((c : Thread nD τ).loc main_arg3)
abbrev aM1 : Vec Ideal S16x1024 .i32 := m ((c : Thread nD τ).loc main_arg4)
abbrev aM2 : Vec Ideal S16x1024 .i32 := m ((c : Thread nD τ).loc main_arg5)

/-! ## After the first stretch -/

theorem W1_v0 : @Eq (FVec Ideal S16x1024x512 .bf16) (W1 m ρ c (Proc.devRef .tc main_v0))
    (truncf (F := Ideal) .bf16 (ax1 m c) bitsLt_bf16_f32) := by
  show StableHlo.after hostOps0 (W0 m ρ c) (Proc.devRef .tc main_v0) = _
  after_results
theorem W1_v1 : @Eq (FVec Ideal S16x1024x512 .bf16) (W1 m ρ c (Proc.devRef .tc main_v1))
    (truncf (F := Ideal) .bf16 (ax2 m c) bitsLt_bf16_f32) := by
  show StableHlo.after hostOps0 (W0 m ρ c) (Proc.devRef .tc main_v1) = _
  after_results
theorem W1_v2 : @Eq (FVec Ideal S32x1024x512 .bf16) (W1 m ρ c (Proc.devRef .tc main_v2))
    (concatenate S32x1024x512 0 [⟨S16x1024x512, (truncf (F := Ideal) .bf16 (ax1 m c) bitsLt_bf16_f32 : FVec Ideal S16x1024x512 .bf16)⟩,
        ⟨S16x1024x512, (truncf (F := Ideal) .bf16 (ax2 m c) bitsLt_bf16_f32 : FVec Ideal S16x1024x512 .bf16)⟩] concatenates_S16x1024x512_S16x1024x512_S32x1024x512_d0) := by
  show StableHlo.after hostOps0 (W0 m ρ c) (Proc.devRef .tc main_v2) = _
  after_results
theorem W1_v5 : @Eq (FVec Ideal S512x512 .bf16) (W1 m ρ c (Proc.devRef .tc main_v5))
    (truncf (F := Ideal) .bf16 (shapeCast S512x512 (extractStridedSlice S1x512x512 ![0, 0, 0] (aK m c) slices_S2x512x512_S1x512x512_0_0_0) shapeCasts_S1x512x512_S512x512) bitsLt_bf16_f32) := by
  show StableHlo.after hostOps0 (W0 m ρ c) (Proc.devRef .tc main_v5) = _
  after_results; try rfl
theorem W1_v8 : @Eq (FVec Ideal S512x512 .bf16) (W1 m ρ c (Proc.devRef .tc main_v8))
    (truncf (F := Ideal) .bf16 (shapeCast S512x512 (extractStridedSlice S1x512x512 ![1, 0, 0] (aK m c) slices_S2x512x512_S1x512x512_1_0_0) shapeCasts_S1x512x512_S512x512) bitsLt_bf16_f32) := by
  show StableHlo.after hostOps0 (W0 m ρ c) (Proc.devRef .tc main_v8) = _
  after_results; try rfl
theorem W1_v11 : @Eq (FVec Ideal S1x512 .f32) (W1 m ρ c (Proc.devRef .tc main_v11))
    (shapeCast S1x512 (shapeCast S512 (extractStridedSlice S1x512 ![0, 0] (aB m c) slices_S2x512_S1x512_0_0) shapeCasts_S1x512_S512) shapeCasts_S512_S1x512) := by
  show StableHlo.after hostOps0 (W0 m ρ c) (Proc.devRef .tc main_v11) = _
  after_results; try rfl
theorem W1_v14 : @Eq (FVec Ideal S1x512 .f32) (W1 m ρ c (Proc.devRef .tc main_v14))
    (shapeCast S1x512 (shapeCast S512 (extractStridedSlice S1x512 ![1, 0] (aB m c) slices_S2x512_S1x512_1_0) shapeCasts_S1x512_S512) shapeCasts_S512_S1x512) := by
  show StableHlo.after hostOps0 (W0 m ρ c) (Proc.devRef .tc main_v14) = _
  after_results; try rfl

/-- x1 and x2 in the attention calls' float format are x1 and x2. -/
theorem v0_at (j : S16x1024x512.Idx) : (W1 m ρ c (Proc.devRef .tc main_v0) : FVec Ideal S16x1024x512 .bf16) j = ax1 m c j := by
  rw [W1_v0]; rfl
theorem v1_at (j : S16x1024x512.Idx) : (W1 m ρ c (Proc.devRef .tc main_v1) : FVec Ideal S16x1024x512 .bf16) j = ax2 m c j := by
  rw [W1_v1]; rfl

/-- Row β of the stacked input is row β of x1, -/
theorem v2_lo (β : Fin 16) (l : Fin 1024) (k : Fin 512) :
    (W1 m ρ c (Proc.devRef .tc main_v2) : FVec Ideal S32x1024x512 .bf16) (ix3 (⟨β.val, by omega⟩ : Fin 32) l k) = ax1 m c (ix3 β l k) := by
  rw [W1_v2]
  exact (concatenate_pair_apply_left (0 : Fin S32x1024x512.rank) _ _ concatenates_S16x1024x512_S16x1024x512_S32x1024x512_d0
    (ix3 (⟨β.val, by omega⟩ : Fin 32) l k) rfl (ix3 β l k)
    (fun b => by match b with | ⟨0, _⟩ => rfl | ⟨1, _⟩ => rfl | ⟨2, _⟩ => rfl)).trans rfl
/-- and row 16 + β is row β of x2. -/
theorem v2_hi (β : Fin 16) (l : Fin 1024) (k : Fin 512) :
    (W1 m ρ c (Proc.devRef .tc main_v2) : FVec Ideal S32x1024x512 .bf16) (ix3 (⟨β.val + 16, by omega⟩ : Fin 32) l k) = ax2 m c (ix3 β l k) := by
  rw [W1_v2]
  exact (concatenate_pair_apply_right (0 : Fin S32x1024x512.rank) _ _ concatenates_S16x1024x512_S16x1024x512_S32x1024x512_d0
    (ix3 (⟨β.val + 16, by omega⟩ : Fin 32) l k) rfl rfl (ix3 β l k)
    (fun b hb => by match b with | ⟨0, _⟩ => exact absurd rfl hb | ⟨1, _⟩ => rfl | ⟨2, _⟩ => rfl)
    rfl).trans rfl

/-- Weight slice s at (k, u) is the weight stack at (s, k, u). -/
theorem v5_at (k u : Fin 512) : (W1 m ρ c (Proc.devRef .tc main_v5) : FVec Ideal S512x512 .bf16) (ix2 k u) = aK m c (ix3 (0 : Fin 2) k u) := by
  rw [W1_v5]
  show shapeCast S512x512 (extractStridedSlice S1x512x512 ![0, 0, 0] (aK m c) slices_S2x512x512_S1x512x512_0_0_0) shapeCasts_S1x512x512_S512x512 (ix2 k u) = _
  refine (shapeCast_apply _ _ (ix2 k u) (ix3 (0 : Fin 1) k u) (by rw [Shape.rowMajor_val_three, Shape.rowMajor_val_two]; simp)).trans ?_
  exact extractStridedSlice_apply ![0, 0, 0] (aK m c) slices_S2x512x512_S1x512x512_0_0_0 (ix3 (0 : Fin 1) k u) (ix3 (0 : Fin 2) k u)
    (fun a => by match a with | ⟨0, _⟩ => rfl | ⟨1, _⟩ => exact (Nat.zero_add _).symm | ⟨2, _⟩ => exact (Nat.zero_add _).symm)
theorem v8_at (k u : Fin 512) : (W1 m ρ c (Proc.devRef .tc main_v8) : FVec Ideal S512x512 .bf16) (ix2 k u) = aK m c (ix3 (1 : Fin 2) k u) := by
  rw [W1_v8]
  show shapeCast S512x512 (extractStridedSlice S1x512x512 ![1, 0, 0] (aK m c) slices_S2x512x512_S1x512x512_1_0_0) shapeCasts_S1x512x512_S512x512 (ix2 k u) = _
  refine (shapeCast_apply _ _ (ix2 k u) (ix3 (0 : Fin 1) k u) (by rw [Shape.rowMajor_val_three, Shape.rowMajor_val_two]; simp)).trans ?_
  exact extractStridedSlice_apply ![1, 0, 0] (aK m c) slices_S2x512x512_S1x512x512_1_0_0 (ix3 (0 : Fin 1) k u) (ix3 (1 : Fin 2) k u)
    (fun a => by match a with | ⟨0, _⟩ => rfl | ⟨1, _⟩ => exact (Nat.zero_add _).symm | ⟨2, _⟩ => exact (Nat.zero_add _).symm)

/-- Bias slice s at (0, u) is the bias stack at (s, u). -/
theorem v11_at (u : Fin 512) : (W1 m ρ c (Proc.devRef .tc main_v11) : FVec Ideal S1x512 .f32) (ix2 (0 : Fin 1) u) = aB m c (ix2 (0 : Fin 2) u) := by
  rw [W1_v11]
  refine (shapeCast_apply _ _ (ix2 (0 : Fin 1) u) (ix1 u) (by rw [Shape.rowMajor_val_one, Shape.rowMajor_val_two]; simp)).trans ?_
  refine (shapeCast_apply _ _ (ix1 u) (ix2 (0 : Fin 1) u) (by rw [Shape.rowMajor_val_one, Shape.rowMajor_val_two]; simp)).trans ?_
  exact extractStridedSlice_apply ![0, 0] (aB m c) slices_S2x512_S1x512_0_0 (ix2 (0 : Fin 1) u) (ix2 (0 : Fin 2) u)
    (fun a => by match a with | ⟨0, _⟩ => rfl | ⟨1, _⟩ => exact (Nat.zero_add _).symm)
theorem v14_at (u : Fin 512) : (W1 m ρ c (Proc.devRef .tc main_v14) : FVec Ideal S1x512 .f32) (ix2 (0 : Fin 1) u) = aB m c (ix2 (1 : Fin 2) u) := by
  rw [W1_v14]
  refine (shapeCast_apply _ _ (ix2 (0 : Fin 1) u) (ix1 u) (by rw [Shape.rowMajor_val_one, Shape.rowMajor_val_two]; simp)).trans ?_
  refine (shapeCast_apply _ _ (ix1 u) (ix2 (0 : Fin 1) u) (by rw [Shape.rowMajor_val_one, Shape.rowMajor_val_two]; simp)).trans ?_
  exact extractStridedSlice_apply ![1, 0] (aB m c) slices_S2x512_S1x512_1_0 (ix2 (0 : Fin 1) u) (ix2 (1 : Fin 2) u)
    (fun a => by match a with | ⟨0, _⟩ => rfl | ⟨1, _⟩ => exact (Nat.zero_add _).symm)

/-! ## Which buffers the projection calls leave as they found them -/

/-- The second projection call is entered with the same stacked input, weight slice 1 and bias slice 1 the first stretch made. -/
theorem V2_v2 : W2 m ρ c (Proc.devRef .tc main_v2) = W1 m ρ c (Proc.devRef .tc main_v2) :=
  (W2_arr m ρ c 0).trans (((dat0 (V1 m ρ) c).arrAt_in 0 rfl _).trans (A_eq0 (V1 m ρ) c 0))
theorem V2_v8 : W2 m ρ c (Proc.devRef .tc main_v8) = W1 m ρ c (Proc.devRef .tc main_v8) := W2_of_ne m ρ c main_v8 (by decide)
theorem V2_v14 : W2 m ρ c (Proc.devRef .tc main_v14) = W1 m ρ c (Proc.devRef .tc main_v14) := W2_of_ne m ρ c main_v14 (by decide)

/-- The two projection outputs when the second stretch starts. -/
theorem W3_v15 : W3 m ρ c (Proc.devRef .tc main_v15) = (dat0 (V1 m ρ) c).arrAt 3 cfg0.N :=
  (W3_of_ne m ρ c main_v15 (by decide)).trans (W2_arr m ρ c 3)
theorem W3_v16 : W3 m ρ c (Proc.devRef .tc main_v16) = (dat1 (V2 m ρ) c).arrAt 3 cfg1.N := W3_arr m ρ c 3

/-- The masks when the second stretch starts are the arguments. -/
theorem W3_arg4 : W3 m ρ c (Proc.devRef .tc main_arg4) = aM1 m c :=
  (W3_of_ne m ρ c main_arg4 (by decide)).trans ((W2_of_ne m ρ c main_arg4 (by decide)).trans
    (StableHlo.after_of_writes_sub hostOps0 _ hostOps0_writes (r := main_arg4) (by decide)))
theorem W3_arg5 : W3 m ρ c (Proc.devRef .tc main_arg5) = aM2 m c :=
  (W3_of_ne m ρ c main_arg5 (by decide)).trans ((W2_of_ne m ρ c main_arg5 (by decide)).trans
    (StableHlo.after_of_writes_sub hostOps0 _ hostOps0_writes (r := main_arg5) (by decide)))

/-- x1 and x2 (in the attention calls' format) when the attention calls start are what the first stretch made. -/
theorem W4_v0 : W4 m ρ c (Proc.devRef .tc main_v0) = W1 m ρ c (Proc.devRef .tc main_v0) :=
  (StableHlo.after_of_writes_sub hostOps2 _ hostOps2_writes (r := main_v0) (by decide)).trans
    ((W3_of_ne m ρ c main_v0 (by decide)).trans (W2_of_ne m ρ c main_v0 (by decide)))
theorem W4_v1 : W4 m ρ c (Proc.devRef .tc main_v1) = W1 m ρ c (Proc.devRef .tc main_v1) :=
  (StableHlo.after_of_writes_sub hostOps2 _ hostOps2_writes (r := main_v1) (by decide)).trans
    ((W3_of_ne m ρ c main_v1 (by decide)).trans (W2_of_ne m ρ c main_v1 (by decide)))

/-! ## After the second stretch -/

theorem W4_v17 : @Eq (FVec Ideal S16x1024x512 .bf16) (W4 m ρ c (Proc.devRef .tc main_v17))
    (extractStridedSlice S16x1024x512 ![0, 0, 0] (W3 m ρ c (Proc.devRef .tc main_v15) : FVec Ideal S32x1024x512 .bf16) slices_S32x1024x512_S16x1024x512_0_0_0) := by
  show StableHlo.after hostOps2 (W3 m ρ c) (Proc.devRef .tc main_v17) = _
  after_results; try rfl
theorem W4_v18 : @Eq (FVec Ideal S16x1024x512 .bf16) (W4 m ρ c (Proc.devRef .tc main_v18))
    (extractStridedSlice S16x1024x512 ![16, 0, 0] (W3 m ρ c (Proc.devRef .tc main_v15) : FVec Ideal S32x1024x512 .bf16) slices_S32x1024x512_S16x1024x512_16_0_0) := by
  show StableHlo.after hostOps2 (W3 m ρ c) (Proc.devRef .tc main_v18) = _
  after_results; try rfl
theorem W4_v19 : @Eq (FVec Ideal S16x1024x512 .bf16) (W4 m ρ c (Proc.devRef .tc main_v19))
    (extractStridedSlice S16x1024x512 ![0, 0, 0] (W3 m ρ c (Proc.devRef .tc main_v16) : FVec Ideal S32x1024x512 .bf16) slices_S32x1024x512_S16x1024x512_0_0_0) := by
  show StableHlo.after hostOps2 (W3 m ρ c) (Proc.devRef .tc main_v19) = _
  after_results; try rfl
theorem W4_v20 : @Eq (FVec Ideal S16x1024x512 .bf16) (W4 m ρ c (Proc.devRef .tc main_v20))
    (extractStridedSlice S16x1024x512 ![16, 0, 0] (W3 m ρ c (Proc.devRef .tc main_v16) : FVec Ideal S32x1024x512 .bf16) slices_S32x1024x512_S16x1024x512_16_0_0) := by
  show StableHlo.after hostOps2 (W3 m ρ c) (Proc.devRef .tc main_v20) = _
  after_results; try rfl
theorem W4_v21 : @Eq (Vec Ideal S16x1024x1 .i32) (W4 m ρ c (Proc.devRef .tc main_v21))
    (shapeCast S16x1024x1 (W3 m ρ c (Proc.devRef .tc main_arg4) : Vec Ideal S16x1024 .i32) shapeCasts_S16x1024_S16x1024x1) := by
  show StableHlo.after hostOps2 (W3 m ρ c) (Proc.devRef .tc main_v21) = _
  after_results; try rfl
theorem W4_v22 : @Eq (Vec Ideal S16x1x1024 .i32) (W4 m ρ c (Proc.devRef .tc main_v22))
    (shapeCast S16x1x1024 (W3 m ρ c (Proc.devRef .tc main_arg4) : Vec Ideal S16x1024 .i32) shapeCasts_S16x1024_S16x1x1024) := by
  show StableHlo.after hostOps2 (W3 m ρ c) (Proc.devRef .tc main_v22) = _
  after_results; try rfl
theorem W4_v23 : @Eq (Vec Ideal S16x1x1024 .i32) (W4 m ρ c (Proc.devRef .tc main_v23))
    (shapeCast S16x1x1024 (W3 m ρ c (Proc.devRef .tc main_arg5) : Vec Ideal S16x1024 .i32) shapeCasts_S16x1024_S16x1x1024) := by
  show StableHlo.after hostOps2 (W3 m ρ c) (Proc.devRef .tc main_v23) = _
  after_results; try rfl

/-- The lower half of a projection call's output (rows 0 … 15) and the upper half (rows 16 … 31), at an index. -/
theorem lo_at (X : FVec Ideal S32x1024x512 .bf16) (β : Fin 16) (l : Fin 1024) (u : Fin 512) :
    extractStridedSlice S16x1024x512 ![0, 0, 0] X slices_S32x1024x512_S16x1024x512_0_0_0 (ix3 β l u) = X (ix3 (⟨β.val, by omega⟩ : Fin 32) l u) :=
  extractStridedSlice_apply ![0, 0, 0] X slices_S32x1024x512_S16x1024x512_0_0_0 (ix3 β l u) (ix3 (⟨β.val, by omega⟩ : Fin 32) l u)
    (fun a => by match a with | ⟨0, _⟩ => exact (Nat.zero_add _).symm | ⟨1, _⟩ => exact (Nat.zero_add _).symm | ⟨2, _⟩ => exact (Nat.zero_add _).symm)
theorem hi_at (X : FVec Ideal S32x1024x512 .bf16) (β : Fin 16) (l : Fin 1024) (u : Fin 512) :
    extractStridedSlice S16x1024x512 ![16, 0, 0] X slices_S32x1024x512_S16x1024x512_16_0_0 (ix3 β l u) = X (ix3 (⟨β.val + 16, by omega⟩ : Fin 32) l u) :=
  extractStridedSlice_apply ![16, 0, 0] X slices_S32x1024x512_S16x1024x512_16_0_0 (ix3 β l u) (ix3 (⟨β.val + 16, by omega⟩ : Fin 32) l u)
    (fun a => by match a with | ⟨0, _⟩ => exact Nat.add_comm _ _ | ⟨1, _⟩ => exact (Nat.zero_add _).symm | ⟨2, _⟩ => exact (Nat.zero_add _).symm)

/-- A mask as a column and as a row, at an index. -/
theorem col_at (M : Vec Ideal S16x1024 .i32) (β : Fin 16) (l : Fin 1024) :
    shapeCast S16x1024x1 M shapeCasts_S16x1024_S16x1024x1 (ix3 β l (0 : Fin 1)) = M (ix2 β l) :=
  shapeCast_apply _ _ (ix3 β l (0 : Fin 1)) (ix2 β l) (by rw [Shape.rowMajor_val_two, Shape.rowMajor_val_three]; simp)
theorem row_at (M : Vec Ideal S16x1024 .i32) (β : Fin 16) (l : Fin 1024) :
    shapeCast S16x1x1024 M shapeCasts_S16x1024_S16x1x1024 (ix3 β (0 : Fin 1) l) = M (ix2 β l) :=
  shapeCast_apply _ _ (ix3 β (0 : Fin 1) l) (ix2 β l) (by rw [Shape.rowMajor_val_two, Shape.rowMajor_val_three]; simp)

/-! ## Which buffers the attention calls leave as they found them, and where the results end -/

/-- The first self-attention call is entered with x1, P1 and the mask1 row as the second stretch left them. -/
theorem W5_v0 : W5 m ρ c (Proc.devRef .tc main_v0) = W4 m ρ c (Proc.devRef .tc main_v0) :=
  (W5_arr m ρ c 0).trans (((dat2 (V4 m ρ) c).arrAt_in 0 rfl _).trans (A_eq2 (V4 m ρ) c 0))
theorem W5_v19 : W5 m ρ c (Proc.devRef .tc main_v19) = W4 m ρ c (Proc.devRef .tc main_v19) := W5_of_ne m ρ c main_v19 (by decide)
theorem W5_v22 : W5 m ρ c (Proc.devRef .tc main_v22) = W4 m ρ c (Proc.devRef .tc main_v22) := W5_of_ne m ρ c main_v22 (by decide)
/-- The second self-attention call is entered with x2, P2 and the mask2 row as the second stretch left them. -/
theorem W6_v1 : W6 m ρ c (Proc.devRef .tc main_v1) = W4 m ρ c (Proc.devRef .tc main_v1) :=
  (W6_of_ne m ρ c main_v1 (by decide)).trans ((W5_arr m ρ c 1).trans (((dat2 (V4 m ρ) c).arrAt_in 1 rfl _).trans (A_eq2 (V4 m ρ) c 1)))
theorem W6_v20 : W6 m ρ c (Proc.devRef .tc main_v20) = W4 m ρ c (Proc.devRef .tc main_v20) :=
  (W6_of_ne m ρ c main_v20 (by decide)).trans (W5_of_ne m ρ c main_v20 (by decide))
theorem W6_v23 : W6 m ρ c (Proc.devRef .tc main_v23) = W4 m ρ c (Proc.devRef .tc main_v23) :=
  (W6_of_ne m ρ c main_v23 (by decide)).trans ((W5_arr m ρ c 5).trans (((dat2 (V4 m ρ) c).arrAt_in 5 rfl _).trans (A_eq2 (V4 m ρ) c 5)))

/-- The four results at the end are their regions' final arrays. -/
theorem W7_v24_0 : W7 m ρ c (Proc.devRef .tc main_v24_0) = (dat2 (V4 m ρ) c).arrAt 6 cfg2.N :=
  (W7_of_ne m ρ c main_v24_0 (by decide)).trans ((W6_of_ne m ρ c main_v24_0 (by decide)).trans (W5_arr m ρ c 6))
theorem W7_v24_1 : W7 m ρ c (Proc.devRef .tc main_v24_1) = (dat2 (V4 m ρ) c).arrAt 7 cfg2.N :=
  (W7_of_ne m ρ c main_v24_1 (by decide)).trans ((W6_of_ne m ρ c main_v24_1 (by decide)).trans (W5_arr m ρ c 7))
theorem W7_v25 : W7 m ρ c (Proc.devRef .tc main_v25) = (dat3 (V5 m ρ) c).arrAt 3 cfg3.N :=
  (W7_of_ne m ρ c main_v25 (by decide)).trans (W6_arr m ρ c 3)
theorem W7_v26 : W7 m ρ c (Proc.devRef .tc main_v26) = (dat4 (V6 m ρ) c).arrAt 3 cfg4.N := W7_arr m ρ c 3

end Cert.KernelIdeal.Val

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KIPayDot.lean ====
/-
  The matrix products the five kernel bodies store, read at an entry, at the ideal values.

  Two shapes of product occur. The projections multiply a [1024, 512] block by a [512, 512] weight (a plain product:
  the left operand's axis 1 is contracted against the right operand's axis 0), add a bias row and take the maximum
  with the zero word. The score matrices multiply a [1024, 512] block by the TRANSPOSE of another (both operands'
  axis 1 is contracted, the result's rows come from the left operand's rows and its columns from the right operand's
  rows): entry (p, q) is  ∑ κ < 512, l (p, κ) · r (q, κ).
-/
import proofs.«148046_j8589934611_1_alg».proof.Proof.Gen.KernelIdeal.Skeleton
import proofs.«148046_j8589934611_1_alg».proof.Proof.Spec
import proofs.«148046_j8589934611_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

namespace Cert.KernelIdeal.Pay

open Cert.KernelIdeal Cert.KernelIdeal.Gen Cert.Spec Idealize.ShloMosaic Idealize.ShloMosaic.ValueIdx

/-! ## A product with the right operand transposed: [a, k] · [b, k]ᵀ → [a, b] -/

section RowsByRows

variable {a b k : ℕ} (d : DotDims ⟨2, ![a, k]⟩ ⟨2, ![b, k]⟩ ⟨2, ![a, b]⟩)

/-- The dimension numbers of a product of a matrix by a transposed matrix: no batch axis, axis 1 of both operands
    contracted, the result's rows the left operand's rows, its columns the right operand's rows. -/
structure RowsByRows : Prop where
  lhsBatch : d.lhsBatch = []
  lhsNon : d.lhsNonContracting = [0]
  lhsContr : d.lhsContracting = [1]
  rhsBatch : d.rhsBatch = []
  rhsNon : d.rhsNonContracting = [0]
  rhsContr : d.rhsContracting = [1]

variable {d}

/-- The left operand's row is the result's row. -/
theorem lhs_row (h : RowsByRows d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's row is the result's column. -/
theorem rhs_row (h : RowsByRows d) (j : (⟨2, ![a, b]⟩ : Shape).Idx) (q : d.contr.Idx) : (d.rhsIdx j q 0).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : RowsByRows d) (hr : d.contr.rank = 1) (hs : d.contr.size ⟨0, by omega⟩ = k)
    (l : (⟨2, ![a, k]⟩ : Shape).Idx → EReal) (r : (⟨2, ![b, k]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 q κ) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 q κ := funext fun x => Fin.ext (by
    match x with
    | ⟨0, _⟩ => exact rhs_row h _ _
    | ⟨1, _⟩ => exact (d.rhsIdx_val_of_single h.rhsContr _ _).trans hk)
  rw [el, er]

/-- The kernel's product into a zero accumulator, at an entry. -/
theorem matmul_zero_apply {φ₁ φ₂ : FTy} (h : RowsByRows d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    matmul d prec l r (constant ⟨2, ![a, b]⟩ .f32 0x00000000#32) (ix2 p q) = ∑ κ : Fin k, l (ix2 p κ) * r (ix2 q κ) :=
  (Ideal.matmul_constant_zero_apply d prec l r (ix2 p q)).trans (sum_contr h hr hs l r p q)

end RowsByRows

/-! ## The two records of the program -/

/-- The projections' record is a plain product. -/
theorem plain_proj : Cert.PlainDot.Plain (a := 1024) (k := 512) (b := 512) dot_S1024x512_S512x512_S1024x512_1_0_0_1_n_n :=
  ⟨rfl, rfl, rfl, rfl, rfl, rfl⟩

/-- The score matrices' record is a product by a transposed matrix. -/
theorem rows_gram : RowsByRows (a := 1024) (b := 1024) (k := 512) dot_S1024x512_S1024x512_S1024x1024_1_1_0_0_n_n :=
  ⟨rfl, rfl, rfl, rfl, rfl, rfl⟩

/-! ## The projections -/

/-- The first projection's stored block at (0, l, u): relu (x · W + b) there. -/
theorem k0_pay1_apply (v0 : Vec Ideal S1x1024x512 .bf16) (v2 : Vec Ideal S512x512 .bf16) (v5 : Vec Ideal S1x512 .f32) (l : Fin 1024) (u : Fin 512) :
    k0_pay1 (F := Ideal) v0 v2 v5 (ix3 0 l u) = proj (fun l k => v0 (ix3 0 l k)) (fun k u => v2 (ix2 k u)) (fun u => v5 (ix2 0 u)) l u := by
  unfold k0_pay1 proj
  rw [shapeCast_ab_1ab_apply, truncf_apply, maximumf_apply, addf_apply, broadcast_apply,
    Cert.PlainDot.matmul_zero_apply plain_proj rfl rfl, broadcastTo_1b_ab_apply, shapeCast_self]
  simp only [shapeCast_1ab_ab_apply, shapeCast_self]
  rfl

/-- The second projection's stored block at (0, l, u): relu (x · W + b) there. -/
theorem k1_pay1_apply (v0 : Vec Ideal S1x1024x512 .bf16) (v2 : Vec Ideal S512x512 .bf16) (v5 : Vec Ideal S1x512 .f32) (l : Fin 1024) (u : Fin 512) :
    k1_pay1 (F := Ideal) v0 v2 v5 (ix3 0 l u) = proj (fun l k => v0 (ix3 0 l k)) (fun k u => v2 (ix2 k u)) (fun u => v5 (ix2 0 u)) l u := by
  unfold k1_pay1 proj
  rw [shapeCast_ab_1ab_apply, truncf_apply, maximumf_apply, addf_apply, broadcast_apply,
    Cert.PlainDot.matmul_zero_apply plain_proj rfl rfl, broadcastTo_1b_ab_apply, shapeCast_self]
  simp only [shapeCast_1ab_ab_apply, shapeCast_self]
  rfl

/-! ## The score matrices -/

/-- The cross-attention scores at (i, j): the two projected blocks' rows i and j, multiplied and summed. -/
theorem k2_pay4_apply (v6 v8 : Vec Ideal S1x1024x512 .bf16) (i j : Fin 1024) :
    k2_pay4 (F := Ideal) v6 v8 (ix2 i j) = gram (fun i k => v6 (ix3 0 i k)) (fun j k => v8 (ix3 0 j k)) i j := by
  unfold k2_pay4 gram
  rw [shapeCast_self, matmul_zero_apply rows_gram rfl rfl]
  simp only [shapeCast_1ab_ab_apply]

/-- The first self-attention's scores at (i, j). -/
theorem k3_pay2_apply (v3 v5 : Vec Ideal S1x1024x512 .bf16) (i j : Fin 1024) :
    k3_pay2 (F := Ideal) v3 v5 (ix2 i j) = gram (fun i k => v3 (ix3 0 i k)) (fun j k => v5 (ix3 0 j k)) i j := by
  unfold k3_pay2 gram
  rw [shapeCast_self, matmul_zero_apply rows_gram rfl rfl]
  simp only [shapeCast_1ab_ab_apply]

/-- The second self-attention's scores at (i, j). -/
theorem k4_pay2_apply (v3 v5 : Vec Ideal S1x1024x512 .bf16) (i j : Fin 1024) :
    k4_pay2 (F := Ideal) v3 v5 (ix2 i j) = gram (fun i k => v3 (ix3 0 i k)) (fun j k => v5 (ix3 0 j k)) i j := by
  unfold k4_pay2 gram
  rw [shapeCast_self, matmul_zero_apply rows_gram rfl rfl]
  simp only [shapeCast_1ab_ab_apply]

end Cert.KernelIdeal.Pay
-- ==== Proof.KIPaySoft.lean ====
/-
  The masked-softmax-times-value payloads of the kernel bodies, read at an index of the ideal values.

  Every attention body forms, from a score matrix S : [1024, 1024] and an integer mask word per key, the masked
  scores Z = S - (1 - m) · 1e30, takes the softmax of Z along one axis the way Spec.smax writes it (the running
  maximum from -∞, the exponentials of the differences, their sum, the quotient), and multiplies the result with
  a [1024, 512] value block.  Along the rows the product is the plain one, P · x; along the columns it contracts
  axis 0 of both operands, Pᵀ · x.  So an entry of the stored block is Spec.attnRow, respectively Spec.attnCol,
  of the coordinate functions of the score matrix, the penalties and the value block.
-/
import proofs.«148046_j8589934611_1_alg».proof.Proof.Gen.KernelIdeal.Skeleton
import proofs.«148046_j8589934611_1_alg».proof.Proof.Spec
import proofs.«148046_j8589934611_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Spec Idealize.ShloMosaic Idealize.ShloMosaic.ValueIdx

namespace Soft

/-! ## Layout operations of the keepdims forms, read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The reduced index with the coordinate put back -/

/-- Over a row index, the dropped column coordinate goes second. -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Over a column index, the dropped row coordinate goes first. -/
theorem lift_col {a b : ℕ} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-! ## The two reductions along one axis of a matrix -/

/-- The maximum along the rows: the fold of `max` from -∞ over the row's entries. -/
theorem rowMax_apply {a b : ℕ} (Z : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (i : Fin a) :
    multiReduction .maximumf [1] ⟨1, ![a]⟩ Z 0xFF800000#32 h hφ hacc (ix1 i)
      = (Finset.univ : Finset (Fin b)).fold max ninf (fun k => Z (ix2 i k)) := by
  refine (Ideal.multiReduction_maximumf_single Z _ h hφ hacc (ix1 i)).trans ?_
  have e : (Z ∘ h.lift (ix1 i) : Fin b → EReal) = fun k => Z (ix2 i k) := funext fun k => congrArg Z (lift_row h i k)
  exact congrArg (fun f : Fin b → EReal => (Finset.univ : Finset (Fin b)).fold max ninf f) e

/-- The maximum along the columns. -/
theorem colMax_apply {a b : ℕ} (Z : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (j : Fin b) :
    multiReduction .maximumf [0] ⟨1, ![b]⟩ Z 0xFF800000#32 h hφ hacc (ix1 j)
      = (Finset.univ : Finset (Fin a)).fold max ninf (fun k => Z (ix2 k j)) := by
  refine (Ideal.multiReduction_maximumf_single Z _ h hφ hacc (ix1 j)).trans ?_
  have e : (Z ∘ h.lift (ix1 j) : Fin a → EReal) = fun k => Z (ix2 k j) := funext fun k => congrArg Z (lift_col h j k)
  exact congrArg (fun f : Fin a → EReal => (Finset.univ : Finset (Fin a)).fold max ninf f) e

/-- The sum along the rows. -/
theorem rowSum_apply {a b : ℕ} (E : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ E 0x00000000#32 h hφ hacc (ix1 i) = ∑ k : Fin b, E (ix2 i k) := by
  refine (Ideal.multiReduction_add_single E _ h hφ hacc (ix1 i)).trans ?_
  exact Finset.sum_congr rfl fun k _ => congrArg E (lift_row h i k)

/-- The sum along the columns. -/
theorem colSum_apply {a b : ℕ} (E : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ E 0x00000000#32 h hφ hacc (ix1 j) = ∑ k : Fin a, E (ix2 k j) := by
  refine (Ideal.multiReduction_add_single E _ h hφ hacc (ix1 j)).trans ?_
  exact Finset.sum_congr rfl fun k _ => congrArg E (lift_col h j k)

/-- A scalar literal is the word's extended real. -/
theorem scalar_ofBits (φ : FTy) (b : BitVec φ.bits) : Scalar.ofBits (F := Ideal) φ b = Ideal.ofBits φ b := rfl

/-- The exponential at an index. -/
theorem exp_apply {s : Shape} {φ : FTy} (x : FVec Ideal s φ) (i : s.Idx) : exp x i = Ideal.exp (x i) := rfl

/-! ## The softmax along the rows -/

section Row

/-- The running maximum of each row, from -∞. -/
def rowMaxK (Z : FVec Ideal S1024x1024 .f32) : FVec Ideal S1024 .f32 :=
  maximumf (broadcast S1024 (Scalar.ofBits (F := Ideal) .f32 0xFF800000#32))
    (multiReduction .maximumf [1] S1024 Z 0xFF800000#32 reduces_S1024x1024_S1024 (.inl rfl) rfl)

theorem rowMaxK_apply (Z : FVec Ideal S1024x1024 .f32) (i : Fin 1024) :
    rowMaxK Z (ix1 i) = vmax (fun j => Z (ix2 i j)) := by
  unfold rowMaxK vmax
  rw [maximumf_apply, broadcast_apply, scalar_ofBits]
  exact congrArg (max ninf) (rowMax_apply Z reduces_S1024x1024_S1024 (.inl rfl) rfl i)

/-- The exponentials of the differences to the row's maximum. -/
def rowExp (Z : FVec Ideal S1024x1024 .f32) : FVec Ideal S1024x1024 .f32 :=
  exp (subf Z (broadcastTo S1024x1024 (shapeCast S1024x1 (rowMaxK Z) shapeCasts_S1024_S1024x1) broadcasts_S1024x1_S1024x1024))

theorem rowExp_apply (Z : FVec Ideal S1024x1024 .f32) (i j : Fin 1024) :
    rowExp Z (ix2 i j) = Ideal.exp (Z (ix2 i j) - vmax (fun j' => Z (ix2 i j'))) := by
  unfold rowExp
  rw [exp_apply, subf_apply, broadcastTo_a1_ab_apply, shapeCast_a_a1_apply, rowMaxK_apply]

/-- The quotients by the row's sum, in the narrow format (the same extended reals). -/
def rowSoft (Z : FVec Ideal S1024x1024 .f32) : FVec Ideal S1024x1024 .bf16 :=
  truncf .bf16 (divf (rowExp Z) (broadcastTo S1024x1024
    (shapeCast S1024x1 (multiReduction .add [1] S1024 (rowExp Z) 0x00000000#32 reduces_S1024x1024_S1024 (.inl rfl) rfl) shapeCasts_S1024_S1024x1)
    broadcasts_S1024x1_S1024x1024)) bitsLt_bf16_f32

theorem rowSoft_apply (Z : FVec Ideal S1024x1024 .f32) (i j : Fin 1024) :
    rowSoft Z (ix2 i j) = smax (fun j' => Z (ix2 i j')) j := by
  unfold rowSoft smax
  rw [truncf_apply, divf_apply, rowExp_apply, broadcastTo_a1_ab_apply, shapeCast_a_a1_apply]
  refine congrArg (Ideal.div _) ?_
  exact (rowSum_apply (rowExp Z) reduces_S1024x1024_S1024 (.inl rfl) rfl i).trans (Finset.sum_congr rfl fun k _ => rowExp_apply Z i k)

/-- The penalty row (1 - m) · 1e30 of a [1, 1, 1024] mask block, over every row of the score matrix. -/
def maskRow (m : Vec Ideal S1x1x1024 .i32) : FVec Ideal S1024x1024 .f32 :=
  broadcastTo S1024x1024
    (mulf (subf (broadcast S1x1024 (Scalar.ofBits (F := Ideal) .f32 0x3F800000#32)) (sitofp .f32 (shapeCast S1x1024 m shapeCasts_S1x1x1024_S1x1024)))
      (broadcast S1x1024 (Scalar.ofBits (F := Ideal) .f32 0x7149F2CA#32)))
    broadcasts_S1x1024_S1024x1024

theorem maskRow_apply (m : Vec Ideal S1x1x1024 .i32) (i j : Fin 1024) : maskRow m (ix2 i j) = pen (m (ix3 0 0 j)) := by
  unfold maskRow pen
  rw [broadcastTo_1b_ab_apply, mulf_apply, subf_apply, broadcast_apply, broadcast_apply, scalar_ofBits, scalar_ofBits, sitofp_apply,
    shapeCast_1ab_ab_apply]

end Row

/-! ## The plain product with the value block -/

/-- The probabilities-times-values record is a plain product. -/
theorem plain_pv : Cert.PlainDot.Plain (a := 1024) (k := 1024) (b := 512) dot_S1024x1024_S1024x512_S1024x512_1_0_0_1_n_n :=
  ⟨rfl, rfl, rfl, rfl, rfl, rfl⟩

/-- P · x at (i, d), the value block read through its leading unit axis. -/
theorem plainPV_apply (P : FVec Ideal S1024x1024 .bf16) (x : FVec Ideal S1x1024x512 .bf16) (i : Fin 1024) (d : Fin 512) :
    matmul dot_S1024x1024_S1024x512_S1024x512_1_0_0_1_n_n none P (shapeCast S1024x512 x shapeCasts_S1x1024x512_S1024x512)
        (constant S1024x512 .f32 0x00000000#32) (ix2 i d)
      = ∑ j : Fin 1024, P (ix2 i j) * x (ix3 0 j d) := by
  refine (Cert.PlainDot.matmul_zero_apply plain_pv rfl rfl none P _ i d).trans ?_
  exact Finset.sum_congr rfl fun j _ => congrArg (P (ix2 i j) * ·) (shapeCast_1ab_ab_apply x _ j d)

/-- The row attention: the row softmax of the masked scores, times the value block. -/
theorem rowAttn_apply (m : Vec Ideal S1x1x1024 .i32) (S : FVec Ideal S1024x1024 .f32) (x : FVec Ideal S1x1024x512 .bf16)
    (i : Fin 1024) (d : Fin 512) :
    matmul dot_S1024x1024_S1024x512_S1024x512_1_0_0_1_n_n none (rowSoft (subf S (maskRow m)))
        (shapeCast S1024x512 x shapeCasts_S1x1024x512_S1024x512) (constant S1024x512 .f32 0x00000000#32) (ix2 i d)
      = attnRow (fun i j => S (ix2 i j)) (fun j => pen (m (ix3 0 0 j))) (fun j d => x (ix3 0 j d)) i d := by
  refine (plainPV_apply _ x i d).trans ?_
  unfold attnRow
  have hZ : (fun j' => (subf S (maskRow m)) (ix2 i j')) = fun j' => S (ix2 i j') - pen (m (ix3 0 0 j')) :=
    funext fun j' => by rw [subf_apply, maskRow_apply]
  refine Finset.sum_congr rfl fun j _ => ?_
  rw [rowSoft_apply, hZ]

/-! ## The softmax along the columns -/

section Col

/-- The running maximum of each column, from -∞. -/
def colMaxK (Z : FVec Ideal S1024x1024 .f32) : FVec Ideal S1024 .f32 :=
  maximumf (broadcast S1024 (Scalar.ofBits (F := Ideal) .f32 0xFF800000#32))
    (multiReduction .maximumf [0] S1024 Z 0xFF800000#32 reduces_S1024x1024_S1024_2 (.inl rfl) rfl)

theorem colMaxK_apply (Z : FVec Ideal S1024x1024 .f32) (j : Fin 1024) :
    colMaxK Z (ix1 j) = vmax (fun i => Z (ix2 i j)) := by
  unfold colMaxK vmax
  rw [maximumf_apply, broadcast_apply, scalar_ofBits]
  exact congrArg (max ninf) (colMax_apply Z reduces_S1024x1024_S1024_2 (.inl rfl) rfl j)

/-- The exponentials of the differences to the column's maximum. -/
def colExp (Z : FVec Ideal S1024x1024 .f32) : FVec Ideal S1024x1024 .f32 :=
  exp (subf Z (broadcastTo S1024x1024 (shapeCast S1x1024 (colMaxK Z) shapeCasts_S1024_S1x1024) broadcasts_S1x1024_S1024x1024))

theorem colExp_apply (Z : FVec Ideal S1024x1024 .f32) (i j : Fin 1024) :
    colExp Z (ix2 i j) = Ideal.exp (Z (ix2 i j) - vmax (fun i' => Z (ix2 i' j))) := by
  unfold colExp
  rw [exp_apply, subf_apply, broadcastTo_1b_ab_apply, shapeCast_a_1a_apply, colMaxK_apply]

/-- The quotients by the column's sum, in the narrow format (the same extended reals). -/
def colSoft (Z : FVec Ideal S1024x1024 .f32) : FVec Ideal S1024x1024 .bf16 :=
  truncf .bf16 (divf (colExp Z) (broadcastTo S1024x1024
    (shapeCast S1x1024 (multiReduction .add [0] S1024 (colExp Z) 0x00000000#32 reduces_S1024x1024_S1024_2 (.inl rfl) rfl) shapeCasts_S1024_S1x1024)
    broadcasts_S1x1024_S1024x1024)) bitsLt_bf16_f32

theorem colSoft_apply (Z : FVec Ideal S1024x1024 .f32) (i j : Fin 1024) :
    colSoft Z (ix2 i j) = smax (fun i' => Z (ix2 i' j)) i := by
  unfold colSoft smax
  rw [truncf_apply, divf_apply, colExp_apply, broadcastTo_1b_ab_apply, shapeCast_a_1a_apply]
  refine congrArg (Ideal.div _) ?_
  exact (colSum_apply (colExp Z) reduces_S1024x1024_S1024_2 (.inl rfl) rfl j).trans (Finset.sum_congr rfl fun k _ => colExp_apply Z k j)

/-- The penalty column (1 - m) · 1e30 of a [1024, 1] block of converted mask words, over every column of the score matrix. -/
def maskCol (m : FVec Ideal S1024x1 .f32) : FVec Ideal S1024x1024 .f32 :=
  broadcastTo S1024x1024
    (mulf (subf (broadcast S1024x1 (Scalar.ofBits (F := Ideal) .f32 0x3F800000#32)) m)
      (broadcast S1024x1 (Scalar.ofBits (F := Ideal) .f32 0x7149F2CA#32)))
    broadcasts_S1024x1_S1024x1024

theorem maskCol_apply (v0 : Vec Ideal S1x1024x1 .i32) (i j : Fin 1024) :
    maskCol (k2_pay3 (F := Ideal) v0) (ix2 i j) = pen (v0 (ix3 0 i 0)) := by
  unfold maskCol k2_pay3 pen
  rw [broadcastTo_a1_ab_apply, mulf_apply, subf_apply, broadcast_apply, broadcast_apply, scalar_ofBits, scalar_ofBits, sitofp_apply,
    shapeCast_1ab_ab_apply]

end Col

/-! ## The product Pᵀ · x: axis 0 of both operands contracted

  A matrix product [k, a]ᵀ · [k, b] → [a, b]: no batch axis, the contracted axis of extent k is axis 0 of both
  operands, the result's rows come from the left operand's axis 1 and its columns from the right operand's axis 1.
  So the left operand is read at (contraction position, row of the result) and the right at (contraction position,
  column of the result), and the entry (p, q) of the product into a zero accumulator is ∑ κ < k, l (κ, p) · r (κ, q). -/

section TransLeft

variable {k a b : ℕ} (D : DotDims ⟨2, ![k, a]⟩ ⟨2, ![k, b]⟩ ⟨2, ![a, b]⟩)

/-- The dimension numbers of a product by the transposed left operand. -/
structure TransLeft : Prop where
  lhsBatch : D.lhsBatch = []
  lhsNon : D.lhsNonContracting = [1]
  lhsContr : D.lhsContracting = [0]
  rhsBatch : D.rhsBatch = []
  rhsNon : D.rhsNonContracting = [1]
  rhsContr : D.rhsContracting = [0]

variable {D}

/-- The left operand's column is the result's row. -/
theorem tl_lhs_col (h : TransLeft D) (j : (⟨2, ![a, b]⟩ : Shape).Idx) (q : D.contr.Idx) : (D.lhsIdx j q 1).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem tl_rhs_col (h : TransLeft D) (j : (⟨2, ![a, b]⟩ : Shape).Idx) (q : D.contr.Idx) : (D.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem tl_sum_contr (h : TransLeft D) (hr : D.contr.rank = 1) (hs : D.contr.size ⟨0, by omega⟩ = k)
    (l : (⟨2, ![k, a]⟩ : Shape).Idx → EReal) (r : (⟨2, ![k, b]⟩ : Shape).Idx → EReal) (p : Fin a) (q : Fin b) :
    ∑ κ : D.contr.Idx, l (D.lhsIdx (ix2 p q) κ) * r (D.rhsIdx (ix2 p q) κ) = ∑ κ : Fin k, l (ix2 κ p) * r (ix2 κ q) := by
  rw [← Equiv.sum_comp (contrEquiv1 D k hr hs).symm]
  refine Finset.sum_congr rfl fun κ _ => ?_
  have hk := contrEquiv1_symm_val D k hr hs κ
  have el : D.lhsIdx (ix2 p q) ((contrEquiv1 D k hr hs).symm κ) = ix2 κ p := funext fun x => Fin.ext (by
    match x with
    | ⟨0, _⟩ => exact (D.lhsIdx_val_of_single h.lhsContr _ _).trans hk
    | ⟨1, _⟩ => exact tl_lhs_col h _ _)
  have er : D.rhsIdx (ix2 p q) ((contrEquiv1 D k hr hs).symm κ) = ix2 κ q := funext fun x => Fin.ext (by
    match x with
    | ⟨0, _⟩ => exact (D.rhsIdx_val_of_single h.rhsContr _ _).trans hk
    | ⟨1, _⟩ => exact tl_rhs_col h _ _)
  rw [el, er]

/-- The kernel's product into a zero accumulator, at an entry. -/
theorem tl_matmul_zero_apply {φ₁ φ₂ : FTy} (h : TransLeft D) (hr : D.contr.rank = 1) (hs : D.contr.size ⟨0, by omega⟩ = k)
    (prec : Option ContractPrecision) (l : FVec Ideal ⟨2, ![k, a]⟩ φ₁) (r : FVec Ideal ⟨2, ![k, b]⟩ φ₂) (p : Fin a) (q : Fin b) :
    matmul D prec l r (constant ⟨2, ![a, b]⟩ .f32 0x00000000#32) (ix2 p q) = ∑ κ : Fin k, l (ix2 κ p) * r (ix2 κ q) :=
  (Ideal.matmul_constant_zero_apply D prec l r (ix2 p q)).trans (tl_sum_contr h hr hs l r p q)

end TransLeft

/-- The column attention's record contracts axis 0 of both operands. -/
theorem trans_pv : TransLeft (k := 1024) (a := 1024) (b := 512) dot_S1024x1024_S1024x512_S1024x512_0_0_1_1_n_n :=
  ⟨rfl, rfl, rfl, rfl, rfl, rfl⟩

/-- Pᵀ · x at (j, d), the value block read through its leading unit axis. -/
theorem transPV_apply (P : FVec Ideal S1024x1024 .bf16) (x : FVec Ideal S1x1024x512 .bf16) (j : Fin 1024) (d : Fin 512) :
    matmul dot_S1024x1024_S1024x512_S1024x512_0_0_1_1_n_n none P (shapeCast S1024x512 x shapeCasts_S1x1024x512_S1024x512)
        (constant S1024x512 .f32 0x00000000#32) (ix2 j d)
      = ∑ i : Fin 1024, P (ix2 i j) * x (ix3 0 i d) := by
  refine (tl_matmul_zero_apply trans_pv rfl rfl none P _ j d).trans ?_
  exact Finset.sum_congr rfl fun i _ => congrArg (P (ix2 i j) * ·) (shapeCast_1ab_ab_apply x _ i d)

/-- The column attention: the column softmax of the masked scores, transposed, times the value block. -/
theorem colAttn_apply (v0 : Vec Ideal S1x1024x1 .i32) (S : FVec Ideal S1024x1024 .f32) (x : FVec Ideal S1x1024x512 .bf16)
    (j : Fin 1024) (d : Fin 512) :
    matmul dot_S1024x1024_S1024x512_S1024x512_0_0_1_1_n_n none (colSoft (subf S (maskCol (k2_pay3 (F := Ideal) v0))))
        (shapeCast S1024x512 x shapeCasts_S1x1024x512_S1024x512) (constant S1024x512 .f32 0x00000000#32) (ix2 j d)
      = attnCol (fun i j => S (ix2 i j)) (fun i => pen (v0 (ix3 0 i 0))) (fun i d => x (ix3 0 i d)) j d := by
  refine (transPV_apply _ x j d).trans ?_
  unfold attnCol
  have hZ : (fun i' => (subf S (maskCol (k2_pay3 (F := Ideal) v0))) (ix2 i' j)) = fun i' => S (ix2 i' j) - pen (v0 (ix3 0 i' 0)) :=
    funext fun i' => by rw [subf_apply, maskCol_apply]
  refine Finset.sum_congr rfl fun i _ => ?_
  rw [colSoft_apply, hZ]

/-! ## The stored blocks -/

/-- The stored block of a row attention: the product, with the leading unit axis put back. -/
def rowStored (m : Vec Ideal S1x1x1024 .i32) (S : FVec Ideal S1024x1024 .f32) (x : FVec Ideal S1x1024x512 .bf16) :
    FVec Ideal S1x1024x512 .f32 :=
  shapeCast S1x1024x512
    (matmul dot_S1024x1024_S1024x512_S1024x512_1_0_0_1_n_n none (rowSoft (subf S (maskRow m)))
      (shapeCast S1024x512 x shapeCasts_S1x1024x512_S1024x512) (constant S1024x512 .f32 0x00000000#32))
    shapeCasts_S1024x512_S1x1024x512

theorem rowStored_apply (m : Vec Ideal S1x1x1024 .i32) (S : FVec Ideal S1024x1024 .f32) (x : FVec Ideal S1x1024x512 .bf16)
    (i : Fin 1024) (d : Fin 512) :
    rowStored m S x (ix3 0 i d)
      = attnRow (fun i j => S (ix2 i j)) (fun j => pen (m (ix3 0 0 j))) (fun j d => x (ix3 0 j d)) i d := by
  unfold rowStored
  rw [shapeCast_ab_1ab_apply]
  exact rowAttn_apply m S x i d

/-- The stored block of the column attention. -/
def colStored (m : FVec Ideal S1024x1 .f32) (S : FVec Ideal S1024x1024 .f32) (x : FVec Ideal S1x1024x512 .bf16) :
    FVec Ideal S1x1024x512 .f32 :=
  shapeCast S1x1024x512
    (matmul dot_S1024x1024_S1024x512_S1024x512_0_0_1_1_n_n none (colSoft (subf S (maskCol m)))
      (shapeCast S1024x512 x shapeCasts_S1x1024x512_S1024x512) (constant S1024x512 .f32 0x00000000#32))
    shapeCasts_S1024x512_S1x1024x512

theorem colStored_apply (v0 : Vec Ideal S1x1024x1 .i32) (S : FVec Ideal S1024x1024 .f32) (x : FVec Ideal S1x1024x512 .bf16)
    (j : Fin 1024) (d : Fin 512) :
    colStored (k2_pay3 (F := Ideal) v0) S x (ix3 0 j d)
      = attnCol (fun i j => S (ix2 i j)) (fun i => pen (v0 (ix3 0 i 0))) (fun i d => x (ix3 0 i d)) j d := by
  unfold colStored
  rw [shapeCast_ab_1ab_apply]
  exact colAttn_apply v0 S x j d

end Soft

open Soft

/-! ## The four payloads -/

/-- The cross attention's first stored block at (0, i, d): the row attention of the scores over the second input. -/
theorem k2_beta_apply (v3 : Vec Ideal S1x1x1024 .i32) (S : Vec Ideal S1024x1024 .f32) (v33 : Vec Ideal S1x1024x512 .bf16) (i : Fin 1024) (d : Fin 512) :
    k2_pay1 (F := Ideal) (k2_pay5 v3 S) v33 (ix3 0 i d) = attnRow (fun i j => S (ix2 i j)) (fun j => pen (v3 (ix3 0 0 j))) (fun j d => v33 (ix3 0 j d)) i d := by
  have hP : k2_pay1 (F := Ideal) (k2_pay5 v3 S) v33 = rowStored v3 S v33 := by
    unfold k2_pay1 k2_pay5 rowStored rowSoft rowExp rowMaxK maskRow; rfl
  rw [hP]; exact rowStored_apply v3 S v33 i d

/-- The cross attention's second stored block at (0, j, d): the column attention of the scores over the first input. -/
theorem k2_alpha_apply (v0 : Vec Ideal S1x1024x1 .i32) (S : Vec Ideal S1024x1024 .f32) (v58 : Vec Ideal S1x1024x512 .bf16) (j : Fin 1024) (d : Fin 512) :
    k2_pay2 (F := Ideal) (k2_pay3 v0) S v58 (ix3 0 j d) = attnCol (fun i j => S (ix2 i j)) (fun i => pen (v0 (ix3 0 i 0))) (fun i d => v58 (ix3 0 i d)) j d := by
  have hP : k2_pay2 (F := Ideal) (k2_pay3 v0) S v58 = colStored (k2_pay3 (F := Ideal) v0) S v58 := by
    unfold k2_pay2 colStored colSoft colExp colMaxK maskCol; rfl
  rw [hP]; exact colStored_apply v0 S v58 j d

/-- The first self attention's stored block at (0, i, d). -/
theorem k3_out_apply (v0 : Vec Ideal S1x1x1024 .i32) (S : Vec Ideal S1024x1024 .f32) (v30 : Vec Ideal S1x1024x512 .bf16) (i : Fin 1024) (d : Fin 512) :
    k3_pay1 (F := Ideal) (k3_pay3 v0 S v30) (ix3 0 i d) = attnRow (fun i j => S (ix2 i j)) (fun j => pen (v0 (ix3 0 0 j))) (fun j d => v30 (ix3 0 j d)) i d := by
  have hP : k3_pay1 (F := Ideal) (k3_pay3 v0 S v30) = rowStored v0 S v30 := by
    unfold k3_pay1 k3_pay3 rowStored rowSoft rowExp rowMaxK maskRow; rfl
  rw [hP]; exact rowStored_apply v0 S v30 i d

/-- The second self attention's stored block at (0, i, d). -/
theorem k4_out_apply (v0 : Vec Ideal S1x1x1024 .i32) (S : Vec Ideal S1024x1024 .f32) (v30 : Vec Ideal S1x1024x512 .bf16) (i : Fin 1024) (d : Fin 512) :
    k4_pay1 (F := Ideal) (k4_pay3 v0 S v30) (ix3 0 i d) = attnRow (fun i j => S (ix2 i j)) (fun j => pen (v0 (ix3 0 0 j))) (fun j d => v30 (ix3 0 j d)) i d := by
  have hP : k4_pay1 (F := Ideal) (k4_pay3 v0 S v30) = rowStored v0 S v30 := by
    unfold k4_pay1 k4_pay3 rowStored rowSoft rowExp rowMaxK maskRow; rfl
  rw [hP]; exact rowStored_apply v0 S v30 i d

end Cert.KernelIdeal.Pay

end
-- ==== Proof.KIArrProj0.lean ====
/-
  From blocks to the array, region 0: the projection call with weight slice 0.

  The grid has one point per stacked batch row.  At point t the input window's block is row t of the
  [32, 1024, 512] input, as a [1, 1024, 512] block; the weight's and the bias's windows never move, so their
  blocks are the whole [512, 512] and [1, 512] arrays at every point; the output window's block is row t of
  the [32, 1024, 512] output.  The body stores its payload of the three input blocks over the whole output
  block, each point's block is written back, and the 32 blocks tile the array.  So after the last point the
  output array holds, at (b, l, u), the payload of row b of the input, the weight and the bias, read at
  (0, l, u).

  The steps: the zero offsets of the whole-block rectangles; the windows' index maps, decided once over the
  grid; each input block as a term of its array; what a point writes back as block t of that one function of
  the arrays; membership of a block by coordinate ranges; the cover (the point of an index is its batch row);
  the array.
-/
import proofs.«148046_j8589934611_1_alg».proof.Proof.KIProj0
import proofs.«148046_j8589934611_1_alg».proof.Proof.Spec
import Idealize.ShloMosaic.Lib.Pipeline.Value
import Idealize.ShloMosaic.Lib.ValueIdx

noncomputable section

namespace Cert.KernelIdeal.Arr

open Cert.KernelIdeal Cert.KernelIdeal.Gen Cert.KernelIdeal.Fr Cert.Spec
open Idealize.ShloMosaic Idealize.ShloMosaic.TcCoe Idealize.ShloMosaic.ValueIdx
open Idealize.ShloMosaic.Pipeline (Dat)

section Blocks

variable (V : (c : Dev nD) → (b : Ref sig .tc) → Buf (Elt Ideal) ((c : Thread nD τ).loc b))

/-- The whole-block rectangles sit at zero offsets, however the zeros are spelt. -/
theorem zeros3_at0 : (![0, 0, 0] : Fin 3 → Nat) = fun _ => 0 := funext fun a => by fin_cases a <;> rfl
theorem zeros2_at0 : (![0, 0] : Fin 2 → Nat) = fun _ => 0 := funext fun a => by fin_cases a <;> rfl

/-- The windows' index maps, decided over the grid: the input's and the output's block index at point t is (t, 0, 0);
    the weight's and the bias's is (0, 0) at every point. -/
theorem index_at0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input window's block at point t is batch row t of the input array. -/
theorem xblk_at0 (c : Dev nD) (t : Fin cfg0.N) :
    (iblk0 V c 0 t : Vec Ideal S1x1024x512 .bf16) = rowBlk (V c main_v2 : Vec Ideal S32x1024x512 .bf16) (Fin.cast N_0 t) := by
  obtain ⟨e0, e1, e2, -⟩ := index_at0 t
  funext y
  show (V c main_v2 : Vec Ideal S32x1024x512 .bf16) (((cfg0.win 0).blk t).view.emb y) = (V c main_v2 : Vec Ideal S32x1024x512 .bf16) (ix3 (Fin.cast N_0 t) (y 1) (y 2))
  congr 1
  funext a
  apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 512 + 1 * (y 2).val = (y 2).val; omega

/-- The weight window's block at every point is the whole weight. -/
theorem wblk_at0 (c : Dev nD) (t : Fin cfg0.N) :
    (iblk0 V c 1 t : Vec Ideal S512x512 .bf16) = V c main_v5 := by
  obtain ⟨-, -, -, e0, e1, -⟩ := index_at0 t
  funext y
  show (V c main_v5 : Vec Ideal S512x512 .bf16) (((cfg0.win 1).blk t).view.emb y) = (V c main_v5 : Vec Ideal S512x512 .bf16) y
  congr 1
  funext a
  apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The bias window's block at every point is the whole bias. -/
theorem bblk_at0 (c : Dev nD) (t : Fin cfg0.N) :
    (iblk0 V c 2 t : Vec Ideal S1x512 .f32) = V c main_v11 := by
  obtain ⟨-, -, -, -, -, e0, e1, -⟩ := index_at0 t
  funext y
  show (V c main_v11 : Vec Ideal S1x512 .f32) (((cfg0.win 2).blk t).view.emb y) = (V c main_v11 : Vec Ideal S1x512 .f32) y
  congr 1
  funext a
  apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- What the output array ends holding: at (b, l, u) the payload of batch row b of the input, of the weight and of the bias, read at (0, l, u). -/
abbrev G_at0 (c : Dev nD) : Vec Ideal S32x1024x512 .bf16 :=
  fun j => k0_pay1 (F := Ideal) (rowBlk (V c main_v2 : Vec Ideal S32x1024x512 .bf16) (j 0)) (V c main_v5) (V c main_v11) (ix3 0 (j 1) (j 2))

/-- The payload at equal rows and equal indices. -/
theorem pay_congr_at0 (X : Vec Ideal S32x1024x512 .bf16) (W : Vec Ideal S512x512 .bf16) (B : Vec Ideal S1x512 .f32)
    (β β' : Fin 32) (y y' : S1x1024x512.Idx) (hβ : β = β') (hy : y = y') :
    k0_pay1 (F := Ideal) (rowBlk X β) W B y = k0_pay1 (F := Ideal) (rowBlk X β') W B y' := by
  subst hβ; subst hy; rfl

/-- What point t writes back is block t of G. -/
theorem flushed_at0 (c : Dev nD) (t : Fin cfg0.N) :
    (dat0 (F := Ideal) V c).flushed 3 t = ((cfg0.win 3).blk t).view.read (Elt Ideal) (G_at0 V c) := by
  show (cfg0.win 3).cut (grid0.coords t) ((dat0 (F := Ideal) V c).after 3 t) = _
  rw [after0_3]
  unfold out0_3
  rw [View.canon_unit_zero zeros3_at0]
  simp only [View.ld_unit_zero (S := S1x1024x512) zeros3_at0, View.ld_unit_zero (S := S512x512) zeros2_at0, View.ld_unit_zero (S := S1x512) zeros2_at0]
  rw [xblk_at0, wblk_at0, bblk_at0]
  obtain ⟨-, -, -, -, -, -, -, e0, e1, e2⟩ := index_at0 t
  funext y
  show k0_pay1 (F := Ideal) (rowBlk (V c main_v2 : Vec Ideal S32x1024x512 .bf16) (Fin.cast N_0 t)) (V c main_v5) (V c main_v11) y
      = k0_pay1 (F := Ideal) (rowBlk (V c main_v2 : Vec Ideal S32x1024x512 .bf16) ((((cfg0.win 3).blk t).view.emb y) 0)) (V c main_v5) (V c main_v11)
          (ix3 0 ((((cfg0.win 3).blk t).view.emb y) 1) ((((cfg0.win 3).blk t).view.emb y) 2))
  refine pay_congr_at0 _ _ _ _ _ _ _ (Fin.ext ?_) (funext fun a => Fin.ext ?_)
  · show t.val = win0_3.index t (0 : Fin 3) * 1 + 1 * (y 0).val
    have hy : (y 0).val < 1 := (y 0).isLt
    omega
  · match a with
    | ⟨0, _⟩ => show (y 0).val = 0; have hy : (y 0).val < 1 := (y 0).isLt; omega
    | ⟨1, _⟩ => show (y 1).val = win0_3.index t (1 : Fin 3) * 1024 + 1 * (y 1).val; omega
    | ⟨2, _⟩ => show (y 2).val = win0_3.index t (2 : Fin 3) * 512 + 1 * (y 2).val; omega

/-- An index of the array is in point t's block iff each coordinate is in the block's range on its axis. -/
theorem mem_blk_at0 (t : Fin cfg0.N) (i : S32x1024x512.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v15).slice (win0_3.rect t)).set ↔ _
  rw [View.set_slice_whole, Rect.mem_set_unit]
  exact Iff.rfl

/-- Every index of the array is in the block of the point of its batch row. -/
theorem cover_at0 (i : S32x1024x512.Idx) : ∃ t : Fin cfg0.N, (cfg0.win 3).flush t = true ∧ i ∈ ((cfg0.win 3).blk t).view.set := by
  have h0 : (i 0).val < 32 := (i 0).isLt
  have h1 : (i 1).val < 1024 := (i 1).isLt
  have h2 : (i 2).val < 512 := (i 2).isLt
  obtain ⟨T, hT⟩ : ∃ T : Fin cfg0.N, T.val = (i 0).val := ⟨Fin.cast N_0.symm ⟨(i 0).val, h0⟩, rfl⟩
  obtain ⟨-, -, -, -, -, -, -, e0, e1, e2⟩ := index_at0 T
  refine ⟨T, flush0_3 T, ?_⟩
  rw [mem_blk_at0]
  intro a
  match a with
  | ⟨0, _⟩ => show win0_3.index T (0 : Fin 3) * 1 ≤ (i 0).val ∧ (i 0).val < win0_3.index T (0 : Fin 3) * 1 + 1; omega
  | ⟨1, _⟩ => show win0_3.index T (1 : Fin 3) * 1024 ≤ (i 1).val ∧ (i 1).val < win0_3.index T (1 : Fin 3) * 1024 + 1024; omega
  | ⟨2, _⟩ => show win0_3.index T (2 : Fin 3) * 512 ≤ (i 2).val ∧ (i 2).val < win0_3.index T (2 : Fin 3) * 512 + 512; omega

end Blocks

/-- The output array of region 0 after its last point: G. -/
theorem arr0 (V : (c : Dev nD) → (b : Ref sig .tc) → Buf (Elt Ideal) ((c : Thread nD τ).loc b)) (c : Dev nD) :
    (dat0 (F := Ideal) V c).arrAt 3 cfg0.N
      = fun j => k0_pay1 (F := Ideal) (rowBlk (V c main_v2 : Vec Ideal S32x1024x512 .bf16) (j 0)) (V c main_v5) (V c main_v11) (ix3 0 (j 1) (j 2)) :=
  (dat0 (F := Ideal) V c).arrAt_eq_of_cover 3 (G_at0 V c) (fun t _ => flushed_at0 V c t) cover_at0

end Cert.KernelIdeal.Arr

end
-- ==== Proof.KIArrProj1.lean ====
/-
  From blocks to the array, region 1: the projection call with weight slice 1.

  The grid has one point per stacked batch row.  At point t the input window's block is row t of the
  [32, 1024, 512] input, as a [1, 1024, 512] block; the weight's and the bias's windows never move, so their
  blocks are the whole [512, 512] and [1, 512] arrays at every point; the output window's block is row t of
  the [32, 1024, 512] output.  The body stores its payload of the three input blocks over the whole output
  block, each point's block is written back, and the 32 blocks tile the array.  So after the last point the
  output array holds, at (b, l, u), the payload of row b of the input, the weight and the bias, read at
  (0, l, u).

  The steps: the zero offsets of the whole-block rectangles; the windows' index maps, decided once over the
  grid; each input block as a term of its array; what a point writes back as block t of that one function of
  the arrays; membership of a block by coordinate ranges; the cover (the point of an index is its batch row);
  the array.
-/
import proofs.«148046_j8589934611_1_alg».proof.Proof.KIProj1
import proofs.«148046_j8589934611_1_alg».proof.Proof.Spec
import Idealize.ShloMosaic.Lib.Pipeline.Value
import Idealize.ShloMosaic.Lib.ValueIdx

noncomputable section

namespace Cert.KernelIdeal.Arr

open Cert.KernelIdeal Cert.KernelIdeal.Gen Cert.KernelIdeal.Fr Cert.Spec
open Idealize.ShloMosaic Idealize.ShloMosaic.TcCoe Idealize.ShloMosaic.ValueIdx
open Idealize.ShloMosaic.Pipeline (Dat)

section Blocks

variable (V : (c : Dev nD) → (b : Ref sig .tc) → Buf (Elt Ideal) ((c : Thread nD τ).loc b))

/-- The whole-block rectangles sit at zero offsets, however the zeros are spelt. -/
theorem zeros3_at1 : (![0, 0, 0] : Fin 3 → Nat) = fun _ => 0 := funext fun a => by fin_cases a <;> rfl
theorem zeros2_at1 : (![0, 0] : Fin 2 → Nat) = fun _ => 0 := funext fun a => by fin_cases a <;> rfl

/-- The windows' index maps, decided over the grid: the input's and the output's block index at point t is (t, 0, 0);
    the weight's and the bias's is (0, 0) at every point. -/
theorem index_at1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The input window's block at point t is batch row t of the input array. -/
theorem xblk_at1 (c : Dev nD) (t : Fin cfg1.N) :
    (iblk1 V c 0 t : Vec Ideal S1x1024x512 .bf16) = rowBlk (V c main_v2 : Vec Ideal S32x1024x512 .bf16) (Fin.cast N_1 t) := by
  obtain ⟨e0, e1, e2, -⟩ := index_at1 t
  funext y
  show (V c main_v2 : Vec Ideal S32x1024x512 .bf16) (((cfg1.win 0).blk t).view.emb y) = (V c main_v2 : Vec Ideal S32x1024x512 .bf16) (ix3 (Fin.cast N_1 t) (y 1) (y 2))
  congr 1
  funext a
  apply Fin.ext
  match a with
  | ⟨0, _⟩ => show win1_0.index t (0 : Fin 3) * 1 + 1 * (y 0).val = t.val; have hy : (y 0).val < 1 := (y 0).isLt; omega
  | ⟨1, _⟩ => show win1_0.index t (1 : Fin 3) * 1024 + 1 * (y 1).val = (y 1).val; omega
  | ⟨2, _⟩ => show win1_0.index t (2 : Fin 3) * 512 + 1 * (y 2).val = (y 2).val; omega

/-- The weight window's block at every point is the whole weight. -/
theorem wblk_at1 (c : Dev nD) (t : Fin cfg1.N) :
    (iblk1 V c 1 t : Vec Ideal S512x512 .bf16) = V c main_v8 := by
  obtain ⟨-, -, -, e0, e1, -⟩ := index_at1 t
  funext y
  show (V c main_v8 : Vec Ideal S512x512 .bf16) (((cfg1.win 1).blk t).view.emb y) = (V c main_v8 : Vec Ideal S512x512 .bf16) y
  congr 1
  funext a
  apply Fin.ext
  match a with
  | ⟨0, _⟩ => show win1_1.index t (0 : Fin 2) * 512 + 1 * (y 0).val = (y 0).val; omega
  | ⟨1, _⟩ => show win1_1.index t (1 : Fin 2) * 512 + 1 * (y 1).val = (y 1).val; omega

/-- The bias window's block at every point is the whole bias. -/
theorem bblk_at1 (c : Dev nD) (t : Fin cfg1.N) :
    (iblk1 V c 2 t : Vec Ideal S1x512 .f32) = V c main_v14 := by
  obtain ⟨-, -, -, -, -, e0, e1, -⟩ := index_at1 t
  funext y
  show (V c main_v14 : Vec Ideal S1x512 .f32) (((cfg1.win 2).blk t).view.emb y) = (V c main_v14 : Vec Ideal S1x512 .f32) y
  congr 1
  funext a
  apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- What the output array ends holding: at (b, l, u) the payload of batch row b of the input, of the weight and of the bias, read at (0, l, u). -/
abbrev G_at1 (c : Dev nD) : Vec Ideal S32x1024x512 .bf16 :=
  fun j => k1_pay1 (F := Ideal) (rowBlk (V c main_v2 : Vec Ideal S32x1024x512 .bf16) (j 0)) (V c main_v8) (V c main_v14) (ix3 0 (j 1) (j 2))

/-- The payload at equal rows and equal indices. -/
theorem pay_congr_at1 (X : Vec Ideal S32x1024x512 .bf16) (W : Vec Ideal S512x512 .bf16) (B : Vec Ideal S1x512 .f32)
    (β β' : Fin 32) (y y' : S1x1024x512.Idx) (hβ : β = β') (hy : y = y') :
    k1_pay1 (F := Ideal) (rowBlk X β) W B y = k1_pay1 (F := Ideal) (rowBlk X β') W B y' := by
  subst hβ; subst hy; rfl

/-- What point t writes back is block t of G. -/
theorem flushed_at1 (c : Dev nD) (t : Fin cfg1.N) :
    (dat1 (F := Ideal) V c).flushed 3 t = ((cfg1.win 3).blk t).view.read (Elt Ideal) (G_at1 V c) := by
  show (cfg1.win 3).cut (grid1.coords t) ((dat1 (F := Ideal) V c).after 3 t) = _
  rw [after1_3]
  unfold out1_3
  rw [View.canon_unit_zero zeros3_at1]
  simp only [View.ld_unit_zero (S := S1x1024x512) zeros3_at1, View.ld_unit_zero (S := S512x512) zeros2_at1, View.ld_unit_zero (S := S1x512) zeros2_at1]
  rw [xblk_at1, wblk_at1, bblk_at1]
  obtain ⟨-, -, -, -, -, -, -, e0, e1, e2⟩ := index_at1 t
  funext y
  show k1_pay1 (F := Ideal) (rowBlk (V c main_v2 : Vec Ideal S32x1024x512 .bf16) (Fin.cast N_1 t)) (V c main_v8) (V c main_v14) y
      = k1_pay1 (F := Ideal) (rowBlk (V c main_v2 : Vec Ideal S32x1024x512 .bf16) ((((cfg1.win 3).blk t).view.emb y) 0)) (V c main_v8) (V c main_v14)
          (ix3 0 ((((cfg1.win 3).blk t).view.emb y) 1) ((((cfg1.win 3).blk t).view.emb y) 2))
  refine pay_congr_at1 _ _ _ _ _ _ _ (Fin.ext ?_) (funext fun a => Fin.ext ?_)
  · show t.val = win1_3.index t (0 : Fin 3) * 1 + 1 * (y 0).val
    have hy : (y 0).val < 1 := (y 0).isLt
    omega
  · match a with
    | ⟨0, _⟩ => show (y 0).val = 0; have hy : (y 0).val < 1 := (y 0).isLt; omega
    | ⟨1, _⟩ => show (y 1).val = win1_3.index t (1 : Fin 3) * 1024 + 1 * (y 1).val; omega
    | ⟨2, _⟩ => show (y 2).val = win1_3.index t (2 : Fin 3) * 512 + 1 * (y 2).val; omega

/-- An index of the array is in point t's block iff each coordinate is in the block's range on its axis. -/
theorem mem_blk_at1 (t : Fin cfg1.N) (i : S32x1024x512.Idx) :
    i ∈ ((cfg1.win 3).blk t).view.set ↔ ∀ a : Fin 3, win1_3.index t a * S1x1024x512.size a ≤ (i a).val ∧ (i a).val < win1_3.index t a * S1x1024x512.size a + S1x1024x512.size a := by
  show i ∈ ((View.whole main_v16).slice (win1_3.rect t)).set ↔ _
  rw [View.set_slice_whole, Rect.mem_set_unit]
  exact Iff.rfl

/-- Every index of the array is in the block of the point of its batch row. -/
theorem cover_at1 (i : S32x1024x512.Idx) : ∃ t : Fin cfg1.N, (cfg1.win 3).flush t = true ∧ i ∈ ((cfg1.win 3).blk t).view.set := by
  have h0 : (i 0).val < 32 := (i 0).isLt
  have h1 : (i 1).val < 1024 := (i 1).isLt
  have h2 : (i 2).val < 512 := (i 2).isLt
  obtain ⟨T, hT⟩ : ∃ T : Fin cfg1.N, T.val = (i 0).val := ⟨Fin.cast N_1.symm ⟨(i 0).val, h0⟩, rfl⟩
  obtain ⟨-, -, -, -, -, -, -, e0, e1, e2⟩ := index_at1 T
  refine ⟨T, flush1_3 T, ?_⟩
  rw [mem_blk_at1]
  intro a
  match a with
  | ⟨0, _⟩ => show win1_3.index T (0 : Fin 3) * 1 ≤ (i 0).val ∧ (i 0).val < win1_3.index T (0 : Fin 3) * 1 + 1; omega
  | ⟨1, _⟩ => show win1_3.index T (1 : Fin 3) * 1024 ≤ (i 1).val ∧ (i 1).val < win1_3.index T (1 : Fin 3) * 1024 + 1024; omega
  | ⟨2, _⟩ => show win1_3.index T (2 : Fin 3) * 512 ≤ (i 2).val ∧ (i 2).val < win1_3.index T (2 : Fin 3) * 512 + 512; omega

end Blocks

/-- The output array of region 1 after its last point: G. -/
theorem arr1 (V : (c : Dev nD) → (b : Ref sig .tc) → Buf (Elt Ideal) ((c : Thread nD τ).loc b)) (c : Dev nD) :
    (dat1 (F := Ideal) V c).arrAt 3 cfg1.N
      = fun j => k1_pay1 (F := Ideal) (rowBlk (V c main_v2 : Vec Ideal S32x1024x512 .bf16) (j 0)) (V c main_v8) (V c main_v14) (ix3 0 (j 1) (j 2)) :=
  (dat1 (F := Ideal) V c).arrAt_eq_of_cover 3 (G_at1 V c) (fun t _ => flushed_at1 V c t) cover_at1

end Cert.KernelIdeal.Arr

end
-- ==== Proof.KIArrCross.lean ====
/-
  Region 2, from blocks to the arrays.  Each of the 16 grid points is one batch row: at point t every window's
  block index is (t, 0, 0), so the block of an [16, 1024, 512] array is its row t as a [1, 1024, 512] block, the
  block of the [16, 1024, 1] mask is its row t as a [1, 1024, 1] column and the block of the [16, 1, 1024] mask is
  its row t as a [1, 1, 1024] row.  What point t writes back to each of the two outputs is therefore block t of ONE
  function of the input arrays: at (β, i, d), the body's payload of row β's blocks, read at (0, i, d).  The 16
  blocks tile each output array, so each array ends as its function.
-/
import proofs.«148046_j8589934611_1_alg».proof.Proof.KICross
import proofs.«148046_j8589934611_1_alg».proof.Proof.Spec
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Fr Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The whole-block rectangles start at the origin. -/
theorem origin2 : (![0, 0, 0] : Fin 3 → Nat) = fun _ => 0 :=
  funext fun a => by match a with | ⟨0, _⟩ => rfl | ⟨1, _⟩ => rfl | ⟨2, _⟩ => rfl

/-- The first output (beta) as one function of the input arrays: at (β, i, d) the row-softmax payload of row β's
    blocks of mask2, Q1, Q2 and x2 at (0, i, d). -/
abbrev Gbeta (X2 Q1 Q2 : Vec Ideal S16x1024x512 .bf16) (M2 : Vec Ideal S16x1x1024 .i32) : Vec Ideal S16x1024x512 .f32 :=
  fun j => k2_pay1 (F := Ideal) (k2_pay5 (mrowBlk M2 (j 0)) (k2_pay4 (rowBlk Q1 (j 0)) (rowBlk Q2 (j 0)))) (rowBlk X2 (j 0)) (ix3 0 (j 1) (j 2))

/-- The second output (alpha) as one function of the input arrays: at (β, i, d) the column-softmax payload of row
    β's blocks of mask1, Q1, Q2 and x1 at (0, i, d). -/
abbrev Galpha (X1 Q1 Q2 : Vec Ideal S16x1024x512 .bf16) (M1 : Vec Ideal S16x1024x1 .i32) : Vec Ideal S16x1024x512 .f32 :=
  fun j => k2_pay2 (F := Ideal) (k2_pay3 (mcolBlk M1 (j 0))) (k2_pay4 (rowBlk Q1 (j 0)) (rowBlk Q2 (j 0))) (rowBlk X1 (j 0)) (ix3 0 (j 1) (j 2))

/-- The printed index maps, decided over the 16 points: every window's block index at point t is (t, 0, 0). -/
theorem row_index2 : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0)
    ∧ (win2_4.index t (0 : Fin 3) = t.val ∧ win2_4.index t (1 : Fin 3) = 0 ∧ win2_4.index t (2 : Fin 3) = 0)
    ∧ (win2_5.index t (0 : Fin 3) = t.val ∧ win2_5.index t (1 : Fin 3) = 0 ∧ win2_5.index t (2 : Fin 3) = 0)
    ∧ (win2_6.index t (0 : Fin 3) = t.val ∧ win2_6.index t (1 : Fin 3) = 0 ∧ win2_6.index t (2 : Fin 3) = 0)
    ∧ (win2_7.index t (0 : Fin 3) = t.val ∧ win2_7.index t (1 : Fin 3) = 0 ∧ win2_7.index t (2 : Fin 3) = 0) :=
  (by decide +kernel : ∀ t : Fin grid2.N, _)

/-- The x1 window's block at point t is row t of x1. -/
theorem x1blk2 (c : Dev nD) (t : Fin cfg2.N) (β : Fin 16) (hβ : β.val = t.val) :
    (iblk2 (F := Ideal) V c 0 t : Vec Ideal S1x1024x512 .bf16) = rowBlk (V c main_v0 : Vec Ideal S16x1024x512 .bf16) β := by
  obtain ⟨⟨i0, i1, i2⟩, -⟩ := row_index2 t
  funext y
  show V c main_v0 (((cfg2.win 0).blk t).view.emb y) = V c main_v0 (ix3 β (y 1) (y 2))
  refine congrArg _ ?_
  funext a; apply Fin.ext
  match a with
  | ⟨0, _⟩ => show win2_0.index t (0 : Fin 3) * 1 + 1 * (y 0).val = β.val; have hy : (y 0).val < 1 := (y 0).isLt; omega
  | ⟨1, _⟩ => show win2_0.index t (1 : Fin 3) * 1024 + 1 * (y 1).val = (y 1).val; omega
  | ⟨2, _⟩ => show win2_0.index t (2 : Fin 3) * 512 + 1 * (y 2).val = (y 2).val; omega

/-- The x2 window's block at point t is row t of x2. -/
theorem x2blk2 (c : Dev nD) (t : Fin cfg2.N) (β : Fin 16) (hβ : β.val = t.val) :
    (iblk2 (F := Ideal) V c 1 t : Vec Ideal S1x1024x512 .bf16) = rowBlk (V c main_v1 : Vec Ideal S16x1024x512 .bf16) β := by
  obtain ⟨-, ⟨i0, i1, i2⟩, -⟩ := row_index2 t
  funext y
  show V c main_v1 (((cfg2.win 1).blk t).view.emb y) = V c main_v1 (ix3 β (y 1) (y 2))
  refine congrArg _ ?_
  funext a; apply Fin.ext
  match a with
  | ⟨0, _⟩ => show win2_1.index t (0 : Fin 3) * 1 + 1 * (y 0).val = β.val; have hy : (y 0).val < 1 := (y 0).isLt; omega
  | ⟨1, _⟩ => show win2_1.index t (1 : Fin 3) * 1024 + 1 * (y 1).val = (y 1).val; omega
  | ⟨2, _⟩ => show win2_1.index t (2 : Fin 3) * 512 + 1 * (y 2).val = (y 2).val; omega

/-- The Q1 window's block at point t is row t of Q1. -/
theorem q1blk2 (c : Dev nD) (t : Fin cfg2.N) (β : Fin 16) (hβ : β.val = t.val) :
    (iblk2 (F := Ideal) V c 2 t : Vec Ideal S1x1024x512 .bf16) = rowBlk (V c main_v17 : Vec Ideal S16x1024x512 .bf16) β := by
  obtain ⟨-, -, ⟨i0, i1, i2⟩, -⟩ := row_index2 t
  funext y
  show V c main_v17 (((cfg2.win 2).blk t).view.emb y) = V c main_v17 (ix3 β (y 1) (y 2))
  refine congrArg _ ?_
  funext a; apply Fin.ext
  match a with
  | ⟨0, _⟩ => show win2_2.index t (0 : Fin 3) * 1 + 1 * (y 0).val = β.val; have hy : (y 0).val < 1 := (y 0).isLt; omega
  | ⟨1, _⟩ => show win2_2.index t (1 : Fin 3) * 1024 + 1 * (y 1).val = (y 1).val; omega
  | ⟨2, _⟩ => show win2_2.index t (2 : Fin 3) * 512 + 1 * (y 2).val = (y 2).val; omega

/-- The Q2 window's block at point t is row t of Q2. -/
theorem q2blk2 (c : Dev nD) (t : Fin cfg2.N) (β : Fin 16) (hβ : β.val = t.val) :
    (iblk2 (F := Ideal) V c 3 t : Vec Ideal S1x1024x512 .bf16) = rowBlk (V c main_v18 : Vec Ideal S16x1024x512 .bf16) β := by
  obtain ⟨-, -, -, ⟨i0, i1, i2⟩, -⟩ := row_index2 t
  funext y
  show V c main_v18 (((cfg2.win 3).blk t).view.emb y) = V c main_v18 (ix3 β (y 1) (y 2))
  refine congrArg _ ?_
  funext a; apply Fin.ext
  match a with
  | ⟨0, _⟩ => show win2_3.index t (0 : Fin 3) * 1 + 1 * (y 0).val = β.val; have hy : (y 0).val < 1 := (y 0).isLt; omega
  | ⟨1, _⟩ => show win2_3.index t (1 : Fin 3) * 1024 + 1 * (y 1).val = (y 1).val; omega
  | ⟨2, _⟩ => show win2_3.index t (2 : Fin 3) * 512 + 1 * (y 2).val = (y 2).val; omega

/-- The mask1 window's block at point t is row t of mask1, as a column. -/
theorem m1blk2 (c : Dev nD) (t : Fin cfg2.N) (β : Fin 16) (hβ : β.val = t.val) :
    (iblk2 (F := Ideal) V c 4 t : Vec Ideal S1x1024x1 .i32) = mcolBlk (V c main_v21 : Vec Ideal S16x1024x1 .i32) β := by
  obtain ⟨-, -, -, -, ⟨i0, i1, i2⟩, -⟩ := row_index2 t
  funext y
  show V c main_v21 (((cfg2.win 4).blk t).view.emb y) = V c main_v21 (ix3 β (y 1) (y 2))
  refine congrArg _ ?_
  funext a; apply Fin.ext
  match a with
  | ⟨0, _⟩ => show win2_4.index t (0 : Fin 3) * 1 + 1 * (y 0).val = β.val; have hy : (y 0).val < 1 := (y 0).isLt; omega
  | ⟨1, _⟩ => show win2_4.index t (1 : Fin 3) * 1024 + 1 * (y 1).val = (y 1).val; omega
  | ⟨2, _⟩ => show win2_4.index t (2 : Fin 3) * 1 + 1 * (y 2).val = (y 2).val; omega

/-- The mask2 window's block at point t is row t of mask2, as a row. -/
theorem m2blk2 (c : Dev nD) (t : Fin cfg2.N) (β : Fin 16) (hβ : β.val = t.val) :
    (iblk2 (F := Ideal) V c 5 t : Vec Ideal S1x1x1024 .i32) = mrowBlk (V c main_v23 : Vec Ideal S16x1x1024 .i32) β := by
  obtain ⟨-, -, -, -, -, ⟨i0, i1, i2⟩, -⟩ := row_index2 t
  funext y
  show V c main_v23 (((cfg2.win 5).blk t).view.emb y) = V c main_v23 (ix3 β (y 1) (y 2))
  refine congrArg _ ?_
  funext a; apply Fin.ext
  match a with
  | ⟨0, _⟩ => show win2_5.index t (0 : Fin 3) * 1 + 1 * (y 0).val = β.val; have hy : (y 0).val < 1 := (y 0).isLt; omega
  | ⟨1, _⟩ => show win2_5.index t (1 : Fin 3) * 1 + 1 * (y 1).val = (y 1).val; omega
  | ⟨2, _⟩ => show win2_5.index t (2 : Fin 3) * 1024 + 1 * (y 2).val = (y 2).val; omega

/-- The beta payload read at equal blocks and equal indices. -/
theorem beta_congr (x2 x2' q1 q1' q2 q2' : Vec Ideal S1x1024x512 .bf16) (mr mr' : Vec Ideal S1x1x1024 .i32) (y y' : S1x1024x512.Idx)
    (hx : x2 = x2') (h1 : q1 = q1') (h2 : q2 = q2') (hm : mr = mr') (hy : y = y') :
    k2_pay1 (F := Ideal) (k2_pay5 mr (k2_pay4 q1 q2)) x2 y = k2_pay1 (F := Ideal) (k2_pay5 mr' (k2_pay4 q1' q2')) x2' y' := by
  subst hx; subst h1; subst h2; subst hm; subst hy; rfl

/-- The alpha payload read at equal blocks and equal indices. -/
theorem alpha_congr (x1 x1' q1 q1' q2 q2' : Vec Ideal S1x1024x512 .bf16) (mc mc' : Vec Ideal S1x1024x1 .i32) (y y' : S1x1024x512.Idx)
    (hx : x1 = x1') (h1 : q1 = q1') (h2 : q2 = q2') (hm : mc = mc') (hy : y = y') :
    k2_pay2 (F := Ideal) (k2_pay3 mc) (k2_pay4 q1 q2) x1 y = k2_pay2 (F := Ideal) (k2_pay3 mc') (k2_pay4 q1' q2') x1' y' := by
  subst hx; subst h1; subst h2; subst hm; subst hy; rfl

/-- What point t writes back to beta is block t of Gbeta of the arrays as the region finds them. -/
theorem flushed_beta_eq (c : Dev nD) (t : Fin cfg2.N) :
    (dat2 (F := Ideal) V c).flushed 6 t
      = ((cfg2.win 6).blk t).view.read (Elt Ideal) (Gbeta (V c main_v1) (V c main_v17) (V c main_v18) (V c main_v23)) := by
  show (cfg2.win 6).cut (grid2.coords t) ((dat2 (F := Ideal) V c).after 6 t) = _
  rw [after2_6]
  unfold out2_6
  rw [View.canon_unit_zero origin2]
  simp only [View.ld_unit_zero (S := S1x1024x512) origin2, View.ld_unit_zero (S := S1x1x1024) origin2]
  obtain ⟨-, -, -, -, -, -, ⟨i0, i1, i2⟩, -⟩ := row_index2 t
  funext y
  have e0 : ((((cfg2.win 6).blk t).view.emb y) 0).val = t.val := by
    show win2_6.index t (0 : Fin 3) * 1 + 1 * (y 0).val = t.val; have hy : (y 0).val < 1 := (y 0).isLt; omega
  have e1 : ((((cfg2.win 6).blk t).view.emb y) 1).val = (y 1).val := by
    show win2_6.index t (1 : Fin 3) * 1024 + 1 * (y 1).val = (y 1).val; omega
  have e2 : ((((cfg2.win 6).blk t).view.emb y) 2).val = (y 2).val := by
    show win2_6.index t (2 : Fin 3) * 512 + 1 * (y 2).val = (y 2).val; omega
  show k2_pay1 (F := Ideal) (k2_pay5 (iblk2 V c 5 t) (k2_pay4 (iblk2 V c 2 t) (iblk2 V c 3 t))) (iblk2 V c 1 t) y
      = Gbeta (V c main_v1) (V c main_v17) (V c main_v18) (V c main_v23) (((cfg2.win 6).blk t).view.emb y)
  refine beta_congr _ _ _ _ _ _ _ _ _ _ (x2blk2 V c t _ e0) (q1blk2 V c t _ e0) (q2blk2 V c t _ e0) (m2blk2 V c t _ e0) ?_
  funext a; apply Fin.ext
  match a with
  | ⟨0, _⟩ => show (y 0).val = 0; have hy : (y 0).val < 1 := (y 0).isLt; omega
  | ⟨1, _⟩ => exact e1.symm
  | ⟨2, _⟩ => exact e2.symm

/-- What point t writes back to alpha is block t of Galpha of the arrays as the region finds them. -/
theorem flushed_alpha_eq (c : Dev nD) (t : Fin cfg2.N) :
    (dat2 (F := Ideal) V c).flushed 7 t
      = ((cfg2.win 7).blk t).view.read (Elt Ideal) (Galpha (V c main_v0) (V c main_v17) (V c main_v18) (V c main_v21)) := by
  show (cfg2.win 7).cut (grid2.coords t) ((dat2 (F := Ideal) V c).after 7 t) = _
  rw [after2_7]
  unfold out2_7
  rw [View.canon_unit_zero origin2]
  simp only [View.ld_unit_zero (S := S1x1024x512) origin2, View.ld_unit_zero (S := S1x1024x1) origin2]
  obtain ⟨-, -, -, -, -, -, -, ⟨i0, i1, i2⟩⟩ := row_index2 t
  funext y
  have e0 : ((((cfg2.win 7).blk t).view.emb y) 0).val = t.val := by
    show win2_7.index t (0 : Fin 3) * 1 + 1 * (y 0).val = t.val; have hy : (y 0).val < 1 := (y 0).isLt; omega
  have e1 : ((((cfg2.win 7).blk t).view.emb y) 1).val = (y 1).val := by
    show win2_7.index t (1 : Fin 3) * 1024 + 1 * (y 1).val = (y 1).val; omega
  have e2 : ((((cfg2.win 7).blk t).view.emb y) 2).val = (y 2).val := by
    show win2_7.index t (2 : Fin 3) * 512 + 1 * (y 2).val = (y 2).val; omega
  show k2_pay2 (F := Ideal) (k2_pay3 (iblk2 V c 4 t)) (k2_pay4 (iblk2 V c 2 t) (iblk2 V c 3 t)) (iblk2 V c 0 t) y
      = Galpha (V c main_v0) (V c main_v17) (V c main_v18) (V c main_v21) (((cfg2.win 7).blk t).view.emb y)
  refine alpha_congr _ _ _ _ _ _ _ _ _ _ (x1blk2 V c t _ e0) (q1blk2 V c t _ e0) (q2blk2 V c t _ e0) (m1blk2 V c t _ e0) ?_
  funext a; apply Fin.ext
  match a with
  | ⟨0, _⟩ => show (y 0).val = 0; have hy : (y 0).val < 1 := (y 0).isLt; omega
  | ⟨1, _⟩ => exact e1.symm
  | ⟨2, _⟩ => exact e2.symm

/-- An index of the beta array is in point t's block iff each coordinate is in the block's range on its axis. -/
theorem mem_blk_beta (t : Fin cfg2.N) (i : S16x1024x512.Idx) :
    i ∈ ((cfg2.win 6).blk t).view.set
      ↔ ∀ a : Fin 3, win2_6.index t a * S1x1024x512.size a ≤ (i a).val ∧ (i a).val < win2_6.index t a * S1x1024x512.size a + S1x1024x512.size a := by
  show i ∈ ((View.whole main_v24_0).slice (win2_6.rect t)).set ↔ _
  rw [View.set_slice_whole, Rect.mem_set_unit]
  exact Iff.rfl

/-- The 16 row blocks tile the beta array: (β, i, d) is in point β's block. -/
theorem cover_beta (i : S16x1024x512.Idx) :
    ∃ t : Fin cfg2.N, (cfg2.win 6).flush t = true ∧ i ∈ ((cfg2.win 6).blk t).view.set := by
  have hi0 : (i 0).val < 16 := (i 0).isLt
  have hi1 : (i 1).val < 1024 := (i 1).isLt
  have hi2 : (i 2).val < 512 := (i 2).isLt
  have hN : cfg2.N = 16 := N_2
  let t : Fin cfg2.N := ⟨(i 0).val, by omega⟩
  obtain ⟨-, -, -, -, -, -, ⟨i0, i1, i2⟩, -⟩ := row_index2 t
  have ht : t.val = (i 0).val := rfl
  refine ⟨t, flush2_6 t, ?_⟩
  rw [mem_blk_beta]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 1024 ≤ (i 1).val ∧ (i 1).val < win2_6.index t (1 : Fin 3) * 1024 + 1024; omega
  | ⟨2, _⟩ => show win2_6.index t (2 : Fin 3) * 512 ≤ (i 2).val ∧ (i 2).val < win2_6.index t (2 : Fin 3) * 512 + 512; omega

/-- An index of the alpha array is in point t's block iff each coordinate is in the block's range on its axis. -/
theorem mem_blk_alpha (t : Fin cfg2.N) (i : S16x1024x512.Idx) :
    i ∈ ((cfg2.win 7).blk t).view.set
      ↔ ∀ a : Fin 3, win2_7.index t a * S1x1024x512.size a ≤ (i a).val ∧ (i a).val < win2_7.index t a * S1x1024x512.size a + S1x1024x512.size a := by
  show i ∈ ((View.whole main_v24_1).slice (win2_7.rect t)).set ↔ _
  rw [View.set_slice_whole, Rect.mem_set_unit]
  exact Iff.rfl

/-- The 16 row blocks tile the alpha array: (β, i, d) is in point β's block. -/
theorem cover_alpha (i : S16x1024x512.Idx) :
    ∃ t : Fin cfg2.N, (cfg2.win 7).flush t = true ∧ i ∈ ((cfg2.win 7).blk t).view.set := by
  have hi0 : (i 0).val < 16 := (i 0).isLt
  have hi1 : (i 1).val < 1024 := (i 1).isLt
  have hi2 : (i 2).val < 512 := (i 2).isLt
  have hN : cfg2.N = 16 := N_2
  let t : Fin cfg2.N := ⟨(i 0).val, by omega⟩
  obtain ⟨-, -, -, -, -, -, -, ⟨i0, i1, i2⟩⟩ := row_index2 t
  have ht : t.val = (i 0).val := rfl
  refine ⟨t, flush2_7 t, ?_⟩
  rw [mem_blk_alpha]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 1024 ≤ (i 1).val ∧ (i 1).val < win2_7.index t (1 : Fin 3) * 1024 + 1024; omega
  | ⟨2, _⟩ => show win2_7.index t (2 : Fin 3) * 512 ≤ (i 2).val ∧ (i 2).val < win2_7.index t (2 : Fin 3) * 512 + 512; omega

/-- The beta array after the region: at (β, i, d), the row-softmax payload of row β of mask2, Q1, Q2 and x2. -/
theorem arr2_6 (V : (c : Dev nD) → (b : Ref sig .tc) → Buf (Elt Ideal) ((c : Thread nD τ).loc b)) (c : Dev nD) :
    (dat2 (F := Ideal) V c).arrAt 6 cfg2.N
      = fun j => k2_pay1 (F := Ideal) (k2_pay5 (mrowBlk (V c main_v23 : Vec Ideal S16x1x1024 .i32) (j 0))
            (k2_pay4 (rowBlk (V c main_v17 : Vec Ideal S16x1024x512 .bf16) (j 0)) (rowBlk (V c main_v18 : Vec Ideal S16x1024x512 .bf16) (j 0))))
            (rowBlk (V c main_v1 : Vec Ideal S16x1024x512 .bf16) (j 0)) (ix3 0 (j 1) (j 2)) :=
  (dat2 (F := Ideal) V c).arrAt_eq_of_cover 6 (Gbeta (V c main_v1) (V c main_v17) (V c main_v18) (V c main_v23)) (fun t _ => flushed_beta_eq V c t) cover_beta

/-- The alpha array after the region: at (β, i, d), the column-softmax payload of row β of mask1, Q1, Q2 and x1. -/
theorem arr2_7 (V : (c : Dev nD) → (b : Ref sig .tc) → Buf (Elt Ideal) ((c : Thread nD τ).loc b)) (c : Dev nD) :
    (dat2 (F := Ideal) V c).arrAt 7 cfg2.N
      = fun j => k2_pay2 (F := Ideal) (k2_pay3 (mcolBlk (V c main_v21 : Vec Ideal S16x1024x1 .i32) (j 0)))
            (k2_pay4 (rowBlk (V c main_v17 : Vec Ideal S16x1024x512 .bf16) (j 0)) (rowBlk (V c main_v18 : Vec Ideal S16x1024x512 .bf16) (j 0)))
            (rowBlk (V c main_v0 : Vec Ideal S16x1024x512 .bf16) (j 0)) (ix3 0 (j 1) (j 2)) :=
  (dat2 (F := Ideal) V c).arrAt_eq_of_cover 7 (Galpha (V c main_v0) (V c main_v17) (V c main_v18) (V c main_v21)) (fun t _ => flushed_alpha_eq V c t) cover_alpha

end Cert.KernelIdeal.Arr

end
-- ==== Proof.KIArrSelf3.lean ====
/-
  Region 3, from blocks to the array.  Each of the 16 grid points is one batch row: at point t every window's
  block index is (t, 0, 0), so the block of an [16, 1024, 512] array is its row t as a [1, 1024, 512] block and
  the block of the [16, 1, 1024] mask is its row t as a [1, 1, 1024] block.  What point t writes back is therefore
  block t of ONE function of the three arrays: at (β, i, d), the body's payload of row β of the mask, of the
  projection and of x, read at (0, i, d).  The 16 blocks tile the output array, so the array ends as that function.
-/
import proofs.«148046_j8589934611_1_alg».proof.Proof.KISelf3
import proofs.«148046_j8589934611_1_alg».proof.Proof.Spec
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Fr Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The whole-block rectangles start at the origin. -/
theorem origin3 : (![0, 0, 0] : Fin 3 → Nat) = fun _ => 0 :=
  funext fun a => by match a with | ⟨0, _⟩ => rfl | ⟨1, _⟩ => rfl | ⟨2, _⟩ => rfl

/-- The output array as one function of the three input arrays: at (β, i, d) the payload of row β's blocks at (0, i, d). -/
abbrev G3 (X P : Vec Ideal S16x1024x512 .bf16) (M : Vec Ideal S16x1x1024 .i32) : Vec Ideal S16x1024x512 .f32 :=
  fun j => k3_pay1 (F := Ideal) (k3_pay3 (mrowBlk M (j 0)) (k3_pay2 (rowBlk P (j 0)) (rowBlk P (j 0))) (rowBlk X (j 0))) (ix3 0 (j 1) (j 2))

/-- The printed index maps, decided over the 16 points: every window's block index at point t is (t, 0, 0). -/
theorem row_index3 : ∀ t : Fin cfg3.N,
    (win3_0.index t (0 : Fin 3) = t.val ∧ win3_0.index t (1 : Fin 3) = 0 ∧ win3_0.index t (2 : Fin 3) = 0)
    ∧ (win3_1.index t (0 : Fin 3) = t.val ∧ win3_1.index t (1 : Fin 3) = 0 ∧ win3_1.index t (2 : Fin 3) = 0)
    ∧ (win3_2.index t (0 : Fin 3) = t.val ∧ win3_2.index t (1 : Fin 3) = 0 ∧ win3_2.index t (2 : Fin 3) = 0)
    ∧ (win3_3.index t (0 : Fin 3) = t.val ∧ win3_3.index t (1 : Fin 3) = 0 ∧ win3_3.index t (2 : Fin 3) = 0) :=
  (by decide +kernel : ∀ t : Fin grid3.N, _)

/-- The x window's block at point t is row t of x. -/
theorem xblk3 (c : Dev nD) (t : Fin cfg3.N) (β : Fin 16) (hβ : β.val = t.val) :
    (iblk3 (F := Ideal) V c 0 t : Vec Ideal S1x1024x512 .bf16) = rowBlk (V c main_v0 : Vec Ideal S16x1024x512 .bf16) β := by
  obtain ⟨⟨i0, i1, i2⟩, -⟩ := row_index3 t
  funext y
  show V c main_v0 (((cfg3.win 0).blk t).view.emb y) = V c main_v0 (ix3 β (y 1) (y 2))
  refine congrArg _ ?_
  funext a; apply Fin.ext
  match a with
  | ⟨0, _⟩ => show win3_0.index t (0 : Fin 3) * 1 + 1 * (y 0).val = β.val; have hy : (y 0).val < 1 := (y 0).isLt; omega
  | ⟨1, _⟩ => show win3_0.index t (1 : Fin 3) * 1024 + 1 * (y 1).val = (y 1).val; omega
  | ⟨2, _⟩ => show win3_0.index t (2 : Fin 3) * 512 + 1 * (y 2).val = (y 2).val; omega

/-- The projection window's block at point t is row t of the projection. -/
theorem pblk3 (c : Dev nD) (t : Fin cfg3.N) (β : Fin 16) (hβ : β.val = t.val) :
    (iblk3 (F := Ideal) V c 1 t : Vec Ideal S1x1024x512 .bf16) = rowBlk (V c main_v19 : Vec Ideal S16x1024x512 .bf16) β := by
  obtain ⟨-, ⟨i0, i1, i2⟩, -⟩ := row_index3 t
  funext y
  show V c main_v19 (((cfg3.win 1).blk t).view.emb y) = V c main_v19 (ix3 β (y 1) (y 2))
  refine congrArg _ ?_
  funext a; apply Fin.ext
  match a with
  | ⟨0, _⟩ => show win3_1.index t (0 : Fin 3) * 1 + 1 * (y 0).val = β.val; have hy : (y 0).val < 1 := (y 0).isLt; omega
  | ⟨1, _⟩ => show win3_1.index t (1 : Fin 3) * 1024 + 1 * (y 1).val = (y 1).val; omega
  | ⟨2, _⟩ => show win3_1.index t (2 : Fin 3) * 512 + 1 * (y 2).val = (y 2).val; omega

/-- The mask window's block at point t is row t of the mask. -/
theorem mblk3 (c : Dev nD) (t : Fin cfg3.N) (β : Fin 16) (hβ : β.val = t.val) :
    (iblk3 (F := Ideal) V c 2 t : Vec Ideal S1x1x1024 .i32) = mrowBlk (V c main_v22 : Vec Ideal S16x1x1024 .i32) β := by
  obtain ⟨-, -, ⟨i0, i1, i2⟩, -⟩ := row_index3 t
  funext y
  show V c main_v22 (((cfg3.win 2).blk t).view.emb y) = V c main_v22 (ix3 β (y 1) (y 2))
  refine congrArg _ ?_
  funext a; apply Fin.ext
  match a with
  | ⟨0, _⟩ => show win3_2.index t (0 : Fin 3) * 1 + 1 * (y 0).val = β.val; have hy : (y 0).val < 1 := (y 0).isLt; omega
  | ⟨1, _⟩ => show win3_2.index t (1 : Fin 3) * 1 + 1 * (y 1).val = (y 1).val; omega
  | ⟨2, _⟩ => show win3_2.index t (2 : Fin 3) * 1024 + 1 * (y 2).val = (y 2).val; omega

/-- The payload read at equal blocks and equal indices. -/
theorem pay3_congr (b0 b0' b1 b1' : Vec Ideal S1x1024x512 .bf16) (b2 b2' : Vec Ideal S1x1x1024 .i32) (y y' : S1x1024x512.Idx)
    (h0 : b0 = b0') (h1 : b1 = b1') (h2 : b2 = b2') (hy : y = y') :
    k3_pay1 (F := Ideal) (k3_pay3 b2 (k3_pay2 b1 b1) b0) y = k3_pay1 (F := Ideal) (k3_pay3 b2' (k3_pay2 b1' b1') b0') y' := by
  subst h0; subst h1; subst h2; subst hy; rfl

/-- What point t writes back is block t of G3 of the arrays as the region finds them. -/
theorem flushed3_eq (c : Dev nD) (t : Fin cfg3.N) :
    (dat3 (F := Ideal) V c).flushed 3 t
      = ((cfg3.win 3).blk t).view.read (Elt Ideal) (G3 (V c main_v0) (V c main_v19) (V c main_v22)) := by
  show (cfg3.win 3).cut (grid3.coords t) ((dat3 (F := Ideal) V c).after 3 t) = _
  rw [after3_3]
  unfold out3_3
  rw [View.canon_unit_zero origin3]
  simp only [View.ld_unit_zero (S := S1x1024x512) origin3, View.ld_unit_zero (S := S1x1x1024) origin3]
  obtain ⟨-, -, -, ⟨i0, i1, i2⟩⟩ := row_index3 t
  funext y
  have e0 : ((((cfg3.win 3).blk t).view.emb y) 0).val = t.val := by
    show win3_3.index t (0 : Fin 3) * 1 + 1 * (y 0).val = t.val; have hy : (y 0).val < 1 := (y 0).isLt; omega
  have e1 : ((((cfg3.win 3).blk t).view.emb y) 1).val = (y 1).val := by
    show win3_3.index t (1 : Fin 3) * 1024 + 1 * (y 1).val = (y 1).val; omega
  have e2 : ((((cfg3.win 3).blk t).view.emb y) 2).val = (y 2).val := by
    show win3_3.index t (2 : Fin 3) * 512 + 1 * (y 2).val = (y 2).val; omega
  show k3_pay1 (F := Ideal) (k3_pay3 (iblk3 V c 2 t) (k3_pay2 (iblk3 V c 1 t) (iblk3 V c 1 t)) (iblk3 V c 0 t)) y
      = G3 (V c main_v0) (V c main_v19) (V c main_v22) (((cfg3.win 3).blk t).view.emb y)
  refine pay3_congr _ _ _ _ _ _ _ _ (xblk3 V c t _ e0) (pblk3 V c t _ e0) (mblk3 V c t _ e0) ?_
  funext a; apply Fin.ext
  match a with
  | ⟨0, _⟩ => show (y 0).val = 0; have hy : (y 0).val < 1 := (y 0).isLt; omega
  | ⟨1, _⟩ => exact e1.symm
  | ⟨2, _⟩ => exact e2.symm

/-- An index of the output array is in point t's block iff each coordinate is in the block's range on its axis. -/
theorem mem_blk3 (t : Fin cfg3.N) (i : S16x1024x512.Idx) :
    i ∈ ((cfg3.win 3).blk t).view.set
      ↔ ∀ a : Fin 3, win3_3.index t a * S1x1024x512.size a ≤ (i a).val ∧ (i a).val < win3_3.index t a * S1x1024x512.size a + S1x1024x512.size a := by
  show i ∈ ((View.whole main_v25).slice (win3_3.rect t)).set ↔ _
  rw [View.set_slice_whole, Rect.mem_set_unit]
  exact Iff.rfl

/-- The 16 row blocks tile the output array: (β, i, d) is in point β's block. -/
theorem cover3 (i : S16x1024x512.Idx) :
    ∃ t : Fin cfg3.N, (cfg3.win 3).flush t = true ∧ i ∈ ((cfg3.win 3).blk t).view.set := by
  have hi0 : (i 0).val < 16 := (i 0).isLt
  have hi1 : (i 1).val < 1024 := (i 1).isLt
  have hi2 : (i 2).val < 512 := (i 2).isLt
  have hN : cfg3.N = 16 := N_3
  let t : Fin cfg3.N := ⟨(i 0).val, by omega⟩
  obtain ⟨-, -, -, ⟨i0, i1, i2⟩⟩ := row_index3 t
  have ht : t.val = (i 0).val := rfl
  refine ⟨t, flush3_3 t, ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 1024 ≤ (i 1).val ∧ (i 1).val < win3_3.index t (1 : Fin 3) * 1024 + 1024; omega
  | ⟨2, _⟩ => show win3_3.index t (2 : Fin 3) * 512 ≤ (i 2).val ∧ (i 2).val < win3_3.index t (2 : Fin 3) * 512 + 512; omega

/-- The output array after the region: at (β, i, d), the body's payload of row β of the mask, the projection and x. -/
theorem arr3 (V : (c : Dev nD) → (b : Ref sig .tc) → Buf (Elt Ideal) ((c : Thread nD τ).loc b)) (c : Dev nD) :
    (dat3 (F := Ideal) V c).arrAt 3 cfg3.N
      = fun j => k3_pay1 (F := Ideal) (k3_pay3 (mrowBlk (V c main_v22 : Vec Ideal S16x1x1024 .i32) (j 0))
            (k3_pay2 (rowBlk (V c main_v19 : Vec Ideal S16x1024x512 .bf16) (j 0)) (rowBlk (V c main_v19 : Vec Ideal S16x1024x512 .bf16) (j 0)))
            (rowBlk (V c main_v0 : Vec Ideal S16x1024x512 .bf16) (j 0))) (ix3 0 (j 1) (j 2)) :=
  (dat3 (F := Ideal) V c).arrAt_eq_of_cover 3 (G3 (V c main_v0) (V c main_v19) (V c main_v22)) (fun t _ => flushed3_eq V c t) cover3

end Cert.KernelIdeal.Arr

end
-- ==== Proof.KIArrSelf4.lean ====
/-
  Region 4, from blocks to the array.  Each of the 16 grid points is one batch row: at point t every window's
  block index is (t, 0, 0), so the block of an [16, 1024, 512] array is its row t as a [1, 1024, 512] block and
  the block of the [16, 1, 1024] mask is its row t as a [1, 1, 1024] block.  What point t writes back is therefore
  block t of ONE function of the three arrays: at (β, i, d), the body's payload of row β of the mask, of the
  projection and of x, read at (0, i, d).  The 16 blocks tile the output array, so the array ends as that function.
-/
import proofs.«148046_j8589934611_1_alg».proof.Proof.KISelf4
import proofs.«148046_j8589934611_1_alg».proof.Proof.Spec
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Fr Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The whole-block rectangles start at the origin. -/
theorem origin4 : (![0, 0, 0] : Fin 3 → Nat) = fun _ => 0 :=
  funext fun a => by match a with | ⟨0, _⟩ => rfl | ⟨1, _⟩ => rfl | ⟨2, _⟩ => rfl

/-- The output array as one function of the three input arrays: at (β, i, d) the payload of row β's blocks at (0, i, d). -/
abbrev G4 (X P : Vec Ideal S16x1024x512 .bf16) (M : Vec Ideal S16x1x1024 .i32) : Vec Ideal S16x1024x512 .f32 :=
  fun j => k4_pay1 (F := Ideal) (k4_pay3 (mrowBlk M (j 0)) (k4_pay2 (rowBlk P (j 0)) (rowBlk P (j 0))) (rowBlk X (j 0))) (ix3 0 (j 1) (j 2))

/-- The printed index maps, decided over the 16 points: every window's block index at point t is (t, 0, 0). -/
theorem row_index4 : ∀ t : Fin cfg4.N,
    (win4_0.index t (0 : Fin 3) = t.val ∧ win4_0.index t (1 : Fin 3) = 0 ∧ win4_0.index t (2 : Fin 3) = 0)
    ∧ (win4_1.index t (0 : Fin 3) = t.val ∧ win4_1.index t (1 : Fin 3) = 0 ∧ win4_1.index t (2 : Fin 3) = 0)
    ∧ (win4_2.index t (0 : Fin 3) = t.val ∧ win4_2.index t (1 : Fin 3) = 0 ∧ win4_2.index t (2 : Fin 3) = 0)
    ∧ (win4_3.index t (0 : Fin 3) = t.val ∧ win4_3.index t (1 : Fin 3) = 0 ∧ win4_3.index t (2 : Fin 3) = 0) :=
  (by decide +kernel : ∀ t : Fin grid4.N, _)

/-- The x window's block at point t is row t of x. -/
theorem xblk4 (c : Dev nD) (t : Fin cfg4.N) (β : Fin 16) (hβ : β.val = t.val) :
    (iblk4 (F := Ideal) V c 0 t : Vec Ideal S1x1024x512 .bf16) = rowBlk (V c main_v1 : Vec Ideal S16x1024x512 .bf16) β := by
  obtain ⟨⟨i0, i1, i2⟩, -⟩ := row_index4 t
  funext y
  show V c main_v1 (((cfg4.win 0).blk t).view.emb y) = V c main_v1 (ix3 β (y 1) (y 2))
  refine congrArg _ ?_
  funext a; apply Fin.ext
  match a with
  | ⟨0, _⟩ => show win4_0.index t (0 : Fin 3) * 1 + 1 * (y 0).val = β.val; have hy : (y 0).val < 1 := (y 0).isLt; omega
  | ⟨1, _⟩ => show win4_0.index t (1 : Fin 3) * 1024 + 1 * (y 1).val = (y 1).val; omega
  | ⟨2, _⟩ => show win4_0.index t (2 : Fin 3) * 512 + 1 * (y 2).val = (y 2).val; omega

/-- The projection window's block at point t is row t of the projection. -/
theorem pblk4 (c : Dev nD) (t : Fin cfg4.N) (β : Fin 16) (hβ : β.val = t.val) :
    (iblk4 (F := Ideal) V c 1 t : Vec Ideal S1x1024x512 .bf16) = rowBlk (V c main_v20 : Vec Ideal S16x1024x512 .bf16) β := by
  obtain ⟨-, ⟨i0, i1, i2⟩, -⟩ := row_index4 t
  funext y
  show V c main_v20 (((cfg4.win 1).blk t).view.emb y) = V c main_v20 (ix3 β (y 1) (y 2))
  refine congrArg _ ?_
  funext a; apply Fin.ext
  match a with
  | ⟨0, _⟩ => show win4_1.index t (0 : Fin 3) * 1 + 1 * (y 0).val = β.val; have hy : (y 0).val < 1 := (y 0).isLt; omega
  | ⟨1, _⟩ => show win4_1.index t (1 : Fin 3) * 1024 + 1 * (y 1).val = (y 1).val; omega
  | ⟨2, _⟩ => show win4_1.index t (2 : Fin 3) * 512 + 1 * (y 2).val = (y 2).val; omega

/-- The mask window's block at point t is row t of the mask. -/
theorem mblk4 (c : Dev nD) (t : Fin cfg4.N) (β : Fin 16) (hβ : β.val = t.val) :
    (iblk4 (F := Ideal) V c 2 t : Vec Ideal S1x1x1024 .i32) = mrowBlk (V c main_v23 : Vec Ideal S16x1x1024 .i32) β := by
  obtain ⟨-, -, ⟨i0, i1, i2⟩, -⟩ := row_index4 t
  funext y
  show V c main_v23 (((cfg4.win 2).blk t).view.emb y) = V c main_v23 (ix3 β (y 1) (y 2))
  refine congrArg _ ?_
  funext a; apply Fin.ext
  match a with
  | ⟨0, _⟩ => show win4_2.index t (0 : Fin 3) * 1 + 1 * (y 0).val = β.val; have hy : (y 0).val < 1 := (y 0).isLt; omega
  | ⟨1, _⟩ => show win4_2.index t (1 : Fin 3) * 1 + 1 * (y 1).val = (y 1).val; omega
  | ⟨2, _⟩ => show win4_2.index t (2 : Fin 3) * 1024 + 1 * (y 2).val = (y 2).val; omega

/-- The payload read at equal blocks and equal indices. -/
theorem pay4_congr (b0 b0' b1 b1' : Vec Ideal S1x1024x512 .bf16) (b2 b2' : Vec Ideal S1x1x1024 .i32) (y y' : S1x1024x512.Idx)
    (h0 : b0 = b0') (h1 : b1 = b1') (h2 : b2 = b2') (hy : y = y') :
    k4_pay1 (F := Ideal) (k4_pay3 b2 (k4_pay2 b1 b1) b0) y = k4_pay1 (F := Ideal) (k4_pay3 b2' (k4_pay2 b1' b1') b0') y' := by
  subst h0; subst h1; subst h2; subst hy; rfl

/-- What point t writes back is block t of G4 of the arrays as the region finds them. -/
theorem flushed4_eq (c : Dev nD) (t : Fin cfg4.N) :
    (dat4 (F := Ideal) V c).flushed 3 t
      = ((cfg4.win 3).blk t).view.read (Elt Ideal) (G4 (V c main_v1) (V c main_v20) (V c main_v23)) := by
  show (cfg4.win 3).cut (grid4.coords t) ((dat4 (F := Ideal) V c).after 3 t) = _
  rw [after4_3]
  unfold out4_3
  rw [View.canon_unit_zero origin4]
  simp only [View.ld_unit_zero (S := S1x1024x512) origin4, View.ld_unit_zero (S := S1x1x1024) origin4]
  obtain ⟨-, -, -, ⟨i0, i1, i2⟩⟩ := row_index4 t
  funext y
  have e0 : ((((cfg4.win 3).blk t).view.emb y) 0).val = t.val := by
    show win4_3.index t (0 : Fin 3) * 1 + 1 * (y 0).val = t.val; have hy : (y 0).val < 1 := (y 0).isLt; omega
  have e1 : ((((cfg4.win 3).blk t).view.emb y) 1).val = (y 1).val := by
    show win4_3.index t (1 : Fin 3) * 1024 + 1 * (y 1).val = (y 1).val; omega
  have e2 : ((((cfg4.win 3).blk t).view.emb y) 2).val = (y 2).val := by
    show win4_3.index t (2 : Fin 3) * 512 + 1 * (y 2).val = (y 2).val; omega
  show k4_pay1 (F := Ideal) (k4_pay3 (iblk4 V c 2 t) (k4_pay2 (iblk4 V c 1 t) (iblk4 V c 1 t)) (iblk4 V c 0 t)) y
      = G4 (V c main_v1) (V c main_v20) (V c main_v23) (((cfg4.win 3).blk t).view.emb y)
  refine pay4_congr _ _ _ _ _ _ _ _ (xblk4 V c t _ e0) (pblk4 V c t _ e0) (mblk4 V c t _ e0) ?_
  funext a; apply Fin.ext
  match a with
  | ⟨0, _⟩ => show (y 0).val = 0; have hy : (y 0).val < 1 := (y 0).isLt; omega
  | ⟨1, _⟩ => exact e1.symm
  | ⟨2, _⟩ => exact e2.symm

/-- An index of the output array is in point t's block iff each coordinate is in the block's range on its axis. -/
theorem mem_blk4 (t : Fin cfg4.N) (i : S16x1024x512.Idx) :
    i ∈ ((cfg4.win 3).blk t).view.set
      ↔ ∀ a : Fin 3, win4_3.index t a * S1x1024x512.size a ≤ (i a).val ∧ (i a).val < win4_3.index t a * S1x1024x512.size a + S1x1024x512.size a := by
  show i ∈ ((View.whole main_v26).slice (win4_3.rect t)).set ↔ _
  rw [View.set_slice_whole, Rect.mem_set_unit]
  exact Iff.rfl

/-- The 16 row blocks tile the output array: (β, i, d) is in point β's block. -/
theorem cover4 (i : S16x1024x512.Idx) :
    ∃ t : Fin cfg4.N, (cfg4.win 3).flush t = true ∧ i ∈ ((cfg4.win 3).blk t).view.set := by
  have hi0 : (i 0).val < 16 := (i 0).isLt
  have hi1 : (i 1).val < 1024 := (i 1).isLt
  have hi2 : (i 2).val < 512 := (i 2).isLt
  have hN : cfg4.N = 16 := N_4
  let t : Fin cfg4.N := ⟨(i 0).val, by omega⟩
  obtain ⟨-, -, -, ⟨i0, i1, i2⟩⟩ := row_index4 t
  have ht : t.val = (i 0).val := rfl
  refine ⟨t, flush4_3 t, ?_⟩
  rw [mem_blk4]
  intro a
  match a with
  | ⟨0, _⟩ => show win4_3.index t (0 : Fin 3) * 1 ≤ (i 0).val ∧ (i 0).val < win4_3.index t (0 : Fin 3) * 1 + 1; omega
  | ⟨1, _⟩ => show win4_3.index t (1 : Fin 3) * 1024 ≤ (i 1).val ∧ (i 1).val < win4_3.index t (1 : Fin 3) * 1024 + 1024; omega
  | ⟨2, _⟩ => show win4_3.index t (2 : Fin 3) * 512 ≤ (i 2).val ∧ (i 2).val < win4_3.index t (2 : Fin 3) * 512 + 512; omega

/-- The output array after the region: at (β, i, d), the body's payload of row β of the mask, the projection and x. -/
theorem arr4 (V : (c : Dev nD) → (b : Ref sig .tc) → Buf (Elt Ideal) ((c : Thread nD τ).loc b)) (c : Dev nD) :
    (dat4 (F := Ideal) V c).arrAt 3 cfg4.N
      = fun j => k4_pay1 (F := Ideal) (k4_pay3 (mrowBlk (V c main_v23 : Vec Ideal S16x1x1024 .i32) (j 0))
            (k4_pay2 (rowBlk (V c main_v20 : Vec Ideal S16x1024x512 .bf16) (j 0)) (rowBlk (V c main_v20 : Vec Ideal S16x1024x512 .bf16) (j 0)))
            (rowBlk (V c main_v1 : Vec Ideal S16x1024x512 .bf16) (j 0))) (ix3 0 (j 1) (j 2)) :=
  (dat4 (F := Ideal) V c).arrAt_eq_of_cover 3 (G4 (V c main_v1) (V c main_v20) (V c main_v23)) (fun t _ => flushed4_eq V c t) cover4

end Cert.KernelIdeal.Arr

end
-- ==== Proof.KIValue.lean ====
/-
  The four results of the kernel program as the specification's functions of the argument arrays.

  Each result buffer ends at its region's final array; that array is, row by row, the region's payload of the
  rows of its input arrays; the payloads at an index are the specification's attention formulas over the Gram
  matrix of two projection rows; a projection row is the projection call's payload of a row of the stacked
  input, the weight slice and the bias slice; and those are rows of the arguments.
-/
import proofs.«148046_j8589934611_1_alg».proof.Proof.KIHost
import proofs.«148046_j8589934611_1_alg».proof.Proof.KIPayDot
import proofs.«148046_j8589934611_1_alg».proof.Proof.KIPaySoft
import proofs.«148046_j8589934611_1_alg».proof.Proof.KIArrProj0
import proofs.«148046_j8589934611_1_alg».proof.Proof.KIArrProj1
import proofs.«148046_j8589934611_1_alg».proof.Proof.KIArrCross
import proofs.«148046_j8589934611_1_alg».proof.Proof.KIArrSelf3
import proofs.«148046_j8589934611_1_alg».proof.Proof.KIArrSelf4

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The projection calls' outputs, row by row -/

/-- Row g of the first projection call's output is the projection, with weight slice 0, of row g of the stacked input. -/
theorem proj0_row (g : Fin 32) (X : Fin 1024 → Fin 512 → EReal)
    (hX : ∀ l k, (W1 m ρ c (Proc.devRef .tc main_v2) : FVec Ideal S32x1024x512 .bf16) (ix3 g l k) = X l k) (i : Fin 1024) (u : Fin 512) :
    ((dat0 (F := Ideal) (V1 m ρ) c).arrAt 3 cfg0.N : FVec Ideal S32x1024x512 .bf16) (ix3 g i u) = proj X (f3 (aK m c) 0) (f2 (aB m c) 0) i u := by
  rw [Arr.arr0 (V1 m ρ) c]
  show k0_pay1 (F := Ideal) (rowBlk (V1 m ρ c main_v2 : Vec Ideal S32x1024x512 .bf16) g) (V1 m ρ c main_v5) (V1 m ρ c main_v11) (ix3 0 i u) = _
  rw [Pay.k0_pay1_apply]
  have h1 : (fun (l : Fin 1024) (k : Fin 512) => rowBlk (V1 m ρ c main_v2 : Vec Ideal S32x1024x512 .bf16) g (ix3 0 l k)) = X :=
    funext fun l => funext fun k => hX l k
  have h2 : (fun (k u : Fin 512) => (V1 m ρ c main_v5 : Vec Ideal S512x512 .bf16) (ix2 k u)) = f3 (aK m c) 0 :=
    funext fun k => funext fun u => v5_at m ρ c k u
  have h3 : (fun (u : Fin 512) => (V1 m ρ c main_v11 : Vec Ideal S1x512 .f32) (ix2 0 u)) = f2 (aB m c) 0 :=
    funext fun u => v11_at m ρ c u
  rw [h1, h2, h3]

/-- Row g of the second projection call's output is the projection, with weight slice 1, of row g of the stacked input. -/
theorem proj1_row (g : Fin 32) (X : Fin 1024 → Fin 512 → EReal)
    (hX : ∀ l k, (W1 m ρ c (Proc.devRef .tc main_v2) : FVec Ideal S32x1024x512 .bf16) (ix3 g l k) = X l k) (i : Fin 1024) (u : Fin 512) :
    ((dat1 (F := Ideal) (V2 m ρ) c).arrAt 3 cfg1.N : FVec Ideal S32x1024x512 .bf16) (ix3 g i u) = proj X (f3 (aK m c) 1) (f2 (aB m c) 1) i u := by
  rw [Arr.arr1 (V2 m ρ) c]
  show k1_pay1 (F := Ideal) (rowBlk (V2 m ρ c main_v2 : Vec Ideal S32x1024x512 .bf16) g) (V2 m ρ c main_v8) (V2 m ρ c main_v14) (ix3 0 i u) = _
  rw [Pay.k1_pay1_apply]
  have h1 : (fun (l : Fin 1024) (k : Fin 512) => rowBlk (V2 m ρ c main_v2 : Vec Ideal S32x1024x512 .bf16) g (ix3 0 l k)) = X :=
    funext fun l => funext fun k => (congrFun (V2_v2 m ρ c) (ix3 g l k)).trans (hX l k)
  have h2 : (fun (k u : Fin 512) => (V2 m ρ c main_v8 : Vec Ideal S512x512 .bf16) (ix2 k u)) = f3 (aK m c) 1 :=
    funext fun k => funext fun u => (congrFun (V2_v8 m ρ c) (ix2 k u)).trans (v8_at m ρ c k u)
  have h3 : (fun (u : Fin 512) => (V2 m ρ c main_v14 : Vec Ideal S1x512 .f32) (ix2 0 u)) = f2 (aB m c) 1 :=
    funext fun u => (congrFun (V2_v14 m ρ c) (ix2 0 u)).trans (v14_at m ρ c u)
  rw [h1, h2, h3]

/-- The four projections the attention calls read, row β: Q_0(x1), Q_0(x2), Q_1(x1), Q_1(x2). -/
theorem v17_row (β : Fin 16) : (fun (i : Fin 1024) (k : Fin 512) => (W4 m ρ c (Proc.devRef .tc main_v17) : FVec Ideal S16x1024x512 .bf16) (ix3 β i k))
    = Q (f3 (aK m c)) (f2 (aB m c)) 0 (f3 (ax1 m c)) β := by
  funext i k
  rw [W4_v17, lo_at, W3_v15]
  exact proj0_row m ρ c _ (f3 (ax1 m c) β) (fun l k => v2_lo m ρ c β l k) i k
theorem v18_row (β : Fin 16) : (fun (i : Fin 1024) (k : Fin 512) => (W4 m ρ c (Proc.devRef .tc main_v18) : FVec Ideal S16x1024x512 .bf16) (ix3 β i k))
    = Q (f3 (aK m c)) (f2 (aB m c)) 0 (f3 (ax2 m c)) β := by
  funext i k
  rw [W4_v18, hi_at, W3_v15]
  exact proj0_row m ρ c _ (f3 (ax2 m c) β) (fun l k => v2_hi m ρ c β l k) i k
theorem v19_row (β : Fin 16) : (fun (i : Fin 1024) (k : Fin 512) => (W4 m ρ c (Proc.devRef .tc main_v19) : FVec Ideal S16x1024x512 .bf16) (ix3 β i k))
    = Q (f3 (aK m c)) (f2 (aB m c)) 1 (f3 (ax1 m c)) β := by
  funext i k
  rw [W4_v19, lo_at, W3_v16]
  exact proj1_row m ρ c _ (f3 (ax1 m c) β) (fun l k => v2_lo m ρ c β l k) i k
theorem v20_row (β : Fin 16) : (fun (i : Fin 1024) (k : Fin 512) => (W4 m ρ c (Proc.devRef .tc main_v20) : FVec Ideal S16x1024x512 .bf16) (ix3 β i k))
    = Q (f3 (aK m c)) (f2 (aB m c)) 1 (f3 (ax2 m c)) β := by
  funext i k
  rw [W4_v20, hi_at, W3_v16]
  exact proj1_row m ρ c _ (f3 (ax2 m c) β) (fun l k => v2_hi m ρ c β l k) i k

/-- Rows of x1, x2 and of the masks, as the attention calls find them. -/
theorem v0_row (β : Fin 16) : (fun (l : Fin 1024) (d : Fin 512) => (W4 m ρ c (Proc.devRef .tc main_v0) : FVec Ideal S16x1024x512 .bf16) (ix3 β l d)) = f3 (ax1 m c) β :=
  funext fun l => funext fun d => (congrFun (W4_v0 m ρ c) (ix3 β l d)).trans (v0_at m ρ c _)
theorem v1_row (β : Fin 16) : (fun (l : Fin 1024) (d : Fin 512) => (W4 m ρ c (Proc.devRef .tc main_v1) : FVec Ideal S16x1024x512 .bf16) (ix3 β l d)) = f3 (ax2 m c) β :=
  funext fun l => funext fun d => (congrFun (W4_v1 m ρ c) (ix3 β l d)).trans (v1_at m ρ c _)
theorem v21_col (β : Fin 16) (l : Fin 1024) : (W4 m ρ c (Proc.devRef .tc main_v21) : Vec Ideal S16x1024x1 .i32) (ix3 β l (0 : Fin 1)) = f2 (aM1 m c) β l := by
  rw [W4_v21, col_at, W3_arg4]; rfl
theorem v22_rowm (β : Fin 16) (l : Fin 1024) : (W4 m ρ c (Proc.devRef .tc main_v22) : Vec Ideal S16x1x1024 .i32) (ix3 β (0 : Fin 1) l) = f2 (aM1 m c) β l := by
  rw [W4_v22, row_at, W3_arg4]; rfl
theorem v23_rowm (β : Fin 16) (l : Fin 1024) : (W4 m ρ c (Proc.devRef .tc main_v23) : Vec Ideal S16x1x1024 .i32) (ix3 β (0 : Fin 1) l) = f2 (aM2 m c) β l := by
  rw [W4_v23, row_at, W3_arg5]; rfl

/-! ## The same rows as the self-attention calls find them -/

theorem v0_row5 (β : Fin 16) : (fun (l : Fin 1024) (d : Fin 512) => (W5 m ρ c (Proc.devRef .tc main_v0) : FVec Ideal S16x1024x512 .bf16) (ix3 β l d)) = f3 (ax1 m c) β := by
  rw [W5_v0 m ρ c]; exact v0_row m ρ c β
theorem v19_row5 (β : Fin 16) : (fun (i : Fin 1024) (k : Fin 512) => (W5 m ρ c (Proc.devRef .tc main_v19) : FVec Ideal S16x1024x512 .bf16) (ix3 β i k))
    = Q (f3 (aK m c)) (f2 (aB m c)) 1 (f3 (ax1 m c)) β := by
  rw [W5_v19 m ρ c]; exact v19_row m ρ c β
theorem v22_rowm5 (β : Fin 16) (l : Fin 1024) : (W5 m ρ c (Proc.devRef .tc main_v22) : Vec Ideal S16x1x1024 .i32) (ix3 β (0 : Fin 1) l) = f2 (aM1 m c) β l := by
  rw [W5_v22 m ρ c]; exact v22_rowm m ρ c β l
theorem v1_row6 (β : Fin 16) : (fun (l : Fin 1024) (d : Fin 512) => (W6 m ρ c (Proc.devRef .tc main_v1) : FVec Ideal S16x1024x512 .bf16) (ix3 β l d)) = f3 (ax2 m c) β := by
  rw [W6_v1 m ρ c]; exact v1_row m ρ c β
theorem v20_row6 (β : Fin 16) : (fun (i : Fin 1024) (k : Fin 512) => (W6 m ρ c (Proc.devRef .tc main_v20) : FVec Ideal S16x1024x512 .bf16) (ix3 β i k))
    = Q (f3 (aK m c)) (f2 (aB m c)) 1 (f3 (ax2 m c)) β := by
  rw [W6_v20 m ρ c]; exact v20_row m ρ c β
theorem v23_rowm6 (β : Fin 16) (l : Fin 1024) : (W6 m ρ c (Proc.devRef .tc main_v23) : Vec Ideal S16x1x1024 .i32) (ix3 β (0 : Fin 1) l) = f2 (aM2 m c) β l := by
  rw [W6_v23 m ρ c]; exact v23_rowm m ρ c β l

/-! ## The four results -/

/-- beta: the row softmax of the masked Gram matrix of Q_0(x1) and Q_0(x2), times x2. -/
theorem beta_final : (W7 m ρ c (Proc.devRef .tc main_v24_0) : FVec Ideal S16x1024x512 .f32)
    = fun j => beta (f3 (ax1 m c)) (f3 (ax2 m c)) (f3 (aK m c)) (f2 (aB m c)) (f2 (aM2 m c)) (j 0) (j 1) (j 2) := by
  rw [W7_v24_0, Arr.arr2_6 (V4 m ρ) c]
  funext j
  obtain ⟨β, i, d, rfl⟩ : ∃ (β : Fin 16) (i : Fin 1024) (d : Fin 512), j = ix3 β i d := ⟨j 0, j 1, j 2, eq_ix3 j⟩
  show k2_pay1 (F := Ideal) (k2_pay5 (mrowBlk (V4 m ρ c main_v23 : Vec Ideal S16x1x1024 .i32) β)
      (k2_pay4 (rowBlk (V4 m ρ c main_v17 : Vec Ideal S16x1024x512 .bf16) β) (rowBlk (V4 m ρ c main_v18 : Vec Ideal S16x1024x512 .bf16) β)))
      (rowBlk (V4 m ρ c main_v1 : Vec Ideal S16x1024x512 .bf16) β) (ix3 0 i d) = beta _ _ _ _ _ β i d
  rw [Pay.k2_beta_apply]
  unfold beta
  have hS : (fun (i j' : Fin 1024) => k2_pay4 (F := Ideal) (rowBlk (V4 m ρ c main_v17 : Vec Ideal S16x1024x512 .bf16) β) (rowBlk (V4 m ρ c main_v18 : Vec Ideal S16x1024x512 .bf16) β) (ix2 i j'))
      = gram (Q (f3 (aK m c)) (f2 (aB m c)) 0 (f3 (ax1 m c)) β) (Q (f3 (aK m c)) (f2 (aB m c)) 0 (f3 (ax2 m c)) β) := by
    funext i j'
    rw [Pay.k2_pay4_apply]
    show gram (fun (i : Fin 1024) (k : Fin 512) => (W4 m ρ c (Proc.devRef .tc main_v17) : FVec Ideal S16x1024x512 .bf16) (ix3 β i k))
      (fun (j : Fin 1024) (k : Fin 512) => (W4 m ρ c (Proc.devRef .tc main_v18) : FVec Ideal S16x1024x512 .bf16) (ix3 β j k)) i j' = _
    rw [v17_row, v18_row]
  have hP : (fun j' : Fin 1024 => pen (mrowBlk (V4 m ρ c main_v23 : Vec Ideal S16x1x1024 .i32) β (ix3 0 0 j'))) = fun j' => pen (f2 (aM2 m c) β j') :=
    funext fun j' => congrArg pen (v23_rowm m ρ c β j')
  have hX : (fun (j' : Fin 1024) (d : Fin 512) => rowBlk (V4 m ρ c main_v1 : Vec Ideal S16x1024x512 .bf16) β (ix3 0 j' d)) = f3 (ax2 m c) β := v1_row m ρ c β
  rw [hS, hP, hX]

/-- alpha: the column softmax of the same masked Gram matrix, transposed, times x1. -/
theorem alpha_final : (W7 m ρ c (Proc.devRef .tc main_v24_1) : FVec Ideal S16x1024x512 .f32)
    = fun j => alpha (f3 (ax1 m c)) (f3 (ax2 m c)) (f3 (aK m c)) (f2 (aB m c)) (f2 (aM1 m c)) (j 0) (j 1) (j 2) := by
  rw [W7_v24_1, Arr.arr2_7 (V4 m ρ) c]
  funext j
  obtain ⟨β, i, d, rfl⟩ : ∃ (β : Fin 16) (i : Fin 1024) (d : Fin 512), j = ix3 β i d := ⟨j 0, j 1, j 2, eq_ix3 j⟩
  show k2_pay2 (F := Ideal) (k2_pay3 (mcolBlk (V4 m ρ c main_v21 : Vec Ideal S16x1024x1 .i32) β))
      (k2_pay4 (rowBlk (V4 m ρ c main_v17 : Vec Ideal S16x1024x512 .bf16) β) (rowBlk (V4 m ρ c main_v18 : Vec Ideal S16x1024x512 .bf16) β))
      (rowBlk (V4 m ρ c main_v0 : Vec Ideal S16x1024x512 .bf16) β) (ix3 0 i d) = alpha _ _ _ _ _ β i d
  rw [Pay.k2_alpha_apply]
  unfold alpha
  have hS : (fun (i j' : Fin 1024) => k2_pay4 (F := Ideal) (rowBlk (V4 m ρ c main_v17 : Vec Ideal S16x1024x512 .bf16) β) (rowBlk (V4 m ρ c main_v18 : Vec Ideal S16x1024x512 .bf16) β) (ix2 i j'))
      = gram (Q (f3 (aK m c)) (f2 (aB m c)) 0 (f3 (ax1 m c)) β) (Q (f3 (aK m c)) (f2 (aB m c)) 0 (f3 (ax2 m c)) β) := by
    funext i j'
    rw [Pay.k2_pay4_apply]
    show gram (fun (i : Fin 1024) (k : Fin 512) => (W4 m ρ c (Proc.devRef .tc main_v17) : FVec Ideal S16x1024x512 .bf16) (ix3 β i k))
      (fun (j : Fin 1024) (k : Fin 512) => (W4 m ρ c (Proc.devRef .tc main_v18) : FVec Ideal S16x1024x512 .bf16) (ix3 β j k)) i j' = _
    rw [v17_row, v18_row]
  have hP : (fun i' : Fin 1024 => pen (mcolBlk (V4 m ρ c main_v21 : Vec Ideal S16x1024x1 .i32) β (ix3 0 i' 0))) = fun i' => pen (f2 (aM1 m c) β i') :=
    funext fun i' => congrArg pen (v21_col m ρ c β i')
  have hX : (fun (i' : Fin 1024) (d : Fin 512) => rowBlk (V4 m ρ c main_v0 : Vec Ideal S16x1024x512 .bf16) β (ix3 0 i' d)) = f3 (ax1 m c) β := v0_row m ρ c β
  rw [hS, hP, hX]

/-- Q1_new: the row softmax of the masked Gram matrix of Q_1(x1) with itself, times x1. -/
theorem q1_final : (W7 m ρ c (Proc.devRef .tc main_v25) : FVec Ideal S16x1024x512 .f32)
    = fun j => selfAttn (f3 (ax1 m c)) (f3 (aK m c)) (f2 (aB m c)) (f2 (aM1 m c)) (j 0) (j 1) (j 2) := by
  rw [W7_v25, Arr.arr3 (V5 m ρ) c]
  funext j
  obtain ⟨β, i, d, rfl⟩ : ∃ (β : Fin 16) (i : Fin 1024) (d : Fin 512), j = ix3 β i d := ⟨j 0, j 1, j 2, eq_ix3 j⟩
  show k3_pay1 (F := Ideal) (k3_pay3 (mrowBlk (V5 m ρ c main_v22 : Vec Ideal S16x1x1024 .i32) β)
      (k3_pay2 (rowBlk (V5 m ρ c main_v19 : Vec Ideal S16x1024x512 .bf16) β) (rowBlk (V5 m ρ c main_v19 : Vec Ideal S16x1024x512 .bf16) β))
      (rowBlk (V5 m ρ c main_v0 : Vec Ideal S16x1024x512 .bf16) β)) (ix3 0 i d) = selfAttn _ _ _ _ β i d
  rw [Pay.k3_out_apply]
  unfold selfAttn
  have hS : (fun (i j' : Fin 1024) => k3_pay2 (F := Ideal) (rowBlk (V5 m ρ c main_v19 : Vec Ideal S16x1024x512 .bf16) β) (rowBlk (V5 m ρ c main_v19 : Vec Ideal S16x1024x512 .bf16) β) (ix2 i j'))
      = gram (Q (f3 (aK m c)) (f2 (aB m c)) 1 (f3 (ax1 m c)) β) (Q (f3 (aK m c)) (f2 (aB m c)) 1 (f3 (ax1 m c)) β) := by
    funext i j'
    rw [Pay.k3_pay2_apply]
    show gram (fun (i : Fin 1024) (k : Fin 512) => (W5 m ρ c (Proc.devRef .tc main_v19) : FVec Ideal S16x1024x512 .bf16) (ix3 β i k))
      (fun (j : Fin 1024) (k : Fin 512) => (W5 m ρ c (Proc.devRef .tc main_v19) : FVec Ideal S16x1024x512 .bf16) (ix3 β j k)) i j' = _
    rw [v19_row5]
  have hP : (fun j' : Fin 1024 => pen (mrowBlk (V5 m ρ c main_v22 : Vec Ideal S16x1x1024 .i32) β (ix3 0 0 j'))) = fun j' => pen (f2 (aM1 m c) β j') :=
    funext fun j' => congrArg pen (v22_rowm5 m ρ c β j')
  have hX : (fun (j' : Fin 1024) (d : Fin 512) => rowBlk (V5 m ρ c main_v0 : Vec Ideal S16x1024x512 .bf16) β (ix3 0 j' d)) = f3 (ax1 m c) β := v0_row5 m ρ c β
  rw [hS, hP, hX]

/-- Q2_new: the same of x2 with mask2. -/
theorem q2_final : (W7 m ρ c (Proc.devRef .tc main_v26) : FVec Ideal S16x1024x512 .f32)
    = fun j => selfAttn (f3 (ax2 m c)) (f3 (aK m c)) (f2 (aB m c)) (f2 (aM2 m c)) (j 0) (j 1) (j 2) := by
  rw [W7_v26, Arr.arr4 (V6 m ρ) c]
  funext j
  obtain ⟨β, i, d, rfl⟩ : ∃ (β : Fin 16) (i : Fin 1024) (d : Fin 512), j = ix3 β i d := ⟨j 0, j 1, j 2, eq_ix3 j⟩
  show k4_pay1 (F := Ideal) (k4_pay3 (mrowBlk (V6 m ρ c main_v23 : Vec Ideal S16x1x1024 .i32) β)
      (k4_pay2 (rowBlk (V6 m ρ c main_v20 : Vec Ideal S16x1024x512 .bf16) β) (rowBlk (V6 m ρ c main_v20 : Vec Ideal S16x1024x512 .bf16) β))
      (rowBlk (V6 m ρ c main_v1 : Vec Ideal S16x1024x512 .bf16) β)) (ix3 0 i d) = selfAttn _ _ _ _ β i d
  rw [Pay.k4_out_apply]
  unfold selfAttn
  have hS : (fun (i j' : Fin 1024) => k4_pay2 (F := Ideal) (rowBlk (V6 m ρ c main_v20 : Vec Ideal S16x1024x512 .bf16) β) (rowBlk (V6 m ρ c main_v20 : Vec Ideal S16x1024x512 .bf16) β) (ix2 i j'))
      = gram (Q (f3 (aK m c)) (f2 (aB m c)) 1 (f3 (ax2 m c)) β) (Q (f3 (aK m c)) (f2 (aB m c)) 1 (f3 (ax2 m c)) β) := by
    funext i j'
    rw [Pay.k4_pay2_apply]
    show gram (fun (i : Fin 1024) (k : Fin 512) => (W6 m ρ c (Proc.devRef .tc main_v20) : FVec Ideal S16x1024x512 .bf16) (ix3 β i k))
      (fun (j : Fin 1024) (k : Fin 512) => (W6 m ρ c (Proc.devRef .tc main_v20) : FVec Ideal S16x1024x512 .bf16) (ix3 β j k)) i j' = _
    rw [v20_row6]
  have hP : (fun j' : Fin 1024 => pen (mrowBlk (V6 m ρ c main_v23 : Vec Ideal S16x1x1024 .i32) β (ix3 0 0 j'))) = fun j' => pen (f2 (aM2 m c) β j') :=
    funext fun j' => congrArg pen (v23_rowm6 m ρ c β j')
  have hX : (fun (j' : Fin 1024) (d : Fin 512) => rowBlk (V6 m ρ c main_v1 : Vec Ideal S16x1024x512 .bf16) β (ix3 0 j' d)) = f3 (ax2 m c) β := v1_row6 m ρ c β
  rw [hS, hP, hX]

end Cert.KernelIdeal.Val

end
-- ==== Proof.RefReadCross.lean ====
/-
  The reference program's two cross-attention results, read at an index over the extended reals, are the
  specification's beta and alpha.
-/
import proofs.«148046_j8589934611_1_alg».proof.Proof.Gen.ReferenceIdeal.Read
import proofs.«148046_j8589934611_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Spec Idealize.ShloMosaic Idealize.ShloMosaic.ValueIdx

namespace Cross

/-- The reshaped weight slice 0 at (k, u) is the weight stack at (0, k, u). -/
theorem w0_apply (x2 : (⟨S2x512x512, .f32⟩ : BufTy).Contents (Elt Ideal)) (i : S512x512.Idx) :
    val_main_v1 (F := Ideal) x2 i = f3 x2 0 (i 0) (i 1) := by
  rw [val_main_v1_apply, val_main_v0_apply]
  refine congrArg x2 (funext fun a => Fin.ext ?_)
  have h0 : (i 0).val < 512 := (i 0).isLt
  have h1 : (i 1).val < 512 := (i 1).isLt
  match a with
  | ⟨0, _⟩ => rfl
  | ⟨1, _⟩ => show ((i 0).val * 512 + (i 1).val) / 512 % 512 = (i 0).val; omega
  | ⟨2, _⟩ => show ((i 0).val * 512 + (i 1).val) % 512 = (i 1).val; omega

/-- The broadcast bias slice 0 at (β, l, u) is the bias stack at (0, u). -/
theorem b0_apply (x3 : (⟨S2x512, .f32⟩ : BufTy).Contents (Elt Ideal)) (i : S16x1024x512.Idx) :
    val_main_v6 (F := Ideal) x3 i = f2 x3 0 (i 2) := by
  rw [val_main_v6_apply, val_main_v5_apply, val_main_v4_apply, val_main_v3_apply]
  refine congrArg x3 (funext fun a => Fin.ext ?_)
  have h2 : (i 2).val < 512 := (i 2).isLt
  match a with
  | ⟨0, _⟩ => rfl
  | ⟨1, _⟩ => show ((i 2).val) % 512 = (i 2).val; omega

/-- The reshaped weight slice 0 at (k, u) is the weight stack at (0, k, u). -/
theorem w0'_apply (x2 : (⟨S2x512x512, .f32⟩ : BufTy).Contents (Elt Ideal)) (i : S512x512.Idx) :
    val_main_v10 (F := Ideal) x2 i = f3 x2 0 (i 0) (i 1) := by
  rw [val_main_v10_apply, val_main_v9_apply]
  refine congrArg x2 (funext fun a => Fin.ext ?_)
  have h0 : (i 0).val < 512 := (i 0).isLt
  have h1 : (i 1).val < 512 := (i 1).isLt
  match a with
  | ⟨0, _⟩ => rfl
  | ⟨1, _⟩ => show ((i 0).val * 512 + (i 1).val) / 512 % 512 = (i 0).val; omega
  | ⟨2, _⟩ => show ((i 0).val * 512 + (i 1).val) % 512 = (i 1).val; omega

/-- The broadcast bias slice 0 at (β, l, u) is the bias stack at (0, u). -/
theorem b0'_apply (x3 : (⟨S2x512, .f32⟩ : BufTy).Contents (Elt Ideal)) (i : S16x1024x512.Idx) :
    val_main_v15 (F := Ideal) x3 i = f2 x3 0 (i 2) := by
  rw [val_main_v15_apply, val_main_v14_apply, val_main_v13_apply, val_main_v12_apply]
  refine congrArg x3 (funext fun a => Fin.ext ?_)
  have h2 : (i 2).val < 512 := (i 2).isLt
  match a with
  | ⟨0, _⟩ => rfl
  | ⟨1, _⟩ => show ((i 2).val) % 512 = (i 2).val; omega

/-- The relu-projection of the first input with weight slice 0, at (β, l, u). -/
theorem q0_x1 (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (i : S16x1024x512.Idx) :
    val_main_v8 (F := Ideal) x0 x2 x3 i = Q (f3 x2) (f2 x3) 0 (f3 x0) (i 0) (i 1) (i 2) := by
  rw [val_main_v8_apply, val_main_v7_apply, val_main_v2_apply, b0_apply, val_main_call0_v0_apply, val_main_call0_cst_apply]
  show max ((∑ k : Fin 512, x0 (lidx_main_v2 i k) * _) + _) zero = max ((∑ k : Fin 512, _ * _) + _) zero
  refine congrArg (fun t => max (t + _) zero) (Finset.sum_congr rfl fun k _ => ?_)
  rw [w0_apply]
  exact congrArg (· * _) (congrArg x0 (funext fun a => by match a with | ⟨0, _⟩ => rfl | ⟨1, _⟩ => rfl | ⟨2, _⟩ => rfl))

/-- The relu-projection of the second input with weight slice 0, at (β, l, u). -/
theorem q0_x2 (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (i : S16x1024x512.Idx) :
    val_main_v17 (F := Ideal) x1 x2 x3 i = Q (f3 x2) (f2 x3) 0 (f3 x1) (i 0) (i 1) (i 2) := by
  rw [val_main_v17_apply, val_main_v16_apply, val_main_v11_apply, b0'_apply, val_main_call1_v0_apply, val_main_call1_cst_apply]
  show max ((∑ k : Fin 512, x1 (lidx_main_v11 i k) * _) + _) zero = max ((∑ k : Fin 512, _ * _) + _) zero
  refine congrArg (fun t => max (t + _) zero) (Finset.sum_congr rfl fun k _ => ?_)
  rw [w0'_apply]
  exact congrArg (· * _) (congrArg x1 (funext fun a => by match a with | ⟨0, _⟩ => rfl | ⟨1, _⟩ => rfl | ⟨2, _⟩ => rfl))

/-! ## The Gram matrix of the two projections -/

/-- The Gram matrix of the slice-0 projections of batch row β of the two inputs. -/
abbrev E (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (β : Fin 16) : Fin 1024 → Fin 1024 → EReal :=
  gram (Q (f3 x2) (f2 x3) 0 (f3 x0) β) (Q (f3 x2) (f2 x3) 0 (f3 x1) β)

theorem gram_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (i : S16x1024x1024.Idx) :
    val_main_v18 (F := Ideal) x0 x1 x2 x3 i = E x0 x1 x2 x3 (i 0) (i 1) (i 2) := by
  rw [val_main_v18_apply]
  show (∑ k : Fin 512, _ * _) = ∑ k : Fin 512, _ * _
  refine Finset.sum_congr rfl fun k _ => ?_
  rw [q0_x1, q0_x2]
  rfl

/-! ## The penalties of the two masks -/

/-- The penalty of the second mask, broadcast along the rows: at (β, i, j) it is the penalty of the mask word at (β, j). -/
theorem pen2_apply (x5 : (⟨S16x1024, .i32⟩ : BufTy).Contents (Elt Ideal)) (i : S16x1024x1024.Idx) :
    val_main_v25 (F := Ideal) x5 i = pen (f2 x5 (i 0) (i 2)) := by
  rw [val_main_v25_apply, val_main_v24_apply, val_main_v22_apply, val_main_v21_apply, val_main_cst_apply, val_main_v23_apply,
    val_main_cst_0_apply, val_main_v20_apply, val_main_v19_apply]
  refine congrArg (fun t => (one - FloatOps.sitofp (F := Ideal) .f32 (x5 t)) * big)
    (funext fun a => by match a with | ⟨0, _⟩ => rfl | ⟨1, _⟩ => rfl)

/-- The penalty of the first mask, broadcast along the columns: at (β, i, j) it is the penalty of the mask word at (β, i). -/
theorem pen1_apply (x4 : (⟨S16x1024, .i32⟩ : BufTy).Contents (Elt Ideal)) (i : S16x1024x1024.Idx) :
    val_main_v45 (F := Ideal) x4 i = pen (f2 x4 (i 0) (i 1)) := by
  rw [val_main_v45_apply, val_main_v44_apply, val_main_v42_apply, val_main_v41_apply, val_main_cst_4_apply, val_main_v43_apply,
    val_main_cst_5_apply, val_main_v40_apply, val_main_v39_apply]
  refine congrArg (fun t => (one - FloatOps.sitofp (F := Ideal) .f32 (x4 t)) * big)
    (funext fun a => by match a with | ⟨0, _⟩ => rfl | ⟨1, _⟩ => rfl)

/-! ## The masked scores -/

theorem s2_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (i : S16x1024x1024.Idx) :
    val_main_v26 (F := Ideal) x0 x1 x2 x3 x5 i = E x0 x1 x2 x3 (i 0) (i 1) (i 2) - pen (f2 x5 (i 0) (i 2)) := by
  rw [val_main_v26_apply, gram_apply, pen2_apply]; rfl

theorem s1_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (i : S16x1024x1024.Idx) :
    val_main_v46 (F := Ideal) x0 x1 x2 x3 x4 i = E x0 x1 x2 x3 (i 0) (i 1) (i 2) - pen (f2 x4 (i 0) (i 1)) := by
  rw [val_main_v46_apply, gram_apply, pen1_apply]; rfl

/-- Row (β, i) of the scores masked by the second mask, as a vector over the columns. -/
abbrev rowS (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (β : Fin 16) (i : Fin 1024) : Fin 1024 → EReal :=
  fun j' => E x0 x1 x2 x3 β i j' - (fun j => pen (f2 x5 β j)) j'

/-- Column (β, j) of the scores masked by the first mask, as a vector over the rows. -/
abbrev colS (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (β : Fin 16) (j : Fin 1024) : Fin 1024 → EReal :=
  fun i' => E x0 x1 x2 x3 β i' j - (fun i => pen (f2 x4 β i)) i'

/-! ## The maxima -/

/-- The maximum over the last axis: the running maximum from -∞ along the row, then its maximum with -∞. -/
theorem max2_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (i : S16x1024.Idx) :
    val_main_v29 (F := Ideal) x0 x1 x2 x3 x5 i = vmax (rowS x0 x1 x2 x3 x5 (i 0) (i 1)) := by
  rw [val_main_v29_apply, val_main_v28_apply, val_main_cst_2_apply]
  unfold val_main_v27
  rw [Host.reduce_eq_fold_single (f := FloatOps.maximumf (F := Ideal) (φ := .f32)) _ _ reducesTo_S16x1024x1024_S16x1024_d2 (by decide) h_S_ i,
    val_main_cst_1_apply]
  refine congrArg (fun v => max ninf ((Finset.univ : Finset (Fin 1024)).fold max ninf v)) (funext fun k => ?_)
  show val_main_v26 (F := Ideal) x0 x1 x2 x3 x5 _ = _
  rw [s2_apply]
  rfl

/-- The maximum over the middle axis: the running maximum from -∞ along the column, then its maximum with -∞. -/
theorem max1_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (i : S16x1024.Idx) :
    val_main_v49 (F := Ideal) x0 x1 x2 x3 x4 i = vmax (colS x0 x1 x2 x3 x4 (i 0) (i 1)) := by
  rw [val_main_v49_apply, val_main_v48_apply, val_main_cst_7_apply]
  unfold val_main_v47
  rw [Host.reduce_eq_fold_single (f := FloatOps.maximumf (F := Ideal) (φ := .f32)) _ _ reducesTo_S16x1024x1024_S16x1024_d1 (by decide) h_S_ i,
    val_main_cst_6_apply]
  refine congrArg (fun v => max ninf ((Finset.univ : Finset (Fin 1024)).fold max ninf v)) (funext fun k => ?_)
  show val_main_v46 (F := Ideal) x0 x1 x2 x3 x4 _ = _
  rw [s1_apply]
  rfl

/-! ## The exponentials, their sums and the softmax quotients -/

theorem e2_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (i : S16x1024x1024.Idx) :
    val_main_v33 (F := Ideal) x0 x1 x2 x3 x5 i
      = Ideal.exp (rowS x0 x1 x2 x3 x5 (i 0) (i 1) (i 2) - vmax (rowS x0 x1 x2 x3 x5 (i 0) (i 1))) := by
  rw [val_main_v33_apply, val_main_v32_apply, s2_apply, val_main_v31_apply, val_main_v30_apply, max2_apply]
  rfl

theorem e1_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (i : S16x1024x1024.Idx) :
    val_main_v53 (F := Ideal) x0 x1 x2 x3 x4 i
      = Ideal.exp (colS x0 x1 x2 x3 x4 (i 0) (i 2) (i 1) - vmax (colS x0 x1 x2 x3 x4 (i 0) (i 2))) := by
  rw [val_main_v53_apply, val_main_v52_apply, s1_apply, val_main_v51_apply, val_main_v50_apply, max1_apply]
  rfl

/-- The sum over the last axis starts from the zero word, which is 0. -/
theorem sum2_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (i : S16x1024.Idx) :
    val_main_v34 (F := Ideal) x0 x1 x2 x3 x5 i
      = ∑ j' : Fin 1024, Ideal.exp (rowS x0 x1 x2 x3 x5 (i 0) (i 1) j' - vmax (rowS x0 x1 x2 x3 x5 (i 0) (i 1))) := by
  rw [val_main_v34_apply, val_main_cst_3_apply]
  show Ideal.ofBits .f32 0x00000000#32 + _ = _
  rw [Ideal.ofBits_zero_f32, zero_add]
  refine Finset.sum_congr rfl fun k _ => ?_
  rw [e2_apply]
  rfl

/-- The sum over the middle axis starts from the zero word, which is 0. -/
theorem sum1_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (i : S16x1024.Idx) :
    val_main_v54 (F := Ideal) x0 x1 x2 x3 x4 i
      = ∑ i' : Fin 1024, Ideal.exp (colS x0 x1 x2 x3 x4 (i 0) (i 1) i' - vmax (colS x0 x1 x2 x3 x4 (i 0) (i 1))) := by
  rw [val_main_v54_apply, val_main_cst_8_apply]
  show Ideal.ofBits .f32 0x00000000#32 + _ = _
  rw [Ideal.ofBits_zero_f32, zero_add]
  refine Finset.sum_congr rfl fun k _ => ?_
  rw [e1_apply]
  rfl

theorem p2_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (i : S16x1024x1024.Idx) :
    val_main_v37 (F := Ideal) x0 x1 x2 x3 x5 i = smax (rowS x0 x1 x2 x3 x5 (i 0) (i 1)) (i 2) := by
  rw [val_main_v37_apply, e2_apply, val_main_v36_apply, val_main_v35_apply, sum2_apply]
  rfl

theorem p1_apply (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (i : S16x1024x1024.Idx) :
    val_main_v57 (F := Ideal) x0 x1 x2 x3 x4 i = smax (colS x0 x1 x2 x3 x4 (i 0) (i 2)) (i 1) := by
  rw [val_main_v57_apply, e1_apply, val_main_v56_apply, val_main_v55_apply, sum1_apply]
  rfl

end Cross

open Cross

/-! ## The two results -/

theorem beta_eq (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) :
    val_main_v38 (F := Ideal) x0 x1 x2 x3 x5 = fun j => beta (f3 x0) (f3 x1) (f3 x2) (f2 x3) (f2 x5) (j 0) (j 1) (j 2) := by
  funext j
  rw [val_main_v38_apply]
  unfold beta attnRow
  refine Finset.sum_congr rfl fun k _ => ?_
  rw [p2_apply]
  exact congrArg (_ * ·) (congrArg x1 (funext fun a => by match a with | ⟨0, _⟩ => rfl | ⟨1, _⟩ => rfl | ⟨2, _⟩ => rfl))

theorem alpha_eq (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) :
    val_main_v58 (F := Ideal) x0 x1 x2 x3 x4 = fun j => alpha (f3 x0) (f3 x1) (f3 x2) (f2 x3) (f2 x4) (j 0) (j 1) (j 2) := by
  funext j
  rw [val_main_v58_apply]
  unfold alpha attnCol
  refine Finset.sum_congr rfl fun k _ => ?_
  rw [p1_apply]
  exact congrArg (_ * ·) (congrArg x0 (funext fun a => by match a with | ⟨0, _⟩ => rfl | ⟨1, _⟩ => rfl | ⟨2, _⟩ => rfl))

end Cert.ReferenceIdeal.RefValue

end
-- ==== Proof.RefReadSelf.lean ====
/-
  The reference's two self-attention results read at an index: each is the specification's self-attention of its own
  input, weight slice 1 and its own mask.  The stages are read one at a time at coordinates: the weight slice, the bias
  row, the relu-projection, the Gram matrix, the mask's penalty, the masked scores, their running maximum, the
  exponentials, their row sum, the softmax quotient and the final product with the input.
-/
import proofs.«148046_j8589934611_1_alg».proof.Proof.Gen.ReferenceIdeal.Read
import proofs.«148046_j8589934611_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Spec Idealize.ShloMosaic Idealize.ShloMosaic.ValueIdx

/-- Weight slice 1, reshaped to a matrix, at (k, u) is the stack at (1, k, u). -/
theorem selfW_read (x2 : (⟨S2x512x512, .f32⟩ : BufTy).Contents (Elt Ideal)) (k u : Fin 512) :
    val_main_v60 (F := Ideal) x2 (ix2 k u) = x2 (ix3 1 k u) := by
  rw [val_main_v60_apply, val_main_v59_apply]
  refine congrArg x2 (funext fun a => Fin.ext ?_)
  have hk := k.isLt
  have hu := u.isLt
  match a with
  | ⟨0, _⟩ => rfl
  | ⟨1, _⟩ => show (k.val * 512 + u.val) / 512 % 512 = k.val; omega
  | ⟨2, _⟩ => show (k.val * 512 + u.val) % 512 = u.val; omega

/-- Bias row 1, broadcast over the batch and the rows, at (b, l, u) is the stack at (1, u). -/
theorem selfBias_read (x3 : (⟨S2x512, .f32⟩ : BufTy).Contents (Elt Ideal)) (b : Fin 16) (l : Fin 1024) (u : Fin 512) :
    val_main_v65 (F := Ideal) x3 (ix3 b l u) = x3 (ix2 1 u) := by
  rw [val_main_v65_apply, val_main_v64_apply, val_main_v63_apply, val_main_v62_apply]
  refine congrArg x3 (funext fun a => Fin.ext ?_)
  have hu := u.isLt
  match a with
  | ⟨0, _⟩ => rfl
  | ⟨1, _⟩ => show u.val % 512 = u.val; omega

/-- The relu-projection with weight slice 1 at (b, l, u). -/
theorem selfProj_read (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (b : Fin 16) (l : Fin 1024) (u : Fin 512) :
    val_main_v67 (F := Ideal) x0 x2 x3 (ix3 b l u) = Q (f3 x2) (f2 x3) 1 (f3 x0) b l u := by
  rw [val_main_v67_apply, val_main_v66_apply, val_main_v61_apply, selfBias_read, val_main_call2_v0_apply, val_main_call2_cst_apply]
  have el : ∀ k : Fin 512, lidx_main_v61 (ix3 b l u) k = ix3 b l k := fun k => funext fun a => Fin.ext (by
    match a with | ⟨0, _⟩ => rfl | ⟨1, _⟩ => rfl | ⟨2, _⟩ => rfl)
  have er : ∀ k : Fin 512, ridx_main_v61 (ix3 b l u) k = ix2 k u := fun k => funext fun a => Fin.ext (by
    match a with | ⟨0, _⟩ => rfl | ⟨1, _⟩ => rfl)
  simp only [el, er, selfW_read, Ideal.maximumf_def, Ideal.addf_def, Ideal.ofBits_def]
  rfl

/-- The Gram matrix of the projection at (b, i, j). -/
theorem selfGram_read (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (b : Fin 16) (i j : Fin 1024) :
    val_main_v77 (F := Ideal) x0 x2 x3 (ix3 b i j)
      = gram (Q (f3 x2) (f2 x3) 1 (f3 x0) b) (Q (f3 x2) (f2 x3) 1 (f3 x0) b) i j := by
  rw [val_main_v77_apply]
  have el : ∀ k : Fin 512, lidx_main_v77 (ix3 b i j) k = ix3 b i k := fun k => funext fun a => Fin.ext (by
    match a with | ⟨0, _⟩ => rfl | ⟨1, _⟩ => rfl | ⟨2, _⟩ => rfl)
  have er : ∀ k : Fin 512, ridx_main_v77 (ix3 b i j) k = ix3 b j k := fun k => funext fun a => Fin.ext (by
    match a with | ⟨0, _⟩ => rfl | ⟨1, _⟩ => rfl | ⟨2, _⟩ => rfl)
  simp only [el, er, selfProj_read]
  rfl

/-- The mask's penalty, broadcast over the rows, at (b, i, j). -/
theorem selfPen_read (x4 : (⟨S16x1024, .i32⟩ : BufTy).Contents (Elt Ideal)) (b : Fin 16) (i j : Fin 1024) :
    val_main_v85 (F := Ideal) x4 (ix3 b i j) = pen (f2 x4 b j) := by
  rw [val_main_v85_apply, val_main_v84_apply, val_main_v82_apply, val_main_v81_apply, val_main_cst_9_apply, val_main_v80_apply,
    val_main_v79_apply, val_main_v83_apply, val_main_cst_10_apply]
  have e : idx_main_v80 (idx_main_v85 (ix3 b i j)) = ix2 b j := funext fun a => Fin.ext (by
    match a with | ⟨0, _⟩ => rfl | ⟨1, _⟩ => rfl)
  rw [e]
  rfl

/-- The masked scores at (b, i, j). -/
theorem selfScore_read (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (x4 : (⟨S16x1024, .i32⟩ : BufTy).Contents (Elt Ideal)) (b : Fin 16) (i j : Fin 1024) :
    val_main_v86 (F := Ideal) x0 x2 x3 x4 (ix3 b i j)
      = gram (Q (f3 x2) (f2 x3) 1 (f3 x0) b) (Q (f3 x2) (f2 x3) 1 (f3 x0) b) i j - pen (f2 x4 b j) := by
  rw [val_main_v86_apply, selfGram_read, selfPen_read]
  rfl

/-- A maximum-reduction over the last axis of a [16, 1024, 1024] array, at (b, i): the fold of max over the row from the
    initial value's element. -/
theorem rowMax_read (y : (⟨S16x1024x1024, .f32⟩ : BufTy).Contents (Elt Ideal)) (init : (⟨S_, .f32⟩ : BufTy).Contents (Elt Ideal))
    (b : Fin 16) (i : Fin 1024) :
    Host.reduce (FloatOps.maximumf (F := Ideal) (φ := .f32)) y init reducesTo_S16x1024x1024_S16x1024_d2 h_S_ (ix2 b i)
      = (Finset.univ : Finset (Fin 1024)).fold max (init (Shape.Idx.first h_S_)) (fun j => y (ix3 b i j)) := by
  have hR : S16x1024x1024.Reduces [2] S16x1024 := by decide
  refine (Host.reduce_eq_fold_single (FloatOps.maximumf (F := Ideal) (φ := .f32)) y init reducesTo_S16x1024x1024_S16x1024_d2 hR h_S_ (ix2 b i)).trans ?_
  have e : (y ∘ hR.lift (ix2 b i)) = fun j : Fin 1024 => y (ix3 b i j) := funext fun k => congrArg y (funext fun c => Fin.ext (by
    rw [hR.lift_val]
    match c with | ⟨0, _⟩ => rfl | ⟨1, _⟩ => rfl | ⟨2, _⟩ => rfl))
  rw [e]
  rfl

/-- The maximum the softmax subtracts, at (b, i). -/
theorem selfMax_read (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (x4 : (⟨S16x1024, .i32⟩ : BufTy).Contents (Elt Ideal)) (b : Fin 16) (i : Fin 1024) :
    val_main_v89 (F := Ideal) x0 x2 x3 x4 (ix2 b i) = vmax (fun j => val_main_v86 (F := Ideal) x0 x2 x3 x4 (ix3 b i j)) := by
  rw [val_main_v89_apply, val_main_v88_apply, val_main_cst_12_apply]
  unfold val_main_v87
  generalize val_main_v86 (F := Ideal) x0 x2 x3 x4 = y
  rw [rowMax_read, val_main_cst_11_apply]
  rfl

/-- The exponentials at (b, i, j). -/
theorem selfExp_read (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (x4 : (⟨S16x1024, .i32⟩ : BufTy).Contents (Elt Ideal)) (b : Fin 16) (i j : Fin 1024) :
    val_main_v93 (F := Ideal) x0 x2 x3 x4 (ix3 b i j)
      = Ideal.exp (val_main_v86 (F := Ideal) x0 x2 x3 x4 (ix3 b i j)
          - vmax (fun j' => val_main_v86 (F := Ideal) x0 x2 x3 x4 (ix3 b i j'))) := by
  rw [val_main_v93_apply, val_main_v92_apply, val_main_v91_apply, val_main_v90_apply]
  have e : idx_main_v90 (idx_main_v91 (ix3 b i j)) = ix2 b i := funext fun a => Fin.ext (by
    match a with | ⟨0, _⟩ => rfl | ⟨1, _⟩ => rfl)
  rw [e, selfMax_read]
  rfl

/-- The row sums of the exponentials at (b, i). -/
theorem selfSum_read (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (x4 : (⟨S16x1024, .i32⟩ : BufTy).Contents (Elt Ideal)) (b : Fin 16) (i : Fin 1024) :
    val_main_v94 (F := Ideal) x0 x2 x3 x4 (ix2 b i) = ∑ j : Fin 1024, val_main_v93 (F := Ideal) x0 x2 x3 x4 (ix3 b i j) := by
  rw [val_main_v94_apply, val_main_cst_13_apply]
  have e : ∀ k : Fin 1024, idx_main_v94 (ix2 b i) k = ix3 b i k := fun k => funext fun a => Fin.ext (by
    match a with | ⟨0, _⟩ => rfl | ⟨1, _⟩ => rfl | ⟨2, _⟩ => rfl)
  simp only [e, Ideal.ofBits_def, Ideal.ofBits_zero_f32, zero_add]

/-- The softmax quotient at (b, i, j). -/
theorem selfSoft_read (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (x4 : (⟨S16x1024, .i32⟩ : BufTy).Contents (Elt Ideal)) (b : Fin 16) (i j : Fin 1024) :
    val_main_v97 (F := Ideal) x0 x2 x3 x4 (ix3 b i j)
      = smax (fun j' => val_main_v86 (F := Ideal) x0 x2 x3 x4 (ix3 b i j')) j := by
  rw [val_main_v97_apply, val_main_v96_apply, val_main_v95_apply]
  have e : idx_main_v95 (idx_main_v96 (ix3 b i j)) = ix2 b i := funext fun a => Fin.ext (by
    match a with | ⟨0, _⟩ => rfl | ⟨1, _⟩ => rfl)
  rw [e, selfSum_read]
  simp only [selfExp_read, Ideal.hostDivf_def]
  rfl

/-- The first self-attention result is the specification's, of the first input and the first mask. -/
theorem q1new_eq (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (x4 : (⟨S16x1024, .i32⟩ : BufTy).Contents (Elt Ideal)) :
    val_main_v98 (F := Ideal) x0 x2 x3 x4 = fun j => selfAttn (f3 x0) (f3 x2) (f2 x3) (f2 x4) (j 0) (j 1) (j 2) := by
  funext j
  obtain ⟨b, i, d, rfl⟩ : ∃ (b : Fin 16) (i : Fin 1024) (d : Fin 512), j = ix3 b i d := ⟨j 0, j 1, j 2, eq_ix3 j⟩
  show val_main_v98 (F := Ideal) x0 x2 x3 x4 (ix3 b i d) = selfAttn (f3 x0) (f3 x2) (f2 x3) (f2 x4) b i d
  rw [val_main_v98_apply]
  have el : ∀ k : Fin 1024, lidx_main_v98 (ix3 b i d) k = ix3 b i k := fun k => funext fun a => Fin.ext (by
    match a with | ⟨0, _⟩ => rfl | ⟨1, _⟩ => rfl | ⟨2, _⟩ => rfl)
  have er : ∀ k : Fin 1024, ridx_main_v98 (ix3 b i d) k = ix3 b k d := fun k => funext fun a => Fin.ext (by
    match a with | ⟨0, _⟩ => rfl | ⟨1, _⟩ => rfl | ⟨2, _⟩ => rfl)
  simp only [el, er, selfSoft_read, selfScore_read]
  rfl

/-- The second self-attention result is the same function of the second input and the second mask. -/
theorem q2new_eq (x1 : (⟨S16x1024x512, .f32⟩ : BufTy).Contents (Elt Ideal)) (x2 : (⟨S2x512x512, .f32⟩ : BufTy).Contents (Elt Ideal))
    (x3 : (⟨S2x512, .f32⟩ : BufTy).Contents (Elt Ideal)) (x5 : (⟨S16x1024, .i32⟩ : BufTy).Contents (Elt Ideal)) :
    val_main_v118 (F := Ideal) x1 x2 x3 x5 = fun j => selfAttn (f3 x1) (f3 x2) (f2 x3) (f2 x5) (j 0) (j 1) (j 2) :=
  (show val_main_v118 (F := Ideal) x1 x2 x3 x5 = val_main_v98 (F := Ideal) x1 x2 x3 x5 from rfl).trans (q1new_eq x1 x2 x3 x5)

end Cert.ReferenceIdeal.RefValue

end
-- ==== Proof.lean ====
/-
  The certificate of a co-attention layer: a Pallas program of five kernel calls against its plain jnp reference,
  equal over the extended reals.

  With x1, x2 : [16, 1024, 512], a weight stack K : [2, 512, 512], a bias stack b : [2, 512] and integer masks
  m1, m2 : [16, 1024], both programs compute, per batch row, Q_s(x) = relu (x · K_s + b_s), the Gram matrix
  E = Q_0(x1) · Q_0(x2)ᵀ, and four masked-softmax attentions: beta (rows of E against x2, masked by m2), alpha
  (columns of E against x1, masked by m1), and the self-attentions of x1 and of x2 through Q_1 (Proof/Spec.lean has
  the formulas).  A masked score is E_ij - (1 - m)·1e30 with the SAME finite literal 1e30 on both sides, and the
  softmax is exp (v - μ) / Σ exp (v - μ) with the same running maximum μ from -∞ on both sides: the two programs
  are the same operations in the same order, the kernel's per batch row on [1024, ·] blocks in the matrix unit's
  bf16 operand format (a change of float format is the identity at the ideal instance), the reference's batched.
  So the equality is structural: no law of the extended reals beyond reading a matrix product, a lane sum and a
  lane maximum as a sum and a fold over the contracted or reduced coordinate is used, and the precondition that
  the float inputs are finite is not needed for it.

  The kernel program's run (Proof/KIRun.lean, and the same text at the word-level instance in Proof/KBRun.lean):
  @main is seven items — host operations, the two projection calls, host operations, the cross-attention call
  and the two self-attention calls — each kernel region entered from the buffer contents the item before it left.
  The attention kernels keep their score matrix in a scratch buffer which each grid point writes whole before
  reading it back, so nothing is carried between points.  The four results are read off the last boundary's
  contents (Proof/KIValue.lean) and the reference's off its run (Proof/RefReadCross.lean, Proof/RefReadSelf.lean).
-/
import proofs.«148046_j8589934611_1_alg».proof.Defs
import proofs.«148046_j8589934611_1_alg».proof.Proof.Gen.Kernel
import proofs.«148046_j8589934611_1_alg».proof.Proof.Gen.KernelIdeal
import proofs.«148046_j8589934611_1_alg».proof.Proof.Gen.ReferenceIdeal
import proofs.«148046_j8589934611_1_alg».proof.Proof.Gen.Pre_finite_inputs
import proofs.«148046_j8589934611_1_alg».proof.Proof.KBRun
import proofs.«148046_j8589934611_1_alg».proof.Proof.KIValue
import proofs.«148046_j8589934611_1_alg».proof.Proof.RefReadCross
import proofs.«148046_j8589934611_1_alg».proof.Proof.RefReadSelf
import Idealize.ShloMosaic.Adequacy
import Idealize.ShloMosaic.Init

noncomputable section

namespace Cert.Proof

open Idealize.ShloMosaic Idealize.ShloMosaic.TcCoe Idealize.SL.Sem Cert.Spec

/-- The word-level kernel program runs and leaves its arguments unchanged. -/
theorem frame_k : Cert.frame_Kernel := fun m ρ _ => Cert.Kernel.Fr.frame (F := Bits) m ρ

/-- So does the idealized kernel program. -/
theorem frame_ki : Cert.frame_KernelIdeal := fun m ρ _ => Cert.KernelIdeal.Fr.frame (F := Ideal) m ρ

/-- The reference is host operations only: its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing: the idealization is the program's own text read at the ideal instance. -/
theorem preserves : Cert.preserves_Kernel_KernelIdeal := trivial

open Cert.KernelIdeal.Val in
/-- Both programs end with the four results at the specification's functions of the (agreeing) arguments. -/
theorem algebraic : Cert.algebraic_KernelIdeal_ReferenceIdeal := by
  intro m ρ m' ρ' _ hagree
  refine ⟨fun c => (fun j => beta (f3 (ax1 m c)) (f3 (ax2 m c)) (f3 (aK m c)) (f2 (aB m c)) (f2 (aM2 m c)) (j 0) (j 1) (j 2) : FVec Ideal Cert.KernelIdeal.S16x1024x512 .f32),
    fun c => (fun j => alpha (f3 (ax1 m c)) (f3 (ax2 m c)) (f3 (aK m c)) (f2 (aB m c)) (f2 (aM1 m c)) (j 0) (j 1) (j 2) : FVec Ideal Cert.KernelIdeal.S16x1024x512 .f32),
    fun c => (fun j => selfAttn (f3 (ax1 m c)) (f3 (aK m c)) (f2 (aB m c)) (f2 (aM1 m c)) (j 0) (j 1) (j 2) : FVec Ideal Cert.KernelIdeal.S16x1024x512 .f32),
    fun c => (fun j => selfAttn (f3 (ax2 m c)) (f3 (aK m c)) (f2 (aB m c)) (f2 (aM2 m c)) (j 0) (j 1) (j 2) : FVec Ideal Cert.KernelIdeal.S16x1024x512 .f32),
    ?_, ?_⟩
  · -- the kernel program: every unscoped buffer at the last boundary's contents; the results by the value module, the arguments by the walk back
    refine (θ_run Cert.KernelIdeal.defs _ _).mono (fun r h c => ?_) (Cert.KernelIdeal.Fr.run_main (F := Ideal) m ρ)
    exact ⟨(h c _ (Cert.KernelIdeal.Fr.mem_uc Cert.KernelIdeal.main_v24_0 (by decide))).trans (beta_final m ρ c),
      (h c _ (Cert.KernelIdeal.Fr.mem_uc Cert.KernelIdeal.main_v24_1 (by decide))).trans (alpha_final m ρ c),
      (h c _ (Cert.KernelIdeal.Fr.mem_uc Cert.KernelIdeal.main_v25 (by decide))).trans (q1_final m ρ c),
      (h c _ (Cert.KernelIdeal.Fr.mem_uc Cert.KernelIdeal.main_v26 (by decide))).trans (q2_final m ρ c),
      (h c _ (Cert.KernelIdeal.Fr.mem_uc Cert.KernelIdeal.main_arg0 (by decide))).trans (Cert.KernelIdeal.Fr.W7_main_arg0 m ρ c),
      (h c _ (Cert.KernelIdeal.Fr.mem_uc Cert.KernelIdeal.main_arg1 (by decide))).trans (Cert.KernelIdeal.Fr.W7_main_arg1 m ρ c),
      (h c _ (Cert.KernelIdeal.Fr.mem_uc Cert.KernelIdeal.main_arg2 (by decide))).trans (Cert.KernelIdeal.Fr.W7_main_arg2 m ρ c),
      (h c _ (Cert.KernelIdeal.Fr.mem_uc Cert.KernelIdeal.main_arg3 (by decide))).trans (Cert.KernelIdeal.Fr.W7_main_arg3 m ρ c),
      (h c _ (Cert.KernelIdeal.Fr.mem_uc Cert.KernelIdeal.main_arg4 (by decide))).trans (Cert.KernelIdeal.Fr.W7_main_arg4 m ρ c),
      (h c _ (Cert.KernelIdeal.Fr.mem_uc Cert.KernelIdeal.main_arg5 (by decide))).trans (Cert.KernelIdeal.Fr.W7_main_arg5 m ρ c)⟩
  · -- the reference: its run's result terms are the stages, the stages the specification, at arguments that agree
    refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5⟩ := hagree c
    refine ⟨?_, ?_, ?_, ?_, hargs⟩
    · rw [h0, Cert.ReferenceIdeal.Read.val_main_v38_eq, Cert.ReferenceIdeal.RefValue.beta_eq, e0, e1, e2, e3, e5]
    · rw [h1, Cert.ReferenceIdeal.Read.val_main_v58_eq, Cert.ReferenceIdeal.RefValue.alpha_eq, e0, e1, e2, e3, e4]
    · rw [h2, Cert.ReferenceIdeal.Read.val_main_v98_eq, Cert.ReferenceIdeal.RefValue.q1new_eq, e0, e2, e3, e4]
    · rw [h3, Cert.ReferenceIdeal.Read.val_main_v118_eq, Cert.ReferenceIdeal.RefValue.q2new_eq, e1, e2, e3, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
